-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x128 : Shape := ⟨2, ![2000000, 128]⟩
abbrev S2000000 : Shape := ⟨1, ![2000000]⟩
abbrev S128x256 : Shape := ⟨2, ![128, 256]⟩
abbrev S256 : Shape := ⟨1, ![256]⟩
abbrev S_ : Shape := ⟨0, ![]⟩

class Facts : Prop where
  bcast_S_S2000000x128 : S_.BroadcastsInDim S2000000x128 (![] : Fin 0 → Fin S2000000x128.rank)
  reducesTo_S2000000x128_S_d0_1 : S2000000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S2000000x128 .f32) (main_arg1 : IVec S2000000 32) (main_arg2 : FVec F S128x256 .f32) (main_arg3 : FVec F S256 .f32) (main_arg4 : FVec F S256 .f32) (main_arg5 : FVec F S256 .f32) : IVec S_ 1 :=
  let main_v0 : FVec F S2000000x128 .f32 := Host.absf main_arg0
  let main_cst : FVec F S_ .f32 := constant S_ .f32 0x7F800000#32
  let main_v1 : FVec F S2000000x128 .f32 := broadcastInDim S2000000x128 ![] bcast_S_S2000000x128 main_cst
  let main_v2 : IVec S2000000x128 1 := cmpf .olt main_v0 main_v1
  let main_c : IVec S_ 1 := constantI S_ 1 1#1
  let main_v3 : IVec S_ 1 := (fun x v => Host.reduce IntOp.andi x v reducesTo_S2000000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_v13 main_v16
-- ==== Kernel.lean ====
abbrev S2000000x128 : Shape := ⟨2, ![2000000, 128]⟩
abbrev S2000000 : Shape := ⟨1, ![2000000]⟩
abbrev S128x256 : Shape := ⟨2, ![128, 256]⟩
abbrev S256 : Shape := ⟨1, ![256]⟩
abbrev S_ : Shape := ⟨0, ![]⟩
abbrev S2015232x128 : Shape := ⟨2, ![2015232, 128]⟩
abbrev S2015232 : Shape := ⟨1, ![2015232]⟩
abbrev S1x2015232 : Shape := ⟨2, ![1, 2015232]⟩
abbrev S1x256 : Shape := ⟨2, ![1, 256]⟩
abbrev S2x256x128 : Shape := ⟨3, ![2, 256, 128]⟩
abbrev S2x256x1 : Shape := ⟨3, ![2, 256, 1]⟩
abbrev S8192x128 : Shape := ⟨2, ![8192, 128]⟩
abbrev S1x8192 : Shape := ⟨2, ![1, 8192]⟩
abbrev S1x256x128 : Shape := ⟨3, ![1, 256, 128]⟩
abbrev S1x256x1 : Shape := ⟨3, ![1, 256, 1]⟩
abbrev S256x128 : Shape := ⟨2, ![256, 128]⟩
abbrev S256x1 : Shape := ⟨2, ![256, 1]⟩
abbrev S256x8192 : Shape := ⟨2, ![256, 8192]⟩
abbrev S256x256 : Shape := ⟨2, ![256, 256]⟩

abbrev nBuf : Space → Nat
  | .hbm => 19
  | .vmem => 17
  | .smem => 0
  | _ => 0

abbrev bufTy : (tb : Table) → Fin (tcTables nBuf tb) → BufTy
  | .hbm, ⟨0, _⟩ => ⟨S2000000x128, .f32⟩
  | .hbm, ⟨1, _⟩ => ⟨S2000000, .i32⟩
  | .hbm, ⟨2, _⟩ => ⟨S128x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .i32⟩
  | .hbm, ⟨7, _⟩ => ⟨S_, .f32⟩
  | .hbm, ⟨8, _⟩ => ⟨S2015232x128, .f32⟩
  | .hbm, ⟨9, _⟩ => ⟨S_, .i32⟩
  | .hbm, ⟨10, _⟩ => ⟨S_, .i32⟩
  | .hbm, ⟨11, _⟩ => ⟨S2015232, .i32⟩
  | .hbm, ⟨12, _⟩ => ⟨S1x2015232, .i32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S2x256x128, .f32⟩
  | .hbm, ⟨17, _⟩ => ⟨S2x256x1, .f32⟩
  | .hbm, ⟨18, _⟩ => ⟨S256x256, .f32⟩
  | .local _ .vmem, ⟨0, _⟩ => ⟨S8192x128, .f32⟩
  | .local _ .vmem, ⟨1, _⟩ => ⟨S8192x128, .f32⟩
  | .local _ .vmem, ⟨2, _⟩ => ⟨S1x8192, .i32⟩
  | .local _ .vmem, ⟨3, _⟩ => ⟨S1x8192, .i32⟩
  | .local _ .vmem, ⟨4, _⟩ => ⟨S1x256x128, .f32⟩
  | .local _ .vmem, ⟨5, _⟩ => ⟨S1x256x128, .f32⟩
  | .local _ .vmem, ⟨6, _⟩ => ⟨S1x256x1, .f32⟩
  | .local _ .vmem, ⟨7, _⟩ => ⟨S1x256x1, .f32⟩
  | .local _ .vmem, ⟨8, _⟩ => ⟨S256x128, .f32⟩
  | .local _ .vmem, ⟨9, _⟩ => ⟨S256x1, .f32⟩
  | .local _ .vmem, ⟨10, _⟩ => ⟨S2x256x128, .f32⟩
  | .local _ .vmem, ⟨11, _⟩ => ⟨S2x256x1, .f32⟩
  | .local _ .vmem, ⟨12, _⟩ => ⟨S128x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S256x256, .f32⟩
  | _, _ => ⟨S2000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14

abbrev nD : Nat := 1
abbrev τ : Topo := Topo.v7x

variable {F : FTy → Type} [FloatOps F]

abbrev grid0 : Pipeline.Grid := ⟨2, ![2, 123], ![false, false]⟩

def k0_cond2 (i : grid0.Coords) : BitVec 1 :=
  let arg1 : BitVec 32 := BitVec.ofNat 32 (i 1).val
  let c122_i32 : BitVec 32 := 122#32
  let v32 : BitVec 1 := Scalar.cmpi .eq arg1 c122_i32
  let v33 : BitVec 32 := Scalar.extui v32
  let c0_i32_13 : BitVec 32 := 0#32
  let v34 : BitVec 1 := Scalar.cmpi .ne v33 c0_i32_13
  v34

def cc0_transform_0 (i : grid0.Coords) : Fin 2 → Nat :=
  let arg0 : BitVec 32 := BitVec.ofNat 32 (i 0).val
  let arg1 : BitVec 32 := BitVec.ofNat 32 (i 1).val
  let c123_i32 : BitVec 32 := 123#32
  let v0 : BitVec 32 := Scalar.muli arg0 c123_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c123_i32 : BitVec 32 := 123#32
  let v0 : BitVec 32 := Scalar.muli arg0 c123_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2x256x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2x256x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  pads_S2000000x128_S2015232x128_0152320_000 : S2000000x128.Pads (![0, 0] : Fin 2 → Nat) ![15232, 0] ![0, 0] S2015232x128
  h_S_ : 0 < S_.numel
  pads_S2000000_S2015232_0152320 : S2000000.Pads (![0] : Fin 1 → Nat) ![15232] ![0] S2015232
  shapeCasts_S2015232_S1x2015232 : S2015232.ShapeCasts S1x2015232
  shapeCasts_S256_S1x256 : S256.ShapeCasts S1x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x1_d0_w32 : S256x1.Iotas .tc 32 [0]
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S256x1_S256x8192 : S256x1.Broadcasts S256x8192
  broadcasts_S1x8192_S256x8192 : S1x8192.Broadcasts S256x8192
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  natLt_1_32 : 1 < 32
  reduces_S256x8192_S256 : S256x8192.Reduces [1] S256
  shapeCasts_S256_S256x1 : S256.ShapeCasts S256x1
  shapeCasts_S256x128_S1x256x128 : S256x128.ShapeCasts S1x256x128
  inb_S1x256x128_S1x256x128_0_0_0 : ∀ a, (![0, 0, 0] : Fin 3 → Nat) a + S1x256x128.size a ≤ S1x256x128.size a
  h_S1x256x128 : 0 < S1x256x128.numel
  shapeCasts_S256x1_S1x256x1 : S256x1.ShapeCasts S1x256x1
  inb_S1x256x1_S1x256x1_0_0_0 : ∀ a, (![0, 0, 0] : Fin 3 → Nat) a + S1x256x1.size a ≤ S1x256x1.size a
  h_S1x256x1 : 0 < S1x256x1.numel
  inb_S2x256x128_S1x256x128_0_0_0 : ∀ a, (![0, 0, 0] : Fin 3 → Nat) a + S1x256x128.size a ≤ S2x256x128.size a
  shapeCasts_S1x256x128_S256x128 : S1x256x128.ShapeCasts S256x128
  inb_S2x256x128_S1x256x128_1_0_0 : ∀ a, (![1, 0, 0] : Fin 3 → Nat) a + S1x256x128.size a ≤ S2x256x128.size a
  inb_S2x256x1_S1x256x1_0_0_0 : ∀ a, (![0, 0, 0] : Fin 3 → Nat) a + S1x256x1.size a ≤ S2x256x1.size a
  shapeCasts_S1x256x1_S256x1 : S1x256x1.ShapeCasts S256x1
  inb_S2x256x1_S1x256x1_1_0_0 : ∀ a, (![1, 0, 0] : Fin 3 → Nat) a + S1x256x1.size a ≤ S2x256x1.size a
  broadcasts_S256x1_S256x128 : S256x1.Broadcasts S256x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  reduces_S256x256_S256 : S256x256.Reduces [1] S256
  broadcasts_S256x1_S256x256 : S256x1.Broadcasts S256x256
  inb_S256x256_S256x256_0_0 : ∀ a, (![0, 0] : Fin 2 → Nat) a + S256x256.size a ≤ S256x256.size a
  h_S256x256 : 0 < S256x256.numel
  dot_S256x8192_S8192x128_S256x128_1_0_0_1_n_n_wf : DotDims.WF S256x8192 S8192x128 S256x128 [1] [0] [0] [1] [] []
  dot_S256x128_S128x256_S256x256_1_0_0_1_n_n_wf : DotDims.WF S256x128 S128x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S2015232x128.size a
  hwx0_0 : ∀ i : grid0.Coords, EltTy.bits .f32 = 32 ∨ (Rect.block (s := S2015232x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x2015232.size a
  hwx0_1 : ∀ i : grid0.Coords, EltTy.bits .i32 = 32 ∨ (Rect.block (s := S1x2015232) S1x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x128.size a ≤ S2x256x128.size a
  hwx0_2 : ∀ i : grid0.Coords, EltTy.bits .f32 = 32 ∨ (Rect.block (s := S2x256x128) S1x256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S2x256x1.size a
  hwx0_3 : ∀ i : grid0.Coords, EltTy.bits .f32 = 32 ∨ (Rect.block (s := S2x256x1) S1x256x1.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x256x128.size a ≤ S2x256x128.size a
  hwx1_0 : ∀ i : grid1.Coords, EltTy.bits .f32 = 32 ∨ (Rect.block (s := S2x256x128) S2x256x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x256x1.size a ≤ S2x256x1.size a
  hwx1_1 : ∀ i : grid1.Coords, EltTy.bits .f32 = 32 ∨ (Rect.block (s := S2x256x1) S2x256x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)

variable [Facts₀]

def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6_0) S1x256x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_1) S1x256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v6_0) S2x256x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S2x256x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S256x256.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S2000000x128 : Shape := ⟨2, ![2000000, 128]⟩
abbrev S2000000 : Shape := ⟨1, ![2000000]⟩
abbrev S128x256 : Shape := ⟨2, ![128, 256]⟩
abbrev S256 : Shape := ⟨1, ![256]⟩
abbrev S_ : Shape := ⟨0, ![]⟩
abbrev S256x128 : Shape := ⟨2, ![256, 128]⟩
abbrev S2000000x1 : Shape := ⟨2, ![2000000, 1]⟩
abbrev S256x1 : Shape := ⟨2, ![256, 1]⟩
abbrev S256x256 : Shape := ⟨2, ![256, 256]⟩
abbrev S1x256 : Shape := ⟨2, ![1, 256]⟩

abbrev nBuf : Space → Nat
  | .hbm => 55
  | .vmem => 0
  | .smem => 0
  | _ => 0

abbrev bufTy : (tb : Table) → Fin (tcTables nBuf tb) → BufTy
  | .hbm, ⟨0, _⟩ => ⟨S2000000x128, .f32⟩
  | .hbm, ⟨1, _⟩ => ⟨S2000000, .i32⟩
  | .hbm, ⟨2, _⟩ => ⟨S128x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S256x128, .f32⟩
  | .hbm, ⟨8, _⟩ => ⟨S2000000x1, .i32⟩
  | .hbm, ⟨9, _⟩ => ⟨S256x128, .f32⟩
  | .hbm, ⟨10, _⟩ => ⟨S_, .f32⟩
  | .hbm, ⟨11, _⟩ => ⟨S2000000, .f32⟩
  | .hbm, ⟨12, _⟩ => ⟨S_, .f32⟩
  | .hbm, ⟨13, _⟩ => ⟨S256, .f32⟩
  | .hbm, ⟨14, _⟩ => ⟨S2000000x1, .i32⟩
  | .hbm, ⟨15, _⟩ => ⟨S256, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S256x1, .f32⟩
  | .hbm, ⟨20, _⟩ => ⟨S256x128, .f32⟩
  | .hbm, ⟨21, _⟩ => ⟨S256x128, .f32⟩
  | .hbm, ⟨22, _⟩ => ⟨S256x256, .f32⟩
  | .hbm, ⟨23, _⟩ => ⟨S1x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256, .f32⟩
  | .hbm, ⟨28, _⟩ => ⟨S256x1, .f32⟩
  | .hbm, ⟨29, _⟩ => ⟨S_, .f32⟩
  | .hbm, ⟨30, _⟩ => ⟨S256x1, .f32⟩
  | .hbm, ⟨31, _⟩ => ⟨S256x1, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S_, .f32⟩
  | .hbm, ⟨36, _⟩ => ⟨S256, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S256x256, .f32⟩
  | .hbm, ⟨42, _⟩ => ⟨S256x256, .f32⟩
  | .hbm, ⟨43, _⟩ => ⟨S_, .f32⟩
  | .hbm, ⟨44, _⟩ => ⟨S256x1, .f32⟩
  | .hbm, ⟨45, _⟩ => ⟨S256x1, .f32⟩
  | .hbm, ⟨46, _⟩ => ⟨S256x1, .f32⟩
  | .hbm, ⟨47, _⟩ => ⟨S256x256, .f32⟩
  | .hbm, ⟨48, _⟩ => ⟨S256x256, .f32⟩
  | .hbm, ⟨49, _⟩ => ⟨S1x256, .f32⟩
  | .hbm, ⟨50, _⟩ => ⟨S256x256, .f32⟩
  | .hbm, ⟨51, _⟩ => ⟨S256x256, .f32⟩
  | .hbm, ⟨52, _⟩ => ⟨S1x256, .f32⟩
  | .hbm, ⟨53, _⟩ => ⟨S256x256, .f32⟩
  | .hbm, ⟨54, _⟩ => ⟨S256x256, .f32⟩
  | _, _ => ⟨S2000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S_S256x128 : S_.BroadcastsInDim S256x128 (![] : Fin 0 → Fin S256x128.rank)
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  reducesTo_S256x256_S256_d1 : S256x256.ReducesTo [1] S256
  h_S_ : 0 < S_.numel
  bcast_S_S256x1 : S_.BroadcastsInDim S256x1 (![] : Fin 0 → Fin S256x1.rank)
  bcast_S256x1_S256x256_0_1 : S256x1.BroadcastsInDim S256x256 (![0, 1] : Fin 2 → Fin S256x256.rank)
  scatter_S256x128_S2000000x1_S2000000x128_1_0_0_1_wf : ScatterDims.WF S256x128 S2000000x1 S2000000x128 [1] [0] [0] 1
  scatter_S256_S2000000x1_S2000000_n_0_0_1_wf : ScatterDims.WF S256 S2000000x1 S2000000 [] [0] [0] 1
  dot_S256x128_S128x256_S256x256_1_0_0_1_n_n_wf : DotDims.WF S256x128 S128x256 S256x256 [1] [0] [0] [1] [] []

variable [Facts₀]

def scatter_S256x128_S2000000x1_S2000000x128_1_0_0_1 : ScatterDims S256x128 S2000000x1 S2000000x128 where
  updateWindowDims := [1]
  insertedWindowDims := [0]
  scatterDimsToOperandDims := [0]
  indexVectorDim := 1
  wf := scatter_S256x128_S2000000x1_S2000000x128_1_0_0_1_wf
def scatter_S256_S2000000x1_S2000000_n_0_0_1 : ScatterDims S256 S2000000x1 S2000000 where
  updateWindowDims := []
  insertedWindowDims := [0]
  scatterDimsToOperandDims := [0]
  indexVectorDim := 1
  wf := scatter_S256_S2000000x1_S2000000_n_0_0_1_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf

class Facts : Prop extends Facts₀ where

variable [Facts]
-- ==== Proof.Bits.Body0.lean ====
import proofs.«413057_j54305566490875_2_alg».proof.Proof.Gen.Kernel.Launch
import proofs.«413057_j54305566490875_2_alg».proof.Proof.Gen.Kernel.Skeleton
import proofs.«413057_j54305566490875_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, however many axes. -/
theorem hz2' : (![0, 0] : Fin 2 → Nat) = fun _ => 0 := by funext a; fin_cases a <;> rfl
theorem hz3' : (![0, 0, 0] : Fin 3 → Nat) = fun _ => 0 := by funext a; fin_cases a <;> rfl

/-- The first kernel's two branch conditions, from the grid coordinates: at the first step of the inner axis it
    resets its two accumulators; at the last step it stores them into its outputs. -/
abbrev cond0 (i : grid0.Coords) : Prop := (Scalar.cmpi .ne (Scalar.extui (Scalar.cmpi .eq (BitVec.ofNat 32 (i 1).val) 0#32)) 0#32) = 1#1
abbrev cond1 (i : grid0.Coords) : Prop := k0_cond2 i = 1#1

variable (c : Dev nD) (E : Set ℕ) (i : grid0.Coords)
    (arg2 : Memref sig .tc .vmem S8192x128 .f32) (harg2 : arg2.IsWhole) (arg3 : Memref sig .tc .vmem S1x8192 .i32) (harg3 : arg3.IsWhole)
    (arg4 : Memref sig .tc .vmem S1x256x128 .f32) (harg4 : arg4.IsWhole) (arg5 : Memref sig .tc .vmem S1x256x1 .f32) (harg5 : arg5.IsWhole)
    (arg6 : Memref sig .tc .vmem S256x128 .f32) (harg6 : arg6.IsWhole) (arg7 : Memref sig .tc .vmem S256x1 .f32) (harg7 : arg7.IsWhole)
    (x : Vec F S8192x128 .f32) (b : Vec F S1x8192 .i32)

set_option maxHeartbeats 1000000 in
/-- At a first step (reset, no output store): whatever the accumulators held, they end at one block's update of the
    reset values; the inputs are left as they were and the outputs' buffers are not touched. -/
theorem sound_kernel0_A (hc0 : cond0 i) (hc1 : ¬cond1 i) (K : PUnit → sProp 𝕄) :
    iprop(owns (c : Thread nD τ) arg2 fullShare x ∗ owns (c : Thread nD τ) arg3 fullShare b
        ∗ (∃ d, owns (c : Thread nD τ) arg6 fullShare d) ∗ (∃ d, owns (c : Thread nD τ) arg7 fullShare d)
        ∗ (iprop(owns (c : Thread nD τ) arg2 fullShare x ∗ owns (c : Thread nD τ) arg3 fullShare b
            ∗ owns (c : Thread nD τ) arg6 fullShare (k0_pay4 b x (k0_pay1 (F := F))) ∗ owns (c : Thread nD τ) arg7 fullShare (k0_pay5 b (k0_pay2 (F := F)))) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f0, %hf0, H0⟩, ⟨%f1, %hf1, H1⟩, ⟨%ds0, %fs0, -, HS0⟩, ⟨%ds1, %fs1, -, HS1⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HS0]
  · iexists _; isplitr
    swap; · iexact HS0
    ipureintro
    sl_unfold_words
    rw [View.read_writes_eq_canon _ _ _ (fun y => ⟨_, List.Mem.head _, View.mem_set_unit_zero hz2' Facts₀.inb_S256x128_S256x128_0_0 y⟩),
      View.canon_cons_unit_zero hz2']
    simp only [View.readAt_eq_ld, harg2.read_unread, harg3.read_unread, harg6.read_unread, View.readCov_unit_zero (S := S256x128) _ hz2',
      View.ld_unit_zero (S := S1x8192) hz2', View.ld_unit_zero (S := S8192x128) hz2', View.ld_unit_zero (S := S256x128) hz2']
  · iexists _; isplitr
    swap; · iexact HS1
    ipureintro
    sl_unfold_words
    rw [View.read_writes_eq_canon _ _ _ (fun y => ⟨_, List.Mem.head _, View.mem_set_unit_zero hz2' Facts₀.inb_S256x1_S256x1_0_0 y⟩),
      View.canon_cons_unit_zero hz2']
    simp only [View.readAt_eq_ld, harg3.read_unread, harg7.read_unread, View.readCov_unit_zero (S := S256x1) _ hz2',
      View.ld_unit_zero (S := S1x8192) hz2', View.ld_unit_zero (S := S256x1) hz2']

set_option maxHeartbeats 1000000 in
/-- At a middle step (no reset, no output store): the accumulators go from `s0`, `s1` to one block's update of them. -/
theorem sound_kernel0_B (hc0 : ¬cond0 i) (hc1 : ¬cond1 i) (s0 : Vec F S256x128 .f32) (s1 : Vec F S256x1 .f32) (K : PUnit → sProp 𝕄) :
    iprop(owns (c : Thread nD τ) arg2 fullShare x ∗ owns (c : Thread nD τ) arg3 fullShare b
        ∗ owns (c : Thread nD τ) arg6 fullShare s0 ∗ owns (c : Thread nD τ) arg7 fullShare s1
        ∗ (iprop(owns (c : Thread nD τ) arg2 fullShare x ∗ owns (c : Thread nD τ) arg3 fullShare b
            ∗ owns (c : Thread nD τ) arg6 fullShare (k0_pay4 b x s0) ∗ owns (c : Thread nD τ) arg7 fullShare (k0_pay5 b s1)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f0, %hf0, H0⟩, ⟨%f1, %hf1, H1⟩, ⟨%fs0, %hfs0, HS0⟩, ⟨%fs1, %hfs1, HS1⟩, Hk⟩
  obtain rfl := harg2.eq_unread hf0; obtain rfl := harg3.eq_unread hf1
  obtain rfl := harg6.eq_unread hfs0; obtain rfl := harg7.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HS0]
  · iexists _; isplitr
    swap; · iexact HS0
    ipureintro
    sl_unfold_words
    rw [View.read_writes_eq_canon _ _ _ (fun y => ⟨_, List.Mem.head _, View.mem_set_unit_zero hz2' Facts₀.inb_S256x128_S256x128_0_0 y⟩),
      View.canon_cons_unit_zero hz2']
    simp only [View.readAt_eq_ld, harg2.read_unread, harg3.read_unread, harg6.read_unread, View.readCov_unit_zero (S := S256x128) _ hz2',
      View.ld_unit_zero (S := S1x8192) hz2', View.ld_unit_zero (S := S8192x128) hz2', View.ld_unit_zero (S := S256x128) hz2']
  · iexists _; isplitr
    swap; · iexact HS1
    ipureintro
    sl_unfold_words
    rw [View.read_writes_eq_canon _ _ _ (fun y => ⟨_, List.Mem.head _, View.mem_set_unit_zero hz2' Facts₀.inb_S256x1_S256x1_0_0 y⟩),
      View.canon_cons_unit_zero hz2']
    simp only [View.readAt_eq_ld, harg3.read_unread, harg7.read_unread, View.readCov_unit_zero (S := S256x1) _ hz2',
      View.ld_unit_zero (S := S1x8192) hz2', View.ld_unit_zero (S := S256x1) hz2']

set_option maxHeartbeats 1000000 in
/-- At a last step (no reset, the outputs stored): the accumulators are updated as at a middle step, and the two
    outputs' buffers, whatever they held, end holding the updated accumulators under a leading unit axis. -/
theorem sound_kernel0_C (hc0 : ¬cond0 i) (hc1 : cond1 i) (s0 : Vec F S256x128 .f32) (s1 : Vec F S256x1 .f32) (K : PUnit → sProp 𝕄) :
    iprop(owns (c : Thread nD τ) arg2 fullShare x ∗ owns (c : Thread nD τ) arg3 fullShare b
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg2 fullShare x ∗ owns (c : Thread nD τ) arg3 fullShare b
            ∗ owns (c : Thread nD τ) arg4 fullShare (k0_pay6 (k0_pay4 b x s0)) ∗ owns (c : Thread nD τ) arg5 fullShare (k0_pay7 (k0_pay5 b s1))
            ∗ owns (c : Thread nD τ) arg6 fullShare (k0_pay4 b x s0) ∗ owns (c : Thread nD τ) arg7 fullShare (k0_pay5 b s1)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f0, %hf0, H0⟩, ⟨%f1, %hf1, H1⟩, ⟨%d4, %f4, -, H4⟩, ⟨%d5, %f5, -, H5⟩, ⟨%fs0, %hfs0, HS0⟩, ⟨%fs1, %hfs1, HS1⟩, Hk⟩
  obtain rfl := harg2.eq_unread hf0; obtain rfl := harg3.eq_unread hf1
  obtain rfl := harg6.eq_unread hfs0; obtain rfl := harg7.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_eq_canon _ _ _ (fun y => ⟨_, List.Mem.head _, View.mem_set_unit_zero hz3' Facts₀.inb_S1x256x128_S1x256x128_0_0_0 y⟩),
      View.canon_cons_unit_zero hz3']
    simp only [View.readAt_eq_ld, harg2.read_unread, harg3.read_unread, harg6.read_unread, View.readCov_unit_zero (S := S256x128) _ hz2',
      View.ld_unit_zero (S := S1x8192) hz2', View.ld_unit_zero (S := S8192x128) hz2', View.ld_unit_zero (S := S256x128) hz2']
  isplitl [H5]
  · iexists _; isplitr
    swap; · iexact H5
    ipureintro
    sl_unfold_words
    rw [View.read_writes_eq_canon _ _ _ (fun y => ⟨_, List.Mem.head _, View.mem_set_unit_zero hz3' Facts₀.inb_S1x256x1_S1x256x1_0_0_0 y⟩),
      View.canon_cons_unit_zero hz3']
    simp only [View.readAt_eq_ld, harg3.read_unread, harg7.read_unread, View.readCov_unit_zero (S := S256x1) _ hz2',
      View.ld_unit_zero (S := S1x8192) hz2', View.ld_unit_zero (S := S256x1) hz2']
  isplitl [HS0]
  · iexists _; isplitr
    swap; · iexact HS0
    ipureintro
    sl_unfold_words
    rw [View.read_writes_eq_canon _ _ _ (fun y => ⟨_, List.Mem.head _, View.mem_set_unit_zero hz2' Facts₀.inb_S256x128_S256x128_0_0 y⟩),
      View.canon_cons_unit_zero hz2']
    simp only [View.readAt_eq_ld, harg2.read_unread, harg3.read_unread, harg6.read_unread, View.readCov_unit_zero (S := S256x128) _ hz2',
      View.ld_unit_zero (S := S1x8192) hz2', View.ld_unit_zero (S := S8192x128) hz2', View.ld_unit_zero (S := S256x128) hz2']
  · iexists _; isplitr
    swap; · iexact HS1
    ipureintro
    sl_unfold_words
    rw [View.read_writes_eq_canon _ _ _ (fun y => ⟨_, List.Mem.head _, View.mem_set_unit_zero hz2' Facts₀.inb_S256x1_S256x1_0_0 y⟩),
      View.canon_cons_unit_zero hz2']
    simp only [View.readAt_eq_ld, harg3.read_unread, harg7.read_unread, View.readCov_unit_zero (S := S256x1) _ hz2',
      View.ld_unit_zero (S := S1x8192) hz2', View.ld_unit_zero (S := S256x1) hz2']

end Cert.Kernel.Hand

end
-- ==== Proof.Bits.Dat0.lean ====
import proofs.«413057_j54305566490875_2_alg».proof.Proof.Gen.Kernel.Launch
import proofs.«413057_j54305566490875_2_alg».proof.Proof.Gen.Kernel.Skeleton
import proofs.«413057_j54305566490875_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«413057_j54305566490875_2_alg».proof.Proof.Bits.Body0
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel region: what its buffers hold point by point, and the body obligation

The grid has 2 × 123 points; point `t` handles block `t` of the padded edges. The two accumulators live in two
scratch buffers the kernel keeps between points: reset at every point whose number is a multiple of 123, updated by
one block at every point, and stored into the two output windows at the points ≡ 122 (mod 123), where the pipeline
writes those windows back. At every other point the output windows are idle. -/

section Region0

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The two input blocks at a point, at their literal types: a block of 8192 feature rows and its 8192 index words. -/
abbrev xblk (c : Dev nD) (t : Fin cfg0.N) : Vec F S8192x128 .f32 := iblk0 V c 0 t
abbrev bblk (c : Dev nD) (t : Fin cfg0.N) : Vec F S1x8192 .i32 := iblk0 V c 1 t

/-! ## The branch conditions in closed form, and where the output windows are idle -/

theorem hcond0 : ∀ t : Fin cfg0.N, cond0 (grid0.coords t) ↔ t.val % 123 = 0 :=
  (by decide +kernel : ∀ t : Fin grid0.N, cond0 (grid0.coords t) ↔ t.val % 123 = 0)
theorem hcond1 : ∀ t : Fin cfg0.N, cond1 (grid0.coords t) ↔ t.val % 123 = 122 :=
  (by decide +kernel : ∀ t : Fin grid0.N, cond1 (grid0.coords t) ↔ t.val % 123 = 122)

theorem liveAt0_0 : ∀ t : Fin cfg0.N, cfg0.idle 0 (grid0.coords t) = false := fun _ => rfl
theorem liveAt0_1 : ∀ t : Fin cfg0.N, cfg0.idle 1 (grid0.coords t) = false := fun _ => rfl
theorem idleAt0_2 : ∀ t : Fin cfg0.N, ¬cond1 (grid0.coords t) → cfg0.idle 2 (grid0.coords t) = true := by decide +kernel
theorem idleAt0_3 : ∀ t : Fin cfg0.N, ¬cond1 (grid0.coords t) → cfg0.idle 3 (grid0.coords t) = true := by decide +kernel
theorem noFlush0_2 : ∀ t : Fin cfg0.N, ¬cond1 (grid0.coords t) → (cfg0.win 2).flush t = false := by decide +kernel
theorem noFlush0_3 : ∀ t : Fin cfg0.N, ¬cond1 (grid0.coords t) → (cfg0.win 3).flush t = false := by decide +kernel
theorem liveAt0_2 : ∀ t : Fin cfg0.N, cond1 (grid0.coords t) → cfg0.idle 2 (grid0.coords t) = false := by decide +kernel
theorem liveAt0_3 : ∀ t : Fin cfg0.N, cond1 (grid0.coords t) → cfg0.idle 3 (grid0.coords t) = false := by decide +kernel

/-! ## The accumulators after each point -/

/-- What the two scratch accumulators hold after the body at position `n`: at a multiple of 123 one block's update
    of the reset values, else one block's update of what the point before left. -/
def accAt (c : Dev nD) : (n : ℕ) → n < cfg0.N → Vec F S256x128 .f32 × Vec F S256x1 .f32
  | 0, hn => (k0_pay4 (bblk V c ⟨0, hn⟩) (xblk V c ⟨0, hn⟩) (k0_pay1 (F := F)), k0_pay5 (bblk V c ⟨0, hn⟩) (k0_pay2 (F := F)))
  | n + 1, hn =>
    if (n + 1) % 123 = 0 then
      (k0_pay4 (bblk V c ⟨n + 1, hn⟩) (xblk V c ⟨n + 1, hn⟩) (k0_pay1 (F := F)), k0_pay5 (bblk V c ⟨n + 1, hn⟩) (k0_pay2 (F := F)))
    else
      (k0_pay4 (bblk V c ⟨n + 1, hn⟩) (xblk V c ⟨n + 1, hn⟩) (accAt c n (Nat.lt_of_succ_lt hn)).1,
        k0_pay5 (bblk V c ⟨n + 1, hn⟩) (accAt c n (Nat.lt_of_succ_lt hn)).2)

/-- At a point whose number is a multiple of 123 the accumulators restart. -/
theorem accAt_reset (c : Dev nD) (t : Fin cfg0.N) (h0 : t.val % 123 = 0) :
    accAt V c t.val t.isLt = (k0_pay4 (bblk V c t) (xblk V c t) (k0_pay1 (F := F)), k0_pay5 (bblk V c t) (k0_pay2 (F := F))) := by
  obtain ⟨n, hn⟩ := t
  cases n with
  | zero => rfl
  | succ n => exact if_pos h0

/-- At any other point they add one block to what the point before left. -/
theorem accAt_step (c : Dev nD) (t : Fin cfg0.N) (h0 : ¬t.val % 123 = 0) :
    accAt V c t.val t.isLt = (k0_pay4 (bblk V c t) (xblk V c t) (accAt V c (t.val - 1) (Nat.lt_of_le_of_lt (Nat.sub_le _ _) t.isLt)).1,
      k0_pay5 (bblk V c t) (accAt V c (t.val - 1) (Nat.lt_of_le_of_lt (Nat.sub_le _ _) t.isLt)).2) := by
  obtain ⟨n, hn⟩ := t
  cases n with
  | zero => exact absurd (Nat.zero_mod _) h0
  | succ n => exact if_neg h0

/-! ## The region invariant -/

/-- The two scratch accumulators, as memrefs. -/
abbrev scM0 : Memref sig .tc .vmem S256x128 .f32 := Memref.whole cc0_scratch0
abbrev scM1 : Memref sig .tc .vmem S256x1 .f32 := Memref.whole cc0_scratch1

/-- The core's other scoped buffers that are no staging buffer of this region (the second region's staging buffers),
    each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f))

/-- The class invariant with the two scratch accumulators as memrefs owned at some contents. -/
theorem PhiA0_eq (c : Dev nD) :
    (Pipeline.ΦA spec0 c : sProp 𝕄)
      = iprop(((∃ d, owns (c : Thread nD τ) scM0 fullShare d) ∗ (∃ d, owns (c : Thread nD τ) scM1 fullShare d) ∗ rest0 (F := F) c) ∗ (∃ r, prngReg c r)) := by
  unfold Pipeline.ΦA rest0; rw [scopedRest0_eq]; simp only [scM0, scM1, owns_whole]; try rfl

/-- The region invariant before position `n`: before the first point the class's (every scratch at anything);
    afterwards the two accumulators at what the point before left, the other scoped buffers at anything, the generator
    register at some state. -/
def PhiS (c : Dev nD) : (n : ℕ) → n ≤ cfg0.N → sProp 𝕄
  | 0, _ => Pipeline.ΦA spec0 c
  | n + 1, hn => iprop((owns (c : Thread nD τ) scM0 fullShare (accAt V c n hn).1 ∗ owns (c : Thread nD τ) scM1 fullShare (accAt V c n hn).2 ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM0 fullShare (accAt V c n hn).1 ∗ owns (c : Thread nD τ) scM1 fullShare (accAt V c n hn).2 ∗ rest0 (F := F) c) ∗ (∃ r, prngReg c r)) := rfl

theorem PhiS_pos (c : Dev nD) (n : ℕ) (h : n ≤ cfg0.N) (hz : n ≠ 0) :
    PhiS V c n h = iprop((owns (c : Thread nD τ) scM0 fullShare (accAt V c (n - 1) (by omega)).1 ∗ owns (c : Thread nD τ) scM1 fullShare (accAt V c (n - 1) (by omega)).2 ∗ rest0 (F := F) c) ∗ (∃ r, prngReg c r)) := by
  cases n with
  | zero => exact absurd rfl hz
  | succ n => rfl

/-! ## The proof data -/

/-- The proof data of the first pipeline on core `c`: the arrays as the region finds them; after the body at point `t`
    each input's buffer at its block, each output's at the accumulator under a leading unit axis (consulted only where
    the window is written back); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay6 (accAt V c t.val t.isLt).1
    | ⟨3, _⟩ => k0_pay7 (accAt V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay6 (accAt V c t.val t.isLt).1 := by dsimp only [dat0]
theorem after0_3 (c : Dev nD) (t : Fin cfg0.N) : (dat0 V c).after 3 t = k0_pay7 (accAt V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) :
    (dat0 V c).leavesExact 0 t = owns (c : Thread nD τ) (st0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (st0_1 t) fullShare (iblk0 V c 1 t) := by
  unfold Dat.leavesExact; rw [liveAt0_1 t, after0_1]

set_option maxHeartbeats 4000000 in
/-- The body at any point, by the point's residue mod 123. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [leaves0_0, leaves0_1]
  have hN : t.val < 246 := lt_of_lt_of_eq t.isLt (show cfg0.N = 246 from N_0)
  by_cases h0 : t.val % 123 = 0
  · -- a first step: reset, no output store
    have h1 : ¬t.val % 123 = 122 := by omega
    have hc0 : cond0 (grid0.coords t) := (hcond0 t).mpr h0
    have hc1 : ¬cond1 (grid0.coords t) := fun h => h1 ((hcond1 t).mp h)
    rw [Dat.leavesExact_idle (dat0 V c) 2 t (idleAt0_2 t hc1) (noFlush0_2 t hc1),
      Dat.leavesExact_idle (dat0 V c) 3 t (idleAt0_3 t hc1) (noFlush0_3 t hc1)]
    rw [accAt_reset V c t h0]
    by_cases hz : t.val = 0
    · rw [PhiS_castSucc V c t, PhiS_zero V c _ _ hz, PhiA0_eq]
      iintro ⟨⟨⟨HS0, HS1, Hrest⟩, Hg⟩, Ho, ⟨%d0, H0⟩, ⟨%d1, H1⟩, H2, H3⟩
      iapply (sound_kernel0_A c Set.univ (grid0.coords t) _ _ _ _ _ _ _ _ scM0 (Memref.isWhole_whole _) scM1 (Memref.isWhole_whole _) (xblk V c t) (bblk V c t) hc0 hc1 _)
      isplitl [H0]; · iexact H0
      isplitl [H1]; · iexact H1
      isplitl [HS0]; · iexact HS0
      isplitl [HS1]; · iexact HS1
      iintro ⟨H0, H1, HS0, HS1⟩
      isplitl [HS0 HS1 Hrest Hg]
      · isplitr [Hg]
        · isplitl [HS0]; · iexact HS0
          isplitl [HS1]; · iexact HS1
          iexact Hrest
        iexact Hg
      isplitl [Ho]; · iexact Ho
      isplitl [H0]; · iexact H0
      isplitl [H1]; · iexact H1
      isplitl [H2]; · iexact H2
      iexact H3
    · rw [PhiS_castSucc V c t, PhiS_pos V c _ _ hz]
      iintro ⟨⟨⟨HS0, HS1, Hrest⟩, Hg⟩, Ho, ⟨%d0, H0⟩, ⟨%d1, H1⟩, H2, H3⟩
      iapply (sound_kernel0_A c Set.univ (grid0.coords t) _ _ _ _ _ _ _ _ scM0 (Memref.isWhole_whole _) scM1 (Memref.isWhole_whole _) (xblk V c t) (bblk V c t) hc0 hc1 _)
      isplitl [H0]; · iexact H0
      isplitl [H1]; · iexact H1
      isplitl [HS0]; · iexists _; iexact HS0
      isplitl [HS1]; · iexists _; iexact HS1
      iintro ⟨H0, H1, HS0, HS1⟩
      isplitl [HS0 HS1 Hrest Hg]
      · isplitr [Hg]
        · isplitl [HS0]; · iexact HS0
          isplitl [HS1]; · iexact HS1
          iexact Hrest
        iexact Hg
      isplitl [Ho]; · iexact Ho
      isplitl [H0]; · iexact H0
      isplitl [H1]; · iexact H1
      isplitl [H2]; · iexact H2
      iexact H3
  · have hz : t.val ≠ 0 := fun h => h0 (by rw [h])
    have hc0 : ¬cond0 (grid0.coords t) := fun h => h0 ((hcond0 t).mp h)
    rw [accAt_step V c t h0]
    rw [PhiS_castSucc V c t, PhiS_pos V c _ _ hz]
    by_cases h1 : t.val % 123 = 122
    · -- a last step: the outputs stored
      have hc1 : cond1 (grid0.coords t) := (hcond1 t).mpr h1
      rw [show (dat0 V c).leavesExact 2 t = owns (c : Thread nD τ) (st0_2 t) fullShare ((dat0 V c).after 2 t) from by
        unfold Dat.leavesExact; rw [liveAt0_2 t hc1]]
      rw [show (dat0 V c).leavesExact 3 t = owns (c : Thread nD τ) (st0_3 t) fullShare ((dat0 V c).after 3 t) from by
        unfold Dat.leavesExact; rw [liveAt0_3 t hc1]]
      rw [after0_2, after0_3, accAt_step V c t h0]
      iintro ⟨⟨⟨HS0, HS1, Hrest⟩, Hg⟩, Ho, ⟨%d0, H0⟩, ⟨%d1, H1⟩, ⟨%d2, H2⟩, ⟨%d3, H3⟩⟩
      iapply (sound_kernel0_C c Set.univ (grid0.coords t) _ _ _ _ _ _ _ _ scM0 (Memref.isWhole_whole _) scM1 (Memref.isWhole_whole _) (xblk V c t) (bblk V c t) hc0 hc1
        (accAt V c (t.val - 1) (Nat.lt_of_le_of_lt (Nat.sub_le _ _) t.isLt)).1 (accAt V c (t.val - 1) (Nat.lt_of_le_of_lt (Nat.sub_le _ _) t.isLt)).2 _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 Hrest Hg]
      · isplitr [Hg]
        · isplitl [HS0]; · iexact HS0
          isplitl [HS1]; · iexact HS1
          iexact Hrest
        iexact Hg
      isplitl [Ho]; · iexact Ho
      isplitl [H0]; · iexact H0
      isplitl [H1]; · iexact H1
      isplitl [H2]; · iexact H2
      iexact H3
    · -- a middle step
      have hc1 : ¬cond1 (grid0.coords t) := fun h => h1 ((hcond1 t).mp h)
      rw [Dat.leavesExact_idle (dat0 V c) 2 t (idleAt0_2 t hc1) (noFlush0_2 t hc1),
        Dat.leavesExact_idle (dat0 V c) 3 t (idleAt0_3 t hc1) (noFlush0_3 t hc1)]
      iintro ⟨⟨⟨HS0, HS1, Hrest⟩, Hg⟩, Ho, ⟨%d0, H0⟩, ⟨%d1, H1⟩, H2, H3⟩
      iapply (sound_kernel0_B c Set.univ (grid0.coords t) _ _ _ _ _ _ _ _ scM0 (Memref.isWhole_whole _) scM1 (Memref.isWhole_whole _) (xblk V c t) (bblk V c t) hc0 hc1
        (accAt V c (t.val - 1) (Nat.lt_of_le_of_lt (Nat.sub_le _ _) t.isLt)).1 (accAt V c (t.val - 1) (Nat.lt_of_le_of_lt (Nat.sub_le _ _) t.isLt)).2 _)
      isplitl [H0]; · iexact H0
      isplitl [H1]; · iexact H1
      isplitl [HS0]; · iexact HS0
      isplitl [HS1]; · iexact HS1
      iintro ⟨H0, H1, HS0, HS1⟩
      isplitl [HS0 HS1 Hrest Hg]
      · isplitr [Hg]
        · isplitl [HS0]; · iexact HS0
          isplitl [HS1]; · iexact HS1
          iexact Hrest
        iexact Hg
      isplitl [Ho]; · iexact Ho
      isplitl [H0]; · iexact H0
      isplitl [H1]; · iexact H1
      isplitl [H2]; · iexact H2
      iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class's back: the accumulators' named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 246 := N_0; omega), PhiA0_eq]
  iintro ⟨⟨HS0, HS1, Hrest⟩, Hg⟩
  isplitr [Hg]
  · isplitl [HS0]; · iexists _; iexact HS0
    isplitl [HS1]; · iexists _; iexact HS1
    iexact Hrest
  iexact Hg

end Region0

end Cert.Kernel.Hand

end
-- ==== Proof.Bits.Pure.lean ====
/-
  What the second kernel stores, as one pure function of the six blocks it is handed: the two partial segment sums
  (stacked on the leading axis) added, the two partial counts added, the mean, the linear map and the row
  normalisation. Stated for any float instance; the arithmetic is the kernel body's own, named payload by payload.
-/
import proofs.«413057_j54305566490875_2_alg».proof.Proof.Gen.Kernel.Skeleton
import Idealize.ShloMosaic.Lib.Pipeline.FrameBody

noncomputable section

namespace Cert.Kernel.Hand

open Cert.Kernel Cert.Kernel.Gen
open Idealize.ShloMosaic Idealize.SL.Sem

variable {F : FTy → Type} [FloatOps F]

/-- The two slabs of the stacked partial sums, and of the stacked partial counts. -/
abbrev rSum0 : Rect S2x256x128 := Rect.unit (s := S2x256x128) ![0, 0, 0] S1x256x128.size Facts₀.inb_S2x256x128_S1x256x128_0_0_0
abbrev rSum1 : Rect S2x256x128 := Rect.unit (s := S2x256x128) ![1, 0, 0] S1x256x128.size Facts₀.inb_S2x256x128_S1x256x128_1_0_0
abbrev rCnt0 : Rect S2x256x1 := Rect.unit (s := S2x256x1) ![0, 0, 0] S1x256x1.size Facts₀.inb_S2x256x1_S1x256x1_0_0_0
abbrev rCnt1 : Rect S2x256x1 := Rect.unit (s := S2x256x1) ![1, 0, 0] S1x256x1.size Facts₀.inb_S2x256x1_S1x256x1_1_0_0

/-- The value the second kernel stores into its output block. -/
def fin1 (y0 : Vec F S2x256x128 .f32) (y1 : Vec F S2x256x1 .f32) (w : Vec F S128x256 .f32) (bias lw lb : Vec F S1x256 .f32) :
    Vec F S256x256 .f32 :=
  k1_pay1 (k1_pay4 (View.ld y0 rSum0) (View.ld y0 rSum1) (View.ld y1 rCnt0) (View.ld y1 rCnt1) w bias)
    (k1_pay5 (View.ld y0 rSum0) (View.ld y0 rSum1) (View.ld y1 rCnt0) (View.ld y1 rCnt1) w bias) (k1_pay6 (F := F)) lw lb

end Cert.Kernel.Hand

end
-- ==== Proof.Bits.Body1.lean ====
import proofs.«413057_j54305566490875_2_alg».proof.Proof.Gen.Kernel.Launch
import proofs.«413057_j54305566490875_2_alg».proof.Proof.Gen.Kernel.Skeleton
import proofs.«413057_j54305566490875_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«413057_j54305566490875_2_alg».proof.Proof.Bits.Pure
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, however many axes. -/
theorem hz2 : (![0, 0] : Fin 2 → Nat) = fun _ => 0 := by funext a; fin_cases a <;> rfl
theorem hz3 : (![0, 0, 0] : Fin 3 → Nat) = fun _ => 0 := by funext a; fin_cases a <;> rfl

set_option maxHeartbeats 1000000 in
/-- The second kernel's body on whole staging buffers: the six inputs are read and left as they were, and the output
    buffer, whatever it held, ends holding `fin1` of the inputs. -/
theorem sound_kernel1 (c : Dev nD) (E : Set ℕ) (i : grid1.Coords)
    (arg1 : Memref sig .tc .vmem S2x256x128 .f32) (harg1 : arg1.IsWhole) (arg2 : Memref sig .tc .vmem S2x256x1 .f32) (harg2 : arg2.IsWhole)
    (arg3 : Memref sig .tc .vmem S128x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S256x256 .f32) (harg7 : arg7.IsWhole)
    (y0 : Vec F S2x256x128 .f32) (y1 : Vec F S2x256x1 .f32) (w : Vec F S128x256 .f32) (bias lw lb : Vec F S1x256 .f32) (K : PUnit → sProp 𝕄) :
    iprop(owns (c : Thread nD τ) arg1 fullShare y0 ∗ owns (c : Thread nD τ) arg2 fullShare y1 ∗ owns (c : Thread nD τ) arg3 fullShare w
        ∗ owns (c : Thread nD τ) arg4 fullShare bias ∗ owns (c : Thread nD τ) arg5 fullShare lw ∗ owns (c : Thread nD τ) arg6 fullShare lb
        ∗ (∃ d, owns (c : Thread nD τ) arg7 fullShare d)
        ∗ (iprop(owns (c : Thread nD τ) arg1 fullShare y0 ∗ owns (c : Thread nD τ) arg2 fullShare y1 ∗ owns (c : Thread nD τ) arg3 fullShare w
            ∗ owns (c : Thread nD τ) arg4 fullShare bias ∗ owns (c : Thread nD τ) arg5 fullShare lw ∗ owns (c : Thread nD τ) arg6 fullShare lb
            ∗ owns (c : Thread nD τ) arg7 fullShare (fin1 y0 y1 w bias lw lb)) -∗ K ⟨⟩))
      ⊢ wp frame (wpE (defs₀ (F := F)) Variants.none c none) E (cc1__finalize_kernel i arg1 harg1 arg2 harg2 arg3 harg3 arg4 harg4 arg5 harg5 arg6 harg6 arg7 harg7) K := by
  simp only [cc1__finalize_kernel_eq_skeleton]; unfold cc1__finalize_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_words
  rw [View.read_writes_eq_canon _ _ _ (fun y => ⟨_, List.Mem.head _, View.mem_set_unit_zero hz2 Facts₀.inb_S256x256_S256x256_0_0 y⟩),
    View.canon_cons_unit_zero hz2]
  unfold fin1
  simp only [View.readAt_eq_ld, harg1.read_unread, harg2.read_unread, harg3.read_unread, harg4.read_unread,
    harg5.read_unread, harg6.read_unread, View.ld_unit_zero (S := S1x256) hz2, View.ld_unit_zero (S := S128x256) hz2]

end Cert.Kernel.Hand

end
-- ==== Proof.Bits.Dat1.lean ====
import proofs.«413057_j54305566490875_2_alg».proof.Proof.Gen.Kernel.Launch
import proofs.«413057_j54305566490875_2_alg».proof.Proof.Gen.Kernel.Skeleton
import proofs.«413057_j54305566490875_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«413057_j54305566490875_2_alg».proof.Proof.Bits.Body1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region: one grid point, six input windows each the whole of its array, one output window -/

section Region1

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second pipeline on core `c`: the arrays as the region finds them; after the body each
    input's buffer at its block and the output's at `fin1` of the input blocks; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => fin1 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = fin1 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at the one point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.Bits.Run.lean ====
import proofs.«413057_j54305566490875_2_alg».proof.Proof.Gen.Kernel.Launch
import proofs.«413057_j54305566490875_2_alg».proof.Proof.Gen.Kernel.Skeleton
import proofs.«413057_j54305566490875_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«413057_j54305566490875_2_alg».proof.Proof.Bits.Dat0
import proofs.«413057_j54305566490875_2_alg».proof.Proof.Bits.Dat1
import proofs.«413057_j54305566490875_2_alg».proof.Proof.Gen.Kernel.Regions
import Idealize.ShloMosaic.Lib.Pipeline.RegionsLoop
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's seven items from the launch to the return

Five stretches of host operations (the two paddings, the reshapes), then the two kernel regions. Between two items a
core holds every unscoped buffer whole at a named valuation: the launch memory, then each stretch's operations
applied, then — after a region — the region's arrays at what its write-backs leave and every other buffer as
entered. The run ends with every unscoped buffer read off the last valuation. -/

variable (m : (ℓ : Loc nD τ sig) → Buf (Elt F) ℓ)

/-! ## The buffer contents at the regions' boundaries -/

/-- The first region's entry contents, read at the TensorCore's references. -/
abbrev Vr5 : (c : Dev nD) → (b : Ref sig .tc) → Buf (Elt F) ((c : Thread nD τ).loc b) := fun c b => V5 m c b

/-- At the first region's exit: its arrays at what the pipeline leaves, every other buffer as entered. -/
def W6 (c : Dev nD) : Valuation τ sig (Elt F) :=
  Pipeline.withArrays spec0 c (V5 m c) fun w => (dat0 (Vr5 m) c).arrAt w cfg0.N
theorem W6_arr (c : Dev nD) (w : Fin cfg0.W) :
    W6 m c (Proc.devRef .tc (Pipeline.arrRef spec0 w)) = (dat0 (Vr5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = V5 m c (Proc.devRef .tc b) := by
  unfold W6; exact Pipeline.withArrays_of_ne spec0 c _ _ b hb
/-- The same read at the TensorCore's references (the second region's entry contents). -/
abbrev Vr6 : (c : Dev nD) → (b : Ref sig .tc) → Buf (Elt F) ((c : Thread nD τ).loc b) := fun c b => W6 m c b
theorem hF0 (c : Dev nD) (w : Fin cfg0.W) : (dat0 (Vr5 m) c).arrAt w cfg0.N = Vr6 m c (Pipeline.arrRef spec0 w) :=
  (W6_arr m c w).symm
theorem hrest0 (c : Dev nD) : ∀ b, b ∉ Finset.univ.image (Pipeline.arrRef spec0) → Vr6 m c b = Vr5 m c b :=
  fun b hb => W6_of_ne m c b fun w e => hb (Finset.mem_image.mpr ⟨w, Finset.mem_univ _, e⟩)

/-- At the second region's exit. -/
def W7 (c : Dev nD) : Valuation τ sig (Elt F) :=
  Pipeline.withArrays spec1 c (W6 m c) fun w => (dat1 (Vr6 m) c).arrAt w cfg1.N
theorem W7_arr (c : Dev nD) (w : Fin cfg1.W) :
    W7 m c (Proc.devRef .tc (Pipeline.arrRef spec1 w)) = (dat1 (Vr6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev Vr7 : (c : Dev nD) → (b : Ref sig .tc) → Buf (Elt F) ((c : Thread nD τ).loc b) := fun c b => W7 m c b
theorem hF1 (c : Dev nD) (w : Fin cfg1.W) : (dat1 (Vr6 m) c).arrAt w cfg1.N = Vr7 m c (Pipeline.arrRef spec1 w) :=
  (W7_arr m c w).symm
theorem hrest1 (c : Dev nD) : ∀ b, b ∉ Finset.univ.image (Pipeline.arrRef spec1) → Vr7 m c b = Vr6 m c b :=
  fun b hb => W7_of_ne m c b fun w e => hb (Finset.mem_image.mpr ⟨w, Finset.mem_univ _, e⟩)

/-! ### The arguments end as launched: no host operation writes one, the first region stages none, and the second
    region only reads the one it stages -/

theorem W7_main_arg0 (c : Dev nD) : W7 m c (Proc.devRef .tc main_arg0) = m ((c : Thread nD τ).loc main_arg0) :=
  (W7_of_ne m c main_arg0 (by decide)).trans <| (W6_of_ne m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
theorem W7_main_arg1 (c : Dev nD) : W7 m c (Proc.devRef .tc main_arg1) = m ((c : Thread nD τ).loc main_arg1) :=
  (W7_of_ne m c main_arg1 (by decide)).trans <| (W6_of_ne m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
theorem W7_main_arg3 (c : Dev nD) : W7 m c (Proc.devRef .tc main_arg3) = m ((c : Thread nD τ).loc main_arg3) :=
  (W7_of_ne m c main_arg3 (by decide)).trans <| (W6_of_ne m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl
theorem W7_main_arg4 (c : Dev nD) : W7 m c (Proc.devRef .tc main_arg4) = m ((c : Thread nD τ).loc main_arg4) :=
  (W7_of_ne m c main_arg4 (by decide)).trans <| (W6_of_ne m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans rfl
theorem W7_main_arg5 (c : Dev nD) : W7 m c (Proc.devRef .tc main_arg5) = m ((c : Thread nD τ).loc main_arg5) :=
  (W7_of_ne m c main_arg5 (by decide)).trans <| (W6_of_ne m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans rfl
theorem W7_main_arg2 (c : Dev nD) : W7 m c (Proc.devRef .tc main_arg2) = m ((c : Thread nD τ).loc main_arg2) :=
  (W7_arr m c 2).trans <| ((dat1 (Vr6 m) c).arrAt_in 2 rfl _).trans <| (A_eq1 (Vr6 m) c 2).trans <|
    (W6_of_ne m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl

/-- The result buffer ends at what the second region's write-back leaves. -/
theorem W7_main_v7 (c : Dev nD) : W7 m c (Proc.devRef .tc main_v7) = (dat1 (Vr6 m) c).arrAt 6 cfg1.N :=
  W7_arr m c 6

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vr5 m) c
  | ⟨1, _⟩ => fun c => dat1 (Vr6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
/-- A host stretch as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- The first region: entered from every unscoped buffer at `V5`, left at `W6`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (Vr5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (Vr5 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr5 m c) (Vr6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W6`, left at `W7`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr6 m c) (Vr7 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's seven items in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .region (reg0 m),
    .region (reg1 m) ]

set_option backward.isDefEq.respectTransparency.types false in
/-- THE RUN, at any float instance: from any memory with zero counters every weakly fair execution of @main
    terminates, nothing faulting, and every final memory holds each unscoped buffer at the last contents `W7`. -/
theorem run_main (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- THE FRAME, at any float instance: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c)⟩) (run_main m ρ)

/-- The run with the result named: the result buffer ends at what the second region's write-back leaves, every
    argument array as launched. -/
theorem run_value (ρ : Dev nD → PrngReg) :
    θ_run defs (onTc (τ := τ) (main (F := F))) ⟨m, fun _ => 0, ρ⟩ (fun r => ∀ c : Dev nD,
      r.2.mem ((c.tc : Thread nD τ).loc main_v7) = (dat1 (Vr6 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v7 (by decide))).trans (W7_main_v7 m c),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c)⟩) (run_main m ρ)

end Cert.Kernel.Hand

end
-- ==== Proof.Ideal.Body0.lean ====
import proofs.«413057_j54305566490875_2_alg».proof.Proof.Gen.KernelIdeal.Launch
import proofs.«413057_j54305566490875_2_alg».proof.Proof.Gen.KernelIdeal.Skeleton
import proofs.«413057_j54305566490875_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, however many axes. -/
theorem hz2' : (![0, 0] : Fin 2 → Nat) = fun _ => 0 := by funext a; fin_cases a <;> rfl
theorem hz3' : (![0, 0, 0] : Fin 3 → Nat) = fun _ => 0 := by funext a; fin_cases a <;> rfl

/-- The first kernel's two branch conditions, from the grid coordinates: at the first step of the inner axis it
    resets its two accumulators; at the last step it stores them into its outputs. -/
abbrev cond0 (i : grid0.Coords) : Prop := (Scalar.cmpi .ne (Scalar.extui (Scalar.cmpi .eq (BitVec.ofNat 32 (i 1).val) 0#32)) 0#32) = 1#1
abbrev cond1 (i : grid0.Coords) : Prop := k0_cond2 i = 1#1

variable (c : Dev nD) (E : Set ℕ) (i : grid0.Coords)
    (arg2 : Memref sig .tc .vmem S8192x128 .f32) (harg2 : arg2.IsWhole) (arg3 : Memref sig .tc .vmem S1x8192 .i32) (harg3 : arg3.IsWhole)
    (arg4 : Memref sig .tc .vmem S1x256x128 .f32) (harg4 : arg4.IsWhole) (arg5 : Memref sig .tc .vmem S1x256x1 .f32) (harg5 : arg5.IsWhole)
    (arg6 : Memref sig .tc .vmem S256x128 .f32) (harg6 : arg6.IsWhole) (arg7 : Memref sig .tc .vmem S256x1 .f32) (harg7 : arg7.IsWhole)
    (x : Vec F S8192x128 .f32) (b : Vec F S1x8192 .i32)

set_option maxHeartbeats 1000000 in
/-- At a first step (reset, no output store): whatever the accumulators held, they end at one block's update of the
    reset values; the inputs are left as they were and the outputs' buffers are not touched. -/
theorem sound_kernel0_A (hc0 : cond0 i) (hc1 : ¬cond1 i) (K : PUnit → sProp 𝕄) :
    iprop(owns (c : Thread nD τ) arg2 fullShare x ∗ owns (c : Thread nD τ) arg3 fullShare b
        ∗ (∃ d, owns (c : Thread nD τ) arg6 fullShare d) ∗ (∃ d, owns (c : Thread nD τ) arg7 fullShare d)
        ∗ (iprop(owns (c : Thread nD τ) arg2 fullShare x ∗ owns (c : Thread nD τ) arg3 fullShare b
            ∗ owns (c : Thread nD τ) arg6 fullShare (k0_pay4 b x (k0_pay1 (F := F))) ∗ owns (c : Thread nD τ) arg7 fullShare (k0_pay5 b (k0_pay2 (F := F)))) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f0, %hf0, H0⟩, ⟨%f1, %hf1, H1⟩, ⟨%ds0, %fs0, -, HS0⟩, ⟨%ds1, %fs1, -, HS1⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HS0]
  · iexists _; isplitr
    swap; · iexact HS0
    ipureintro
    sl_unfold_words
    rw [View.read_writes_eq_canon _ _ _ (fun y => ⟨_, List.Mem.head _, View.mem_set_unit_zero hz2' Facts₀.inb_S256x128_S256x128_0_0 y⟩),
      View.canon_cons_unit_zero hz2']
    simp only [View.readAt_eq_ld, harg2.read_unread, harg3.read_unread, harg6.read_unread, View.readCov_unit_zero (S := S256x128) _ hz2',
      View.ld_unit_zero (S := S1x8192) hz2', View.ld_unit_zero (S := S8192x128) hz2', View.ld_unit_zero (S := S256x128) hz2']
  · iexists _; isplitr
    swap; · iexact HS1
    ipureintro
    sl_unfold_words
    rw [View.read_writes_eq_canon _ _ _ (fun y => ⟨_, List.Mem.head _, View.mem_set_unit_zero hz2' Facts₀.inb_S256x1_S256x1_0_0 y⟩),
      View.canon_cons_unit_zero hz2']
    simp only [View.readAt_eq_ld, harg3.read_unread, harg7.read_unread, View.readCov_unit_zero (S := S256x1) _ hz2',
      View.ld_unit_zero (S := S1x8192) hz2', View.ld_unit_zero (S := S256x1) hz2']

set_option maxHeartbeats 1000000 in
/-- At a middle step (no reset, no output store): the accumulators go from `s0`, `s1` to one block's update of them. -/
theorem sound_kernel0_B (hc0 : ¬cond0 i) (hc1 : ¬cond1 i) (s0 : Vec F S256x128 .f32) (s1 : Vec F S256x1 .f32) (K : PUnit → sProp 𝕄) :
    iprop(owns (c : Thread nD τ) arg2 fullShare x ∗ owns (c : Thread nD τ) arg3 fullShare b
        ∗ owns (c : Thread nD τ) arg6 fullShare s0 ∗ owns (c : Thread nD τ) arg7 fullShare s1
        ∗ (iprop(owns (c : Thread nD τ) arg2 fullShare x ∗ owns (c : Thread nD τ) arg3 fullShare b
            ∗ owns (c : Thread nD τ) arg6 fullShare (k0_pay4 b x s0) ∗ owns (c : Thread nD τ) arg7 fullShare (k0_pay5 b s1)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f0, %hf0, H0⟩, ⟨%f1, %hf1, H1⟩, ⟨%fs0, %hfs0, HS0⟩, ⟨%fs1, %hfs1, HS1⟩, Hk⟩
  obtain rfl := harg2.eq_unread hf0; obtain rfl := harg3.eq_unread hf1
  obtain rfl := harg6.eq_unread hfs0; obtain rfl := harg7.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [HS0]
  · iexists _; isplitr
    swap; · iexact HS0
    ipureintro
    sl_unfold_words
    rw [View.read_writes_eq_canon _ _ _ (fun y => ⟨_, List.Mem.head _, View.mem_set_unit_zero hz2' Facts₀.inb_S256x128_S256x128_0_0 y⟩),
      View.canon_cons_unit_zero hz2']
    simp only [View.readAt_eq_ld, harg2.read_unread, harg3.read_unread, harg6.read_unread, View.readCov_unit_zero (S := S256x128) _ hz2',
      View.ld_unit_zero (S := S1x8192) hz2', View.ld_unit_zero (S := S8192x128) hz2', View.ld_unit_zero (S := S256x128) hz2']
  · iexists _; isplitr
    swap; · iexact HS1
    ipureintro
    sl_unfold_words
    rw [View.read_writes_eq_canon _ _ _ (fun y => ⟨_, List.Mem.head _, View.mem_set_unit_zero hz2' Facts₀.inb_S256x1_S256x1_0_0 y⟩),
      View.canon_cons_unit_zero hz2']
    simp only [View.readAt_eq_ld, harg3.read_unread, harg7.read_unread, View.readCov_unit_zero (S := S256x1) _ hz2',
      View.ld_unit_zero (S := S1x8192) hz2', View.ld_unit_zero (S := S256x1) hz2']

set_option maxHeartbeats 1000000 in
/-- At a last step (no reset, the outputs stored): the accumulators are updated as at a middle step, and the two
    outputs' buffers, whatever they held, end holding the updated accumulators under a leading unit axis. -/
theorem sound_kernel0_C (hc0 : ¬cond0 i) (hc1 : cond1 i) (s0 : Vec F S256x128 .f32) (s1 : Vec F S256x1 .f32) (K : PUnit → sProp 𝕄) :
    iprop(owns (c : Thread nD τ) arg2 fullShare x ∗ owns (c : Thread nD τ) arg3 fullShare b
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg2 fullShare x ∗ owns (c : Thread nD τ) arg3 fullShare b
            ∗ owns (c : Thread nD τ) arg4 fullShare (k0_pay6 (k0_pay4 b x s0)) ∗ owns (c : Thread nD τ) arg5 fullShare (k0_pay7 (k0_pay5 b s1))
            ∗ owns (c : Thread nD τ) arg6 fullShare (k0_pay4 b x s0) ∗ owns (c : Thread nD τ) arg7 fullShare (k0_pay5 b s1)) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f0, %hf0, H0⟩, ⟨%f1, %hf1, H1⟩, ⟨%d4, %f4, -, H4⟩, ⟨%d5, %f5, -, H5⟩, ⟨%fs0, %hfs0, HS0⟩, ⟨%fs1, %hfs1, HS1⟩, Hk⟩
  obtain rfl := harg2.eq_unread hf0; obtain rfl := harg3.eq_unread hf1
  obtain rfl := harg6.eq_unread hfs0; obtain rfl := harg7.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_eq_canon _ _ _ (fun y => ⟨_, List.Mem.head _, View.mem_set_unit_zero hz3' Facts₀.inb_S1x256x128_S1x256x128_0_0_0 y⟩),
      View.canon_cons_unit_zero hz3']
    simp only [View.readAt_eq_ld, harg2.read_unread, harg3.read_unread, harg6.read_unread, View.readCov_unit_zero (S := S256x128) _ hz2',
      View.ld_unit_zero (S := S1x8192) hz2', View.ld_unit_zero (S := S8192x128) hz2', View.ld_unit_zero (S := S256x128) hz2']
  isplitl [H5]
  · iexists _; isplitr
    swap; · iexact H5
    ipureintro
    sl_unfold_words
    rw [View.read_writes_eq_canon _ _ _ (fun y => ⟨_, List.Mem.head _, View.mem_set_unit_zero hz3' Facts₀.inb_S1x256x1_S1x256x1_0_0_0 y⟩),
      View.canon_cons_unit_zero hz3']
    simp only [View.readAt_eq_ld, harg3.read_unread, harg7.read_unread, View.readCov_unit_zero (S := S256x1) _ hz2',
      View.ld_unit_zero (S := S1x8192) hz2', View.ld_unit_zero (S := S256x1) hz2']
  isplitl [HS0]
  · iexists _; isplitr
    swap; · iexact HS0
    ipureintro
    sl_unfold_words
    rw [View.read_writes_eq_canon _ _ _ (fun y => ⟨_, List.Mem.head _, View.mem_set_unit_zero hz2' Facts₀.inb_S256x128_S256x128_0_0 y⟩),
      View.canon_cons_unit_zero hz2']
    simp only [View.readAt_eq_ld, harg2.read_unread, harg3.read_unread, harg6.read_unread, View.readCov_unit_zero (S := S256x128) _ hz2',
      View.ld_unit_zero (S := S1x8192) hz2', View.ld_unit_zero (S := S8192x128) hz2', View.ld_unit_zero (S := S256x128) hz2']
  · iexists _; isplitr
    swap; · iexact HS1
    ipureintro
    sl_unfold_words
    rw [View.read_writes_eq_canon _ _ _ (fun y => ⟨_, List.Mem.head _, View.mem_set_unit_zero hz2' Facts₀.inb_S256x1_S256x1_0_0 y⟩),
      View.canon_cons_unit_zero hz2']
    simp only [View.readAt_eq_ld, harg3.read_unread, harg7.read_unread, View.readCov_unit_zero (S := S256x1) _ hz2',
      View.ld_unit_zero (S := S1x8192) hz2', View.ld_unit_zero (S := S256x1) hz2']

end Cert.KernelIdeal.Hand

end
-- ==== Proof.Ideal.Dat0.lean ====
import proofs.«413057_j54305566490875_2_alg».proof.Proof.Gen.KernelIdeal.Launch
import proofs.«413057_j54305566490875_2_alg».proof.Proof.Gen.KernelIdeal.Skeleton
import proofs.«413057_j54305566490875_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«413057_j54305566490875_2_alg».proof.Proof.Ideal.Body0
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel region: what its buffers hold point by point, and the body obligation

The grid has 2 × 123 points; point `t` handles block `t` of the padded edges. The two accumulators live in two
scratch buffers the kernel keeps between points: reset at every point whose number is a multiple of 123, updated by
one block at every point, and stored into the two output windows at the points ≡ 122 (mod 123), where the pipeline
writes those windows back. At every other point the output windows are idle. -/

section Region0

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The two input blocks at a point, at their literal types: a block of 8192 feature rows and its 8192 index words. -/
abbrev xblk (c : Dev nD) (t : Fin cfg0.N) : Vec F S8192x128 .f32 := iblk0 V c 0 t
abbrev bblk (c : Dev nD) (t : Fin cfg0.N) : Vec F S1x8192 .i32 := iblk0 V c 1 t

/-! ## The branch conditions in closed form, and where the output windows are idle -/

theorem hcond0 : ∀ t : Fin cfg0.N, cond0 (grid0.coords t) ↔ t.val % 123 = 0 :=
  (by decide +kernel : ∀ t : Fin grid0.N, cond0 (grid0.coords t) ↔ t.val % 123 = 0)
theorem hcond1 : ∀ t : Fin cfg0.N, cond1 (grid0.coords t) ↔ t.val % 123 = 122 :=
  (by decide +kernel : ∀ t : Fin grid0.N, cond1 (grid0.coords t) ↔ t.val % 123 = 122)

theorem liveAt0_0 : ∀ t : Fin cfg0.N, cfg0.idle 0 (grid0.coords t) = false := fun _ => rfl
theorem liveAt0_1 : ∀ t : Fin cfg0.N, cfg0.idle 1 (grid0.coords t) = false := fun _ => rfl
theorem idleAt0_2 : ∀ t : Fin cfg0.N, ¬cond1 (grid0.coords t) → cfg0.idle 2 (grid0.coords t) = true := by decide +kernel
theorem idleAt0_3 : ∀ t : Fin cfg0.N, ¬cond1 (grid0.coords t) → cfg0.idle 3 (grid0.coords t) = true := by decide +kernel
theorem noFlush0_2 : ∀ t : Fin cfg0.N, ¬cond1 (grid0.coords t) → (cfg0.win 2).flush t = false := by decide +kernel
theorem noFlush0_3 : ∀ t : Fin cfg0.N, ¬cond1 (grid0.coords t) → (cfg0.win 3).flush t = false := by decide +kernel
theorem liveAt0_2 : ∀ t : Fin cfg0.N, cond1 (grid0.coords t) → cfg0.idle 2 (grid0.coords t) = false := by decide +kernel
theorem liveAt0_3 : ∀ t : Fin cfg0.N, cond1 (grid0.coords t) → cfg0.idle 3 (grid0.coords t) = false := by decide +kernel

/-! ## The accumulators after each point -/

/-- What the two scratch accumulators hold after the body at position `n`: at a multiple of 123 one block's update
    of the reset values, else one block's update of what the point before left. -/
def accAt (c : Dev nD) : (n : ℕ) → n < cfg0.N → Vec F S256x128 .f32 × Vec F S256x1 .f32
  | 0, hn => (k0_pay4 (bblk V c ⟨0, hn⟩) (xblk V c ⟨0, hn⟩) (k0_pay1 (F := F)), k0_pay5 (bblk V c ⟨0, hn⟩) (k0_pay2 (F := F)))
  | n + 1, hn =>
    if (n + 1) % 123 = 0 then
      (k0_pay4 (bblk V c ⟨n + 1, hn⟩) (xblk V c ⟨n + 1, hn⟩) (k0_pay1 (F := F)), k0_pay5 (bblk V c ⟨n + 1, hn⟩) (k0_pay2 (F := F)))
    else
      (k0_pay4 (bblk V c ⟨n + 1, hn⟩) (xblk V c ⟨n + 1, hn⟩) (accAt c n (Nat.lt_of_succ_lt hn)).1,
        k0_pay5 (bblk V c ⟨n + 1, hn⟩) (accAt c n (Nat.lt_of_succ_lt hn)).2)

/-- At a point whose number is a multiple of 123 the accumulators restart. -/
theorem accAt_reset (c : Dev nD) (t : Fin cfg0.N) (h0 : t.val % 123 = 0) :
    accAt V c t.val t.isLt = (k0_pay4 (bblk V c t) (xblk V c t) (k0_pay1 (F := F)), k0_pay5 (bblk V c t) (k0_pay2 (F := F))) := by
  obtain ⟨n, hn⟩ := t
  cases n with
  | zero => rfl
  | succ n => exact if_pos h0

/-- At any other point they add one block to what the point before left. -/
theorem accAt_step (c : Dev nD) (t : Fin cfg0.N) (h0 : ¬t.val % 123 = 0) :
    accAt V c t.val t.isLt = (k0_pay4 (bblk V c t) (xblk V c t) (accAt V c (t.val - 1) (Nat.lt_of_le_of_lt (Nat.sub_le _ _) t.isLt)).1,
      k0_pay5 (bblk V c t) (accAt V c (t.val - 1) (Nat.lt_of_le_of_lt (Nat.sub_le _ _) t.isLt)).2) := by
  obtain ⟨n, hn⟩ := t
  cases n with
  | zero => exact absurd (Nat.zero_mod _) h0
  | succ n => exact if_neg h0

/-! ## The region invariant -/

/-- The two scratch accumulators, as memrefs. -/
abbrev scM0 : Memref sig .tc .vmem S256x128 .f32 := Memref.whole cc0_scratch0
abbrev scM1 : Memref sig .tc .vmem S256x1 .f32 := Memref.whole cc0_scratch1

/-- The core's other scoped buffers that are no staging buffer of this region (the second region's staging buffers),
    each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f))

/-- The class invariant with the two scratch accumulators as memrefs owned at some contents. -/
theorem PhiA0_eq (c : Dev nD) :
    (Pipeline.ΦA spec0 c : sProp 𝕄)
      = iprop(((∃ d, owns (c : Thread nD τ) scM0 fullShare d) ∗ (∃ d, owns (c : Thread nD τ) scM1 fullShare d) ∗ rest0 (F := F) c) ∗ (∃ r, prngReg c r)) := by
  unfold Pipeline.ΦA rest0; rw [scopedRest0_eq]; simp only [scM0, scM1, owns_whole]; try rfl

/-- The region invariant before position `n`: before the first point the class's (every scratch at anything);
    afterwards the two accumulators at what the point before left, the other scoped buffers at anything, the generator
    register at some state. -/
def PhiS (c : Dev nD) : (n : ℕ) → n ≤ cfg0.N → sProp 𝕄
  | 0, _ => Pipeline.ΦA spec0 c
  | n + 1, hn => iprop((owns (c : Thread nD τ) scM0 fullShare (accAt V c n hn).1 ∗ owns (c : Thread nD τ) scM1 fullShare (accAt V c n hn).2 ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM0 fullShare (accAt V c n hn).1 ∗ owns (c : Thread nD τ) scM1 fullShare (accAt V c n hn).2 ∗ rest0 (F := F) c) ∗ (∃ r, prngReg c r)) := rfl

theorem PhiS_pos (c : Dev nD) (n : ℕ) (h : n ≤ cfg0.N) (hz : n ≠ 0) :
    PhiS V c n h = iprop((owns (c : Thread nD τ) scM0 fullShare (accAt V c (n - 1) (by omega)).1 ∗ owns (c : Thread nD τ) scM1 fullShare (accAt V c (n - 1) (by omega)).2 ∗ rest0 (F := F) c) ∗ (∃ r, prngReg c r)) := by
  cases n with
  | zero => exact absurd rfl hz
  | succ n => rfl

/-! ## The proof data -/

/-- The proof data of the first pipeline on core `c`: the arrays as the region finds them; after the body at point `t`
    each input's buffer at its block, each output's at the accumulator under a leading unit axis (consulted only where
    the window is written back); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay6 (accAt V c t.val t.isLt).1
    | ⟨3, _⟩ => k0_pay7 (accAt V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay6 (accAt V c t.val t.isLt).1 := by dsimp only [dat0]
theorem after0_3 (c : Dev nD) (t : Fin cfg0.N) : (dat0 V c).after 3 t = k0_pay7 (accAt V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) :
    (dat0 V c).leavesExact 0 t = owns (c : Thread nD τ) (st0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (st0_1 t) fullShare (iblk0 V c 1 t) := by
  unfold Dat.leavesExact; rw [liveAt0_1 t, after0_1]

set_option maxHeartbeats 4000000 in
/-- The body at any point, by the point's residue mod 123. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [leaves0_0, leaves0_1]
  have hN : t.val < 246 := lt_of_lt_of_eq t.isLt (show cfg0.N = 246 from N_0)
  by_cases h0 : t.val % 123 = 0
  · -- a first step: reset, no output store
    have h1 : ¬t.val % 123 = 122 := by omega
    have hc0 : cond0 (grid0.coords t) := (hcond0 t).mpr h0
    have hc1 : ¬cond1 (grid0.coords t) := fun h => h1 ((hcond1 t).mp h)
    rw [Dat.leavesExact_idle (dat0 V c) 2 t (idleAt0_2 t hc1) (noFlush0_2 t hc1),
      Dat.leavesExact_idle (dat0 V c) 3 t (idleAt0_3 t hc1) (noFlush0_3 t hc1)]
    rw [accAt_reset V c t h0]
    by_cases hz : t.val = 0
    · rw [PhiS_castSucc V c t, PhiS_zero V c _ _ hz, PhiA0_eq]
      iintro ⟨⟨⟨HS0, HS1, Hrest⟩, Hg⟩, Ho, ⟨%d0, H0⟩, ⟨%d1, H1⟩, H2, H3⟩
      iapply (sound_kernel0_A c Set.univ (grid0.coords t) _ _ _ _ _ _ _ _ scM0 (Memref.isWhole_whole _) scM1 (Memref.isWhole_whole _) (xblk V c t) (bblk V c t) hc0 hc1 _)
      isplitl [H0]; · iexact H0
      isplitl [H1]; · iexact H1
      isplitl [HS0]; · iexact HS0
      isplitl [HS1]; · iexact HS1
      iintro ⟨H0, H1, HS0, HS1⟩
      isplitl [HS0 HS1 Hrest Hg]
      · isplitr [Hg]
        · isplitl [HS0]; · iexact HS0
          isplitl [HS1]; · iexact HS1
          iexact Hrest
        iexact Hg
      isplitl [Ho]; · iexact Ho
      isplitl [H0]; · iexact H0
      isplitl [H1]; · iexact H1
      isplitl [H2]; · iexact H2
      iexact H3
    · rw [PhiS_castSucc V c t, PhiS_pos V c _ _ hz]
      iintro ⟨⟨⟨HS0, HS1, Hrest⟩, Hg⟩, Ho, ⟨%d0, H0⟩, ⟨%d1, H1⟩, H2, H3⟩
      iapply (sound_kernel0_A c Set.univ (grid0.coords t) _ _ _ _ _ _ _ _ scM0 (Memref.isWhole_whole _) scM1 (Memref.isWhole_whole _) (xblk V c t) (bblk V c t) hc0 hc1 _)
      isplitl [H0]; · iexact H0
      isplitl [H1]; · iexact H1
      isplitl [HS0]; · iexists _; iexact HS0
      isplitl [HS1]; · iexists _; iexact HS1
      iintro ⟨H0, H1, HS0, HS1⟩
      isplitl [HS0 HS1 Hrest Hg]
      · isplitr [Hg]
        · isplitl [HS0]; · iexact HS0
          isplitl [HS1]; · iexact HS1
          iexact Hrest
        iexact Hg
      isplitl [Ho]; · iexact Ho
      isplitl [H0]; · iexact H0
      isplitl [H1]; · iexact H1
      isplitl [H2]; · iexact H2
      iexact H3
  · have hz : t.val ≠ 0 := fun h => h0 (by rw [h])
    have hc0 : ¬cond0 (grid0.coords t) := fun h => h0 ((hcond0 t).mp h)
    rw [accAt_step V c t h0]
    rw [PhiS_castSucc V c t, PhiS_pos V c _ _ hz]
    by_cases h1 : t.val % 123 = 122
    · -- a last step: the outputs stored
      have hc1 : cond1 (grid0.coords t) := (hcond1 t).mpr h1
      rw [show (dat0 V c).leavesExact 2 t = owns (c : Thread nD τ) (st0_2 t) fullShare ((dat0 V c).after 2 t) from by
        unfold Dat.leavesExact; rw [liveAt0_2 t hc1]]
      rw [show (dat0 V c).leavesExact 3 t = owns (c : Thread nD τ) (st0_3 t) fullShare ((dat0 V c).after 3 t) from by
        unfold Dat.leavesExact; rw [liveAt0_3 t hc1]]
      rw [after0_2, after0_3, accAt_step V c t h0]
      iintro ⟨⟨⟨HS0, HS1, Hrest⟩, Hg⟩, Ho, ⟨%d0, H0⟩, ⟨%d1, H1⟩, ⟨%d2, H2⟩, ⟨%d3, H3⟩⟩
      iapply (sound_kernel0_C c Set.univ (grid0.coords t) _ _ _ _ _ _ _ _ scM0 (Memref.isWhole_whole _) scM1 (Memref.isWhole_whole _) (xblk V c t) (bblk V c t) hc0 hc1
        (accAt V c (t.val - 1) (Nat.lt_of_le_of_lt (Nat.sub_le _ _) t.isLt)).1 (accAt V c (t.val - 1) (Nat.lt_of_le_of_lt (Nat.sub_le _ _) t.isLt)).2 _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 Hrest Hg]
      · isplitr [Hg]
        · isplitl [HS0]; · iexact HS0
          isplitl [HS1]; · iexact HS1
          iexact Hrest
        iexact Hg
      isplitl [Ho]; · iexact Ho
      isplitl [H0]; · iexact H0
      isplitl [H1]; · iexact H1
      isplitl [H2]; · iexact H2
      iexact H3
    · -- a middle step
      have hc1 : ¬cond1 (grid0.coords t) := fun h => h1 ((hcond1 t).mp h)
      rw [Dat.leavesExact_idle (dat0 V c) 2 t (idleAt0_2 t hc1) (noFlush0_2 t hc1),
        Dat.leavesExact_idle (dat0 V c) 3 t (idleAt0_3 t hc1) (noFlush0_3 t hc1)]
      iintro ⟨⟨⟨HS0, HS1, Hrest⟩, Hg⟩, Ho, ⟨%d0, H0⟩, ⟨%d1, H1⟩, H2, H3⟩
      iapply (sound_kernel0_B c Set.univ (grid0.coords t) _ _ _ _ _ _ _ _ scM0 (Memref.isWhole_whole _) scM1 (Memref.isWhole_whole _) (xblk V c t) (bblk V c t) hc0 hc1
        (accAt V c (t.val - 1) (Nat.lt_of_le_of_lt (Nat.sub_le _ _) t.isLt)).1 (accAt V c (t.val - 1) (Nat.lt_of_le_of_lt (Nat.sub_le _ _) t.isLt)).2 _)
      isplitl [H0]; · iexact H0
      isplitl [H1]; · iexact H1
      isplitl [HS0]; · iexact HS0
      isplitl [HS1]; · iexact HS1
      iintro ⟨H0, H1, HS0, HS1⟩
      isplitl [HS0 HS1 Hrest Hg]
      · isplitr [Hg]
        · isplitl [HS0]; · iexact HS0
          isplitl [HS1]; · iexact HS1
          iexact Hrest
        iexact Hg
      isplitl [Ho]; · iexact Ho
      isplitl [H0]; · iexact H0
      isplitl [H1]; · iexact H1
      isplitl [H2]; · iexact H2
      iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class's back: the accumulators' named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 246 := N_0; omega), PhiA0_eq]
  iintro ⟨⟨HS0, HS1, Hrest⟩, Hg⟩
  isplitr [Hg]
  · isplitl [HS0]; · iexists _; iexact HS0
    isplitl [HS1]; · iexists _; iexact HS1
    iexact Hrest
  iexact Hg

end Region0

end Cert.KernelIdeal.Hand

end
-- ==== Proof.Ideal.Pure.lean ====
/-
  What the second kernel stores, as one pure function of the six blocks it is handed: the two partial segment sums
  (stacked on the leading axis) added, the two partial counts added, the mean, the linear map and the row
  normalisation. Stated for any float instance; the arithmetic is the kernel body's own, named payload by payload.
-/
import proofs.«413057_j54305566490875_2_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic Idealize.SL.Sem

variable {F : FTy → Type} [FloatOps F]

/-- The two slabs of the stacked partial sums, and of the stacked partial counts. -/
abbrev rSum0 : Rect S2x256x128 := Rect.unit (s := S2x256x128) ![0, 0, 0] S1x256x128.size Facts₀.inb_S2x256x128_S1x256x128_0_0_0
abbrev rSum1 : Rect S2x256x128 := Rect.unit (s := S2x256x128) ![1, 0, 0] S1x256x128.size Facts₀.inb_S2x256x128_S1x256x128_1_0_0
abbrev rCnt0 : Rect S2x256x1 := Rect.unit (s := S2x256x1) ![0, 0, 0] S1x256x1.size Facts₀.inb_S2x256x1_S1x256x1_0_0_0
abbrev rCnt1 : Rect S2x256x1 := Rect.unit (s := S2x256x1) ![1, 0, 0] S1x256x1.size Facts₀.inb_S2x256x1_S1x256x1_1_0_0

/-- The value the second kernel stores into its output block. -/
def fin1 (y0 : Vec F S2x256x128 .f32) (y1 : Vec F S2x256x1 .f32) (w : Vec F S128x256 .f32) (bias lw lb : Vec F S1x256 .f32) :
    Vec F S256x256 .f32 :=
  k1_pay1 (k1_pay4 (View.ld y0 rSum0) (View.ld y0 rSum1) (View.ld y1 rCnt0) (View.ld y1 rCnt1) w bias)
    (k1_pay5 (View.ld y0 rSum0) (View.ld y0 rSum1) (View.ld y1 rCnt0) (View.ld y1 rCnt1) w bias) (k1_pay6 (F := F)) lw lb

end Cert.KernelIdeal.Hand

end
-- ==== Proof.Ideal.Body1.lean ====
import proofs.«413057_j54305566490875_2_alg».proof.Proof.Gen.KernelIdeal.Launch
import proofs.«413057_j54305566490875_2_alg».proof.Proof.Gen.KernelIdeal.Skeleton
import proofs.«413057_j54305566490875_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«413057_j54305566490875_2_alg».proof.Proof.Ideal.Pure
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, however many axes. -/
theorem hz2 : (![0, 0] : Fin 2 → Nat) = fun _ => 0 := by funext a; fin_cases a <;> rfl
theorem hz3 : (![0, 0, 0] : Fin 3 → Nat) = fun _ => 0 := by funext a; fin_cases a <;> rfl

set_option maxHeartbeats 1000000 in
/-- The second kernel's body on whole staging buffers: the six inputs are read and left as they were, and the output
    buffer, whatever it held, ends holding `fin1` of the inputs. -/
theorem sound_kernel1 (c : Dev nD) (E : Set ℕ) (i : grid1.Coords)
    (arg1 : Memref sig .tc .vmem S2x256x128 .f32) (harg1 : arg1.IsWhole) (arg2 : Memref sig .tc .vmem S2x256x1 .f32) (harg2 : arg2.IsWhole)
    (arg3 : Memref sig .tc .vmem S128x256 .f32) (harg3 : arg3.IsWhole) (arg4 : Memref sig .tc .vmem S1x256 .f32) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S256x256 .f32) (harg7 : arg7.IsWhole)
    (y0 : Vec F S2x256x128 .f32) (y1 : Vec F S2x256x1 .f32) (w : Vec F S128x256 .f32) (bias lw lb : Vec F S1x256 .f32) (K : PUnit → sProp 𝕄) :
    iprop(owns (c : Thread nD τ) arg1 fullShare y0 ∗ owns (c : Thread nD τ) arg2 fullShare y1 ∗ owns (c : Thread nD τ) arg3 fullShare w
        ∗ owns (c : Thread nD τ) arg4 fullShare bias ∗ owns (c : Thread nD τ) arg5 fullShare lw ∗ owns (c : Thread nD τ) arg6 fullShare lb
        ∗ (∃ d, owns (c : Thread nD τ) arg7 fullShare d)
        ∗ (iprop(owns (c : Thread nD τ) arg1 fullShare y0 ∗ owns (c : Thread nD τ) arg2 fullShare y1 ∗ owns (c : Thread nD τ) arg3 fullShare w
            ∗ owns (c : Thread nD τ) arg4 fullShare bias ∗ owns (c : Thread nD τ) arg5 fullShare lw ∗ owns (c : Thread nD τ) arg6 fullShare lb
            ∗ owns (c : Thread nD τ) arg7 fullShare (fin1 y0 y1 w bias lw lb)) -∗ K ⟨⟩))
      ⊢ wp frame (wpE (defs₀ (F := F)) Variants.none c none) E (cc1__finalize_kernel i arg1 harg1 arg2 harg2 arg3 harg3 arg4 harg4 arg5 harg5 arg6 harg6 arg7 harg7) K := by
  simp only [cc1__finalize_kernel_eq_skeleton]; unfold cc1__finalize_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_words
  rw [View.read_writes_eq_canon _ _ _ (fun y => ⟨_, List.Mem.head _, View.mem_set_unit_zero hz2 Facts₀.inb_S256x256_S256x256_0_0 y⟩),
    View.canon_cons_unit_zero hz2]
  unfold fin1
  simp only [View.readAt_eq_ld, harg1.read_unread, harg2.read_unread, harg3.read_unread, harg4.read_unread,
    harg5.read_unread, harg6.read_unread, View.ld_unit_zero (S := S1x256) hz2, View.ld_unit_zero (S := S128x256) hz2]

end Cert.KernelIdeal.Hand

end
-- ==== Proof.Ideal.Dat1.lean ====
import proofs.«413057_j54305566490875_2_alg».proof.Proof.Gen.KernelIdeal.Launch
import proofs.«413057_j54305566490875_2_alg».proof.Proof.Gen.KernelIdeal.Skeleton
import proofs.«413057_j54305566490875_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«413057_j54305566490875_2_alg».proof.Proof.Ideal.Body1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region: one grid point, six input windows each the whole of its array, one output window -/

section Region1

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second pipeline on core `c`: the arrays as the region finds them; after the body each
    input's buffer at its block and the output's at `fin1` of the input blocks; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => fin1 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = fin1 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at the one point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.Ideal.Run.lean ====
import proofs.«413057_j54305566490875_2_alg».proof.Proof.Gen.KernelIdeal.Launch
import proofs.«413057_j54305566490875_2_alg».proof.Proof.Gen.KernelIdeal.Skeleton
import proofs.«413057_j54305566490875_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«413057_j54305566490875_2_alg».proof.Proof.Ideal.Dat0
import proofs.«413057_j54305566490875_2_alg».proof.Proof.Ideal.Dat1
import proofs.«413057_j54305566490875_2_alg».proof.Proof.Gen.KernelIdeal.Regions
import Idealize.ShloMosaic.Lib.Pipeline.RegionsLoop
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's seven items from the launch to the return

Five stretches of host operations (the two paddings, the reshapes), then the two kernel regions. Between two items a
core holds every unscoped buffer whole at a named valuation: the launch memory, then each stretch's operations
applied, then — after a region — the region's arrays at what its write-backs leave and every other buffer as
entered. The run ends with every unscoped buffer read off the last valuation. -/

variable (m : (ℓ : Loc nD τ sig) → Buf (Elt F) ℓ)

/-! ## The buffer contents at the regions' boundaries -/

/-- The first region's entry contents, read at the TensorCore's references. -/
abbrev Vr5 : (c : Dev nD) → (b : Ref sig .tc) → Buf (Elt F) ((c : Thread nD τ).loc b) := fun c b => V5 m c b

/-- At the first region's exit: its arrays at what the pipeline leaves, every other buffer as entered. -/
def W6 (c : Dev nD) : Valuation τ sig (Elt F) :=
  Pipeline.withArrays spec0 c (V5 m c) fun w => (dat0 (Vr5 m) c).arrAt w cfg0.N
theorem W6_arr (c : Dev nD) (w : Fin cfg0.W) :
    W6 m c (Proc.devRef .tc (Pipeline.arrRef spec0 w)) = (dat0 (Vr5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = V5 m c (Proc.devRef .tc b) := by
  unfold W6; exact Pipeline.withArrays_of_ne spec0 c _ _ b hb
/-- The same read at the TensorCore's references (the second region's entry contents). -/
abbrev Vr6 : (c : Dev nD) → (b : Ref sig .tc) → Buf (Elt F) ((c : Thread nD τ).loc b) := fun c b => W6 m c b
theorem hF0 (c : Dev nD) (w : Fin cfg0.W) : (dat0 (Vr5 m) c).arrAt w cfg0.N = Vr6 m c (Pipeline.arrRef spec0 w) :=
  (W6_arr m c w).symm
theorem hrest0 (c : Dev nD) : ∀ b, b ∉ Finset.univ.image (Pipeline.arrRef spec0) → Vr6 m c b = Vr5 m c b :=
  fun b hb => W6_of_ne m c b fun w e => hb (Finset.mem_image.mpr ⟨w, Finset.mem_univ _, e⟩)

/-- At the second region's exit. -/
def W7 (c : Dev nD) : Valuation τ sig (Elt F) :=
  Pipeline.withArrays spec1 c (W6 m c) fun w => (dat1 (Vr6 m) c).arrAt w cfg1.N
theorem W7_arr (c : Dev nD) (w : Fin cfg1.W) :
    W7 m c (Proc.devRef .tc (Pipeline.arrRef spec1 w)) = (dat1 (Vr6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev Vr7 : (c : Dev nD) → (b : Ref sig .tc) → Buf (Elt F) ((c : Thread nD τ).loc b) := fun c b => W7 m c b
theorem hF1 (c : Dev nD) (w : Fin cfg1.W) : (dat1 (Vr6 m) c).arrAt w cfg1.N = Vr7 m c (Pipeline.arrRef spec1 w) :=
  (W7_arr m c w).symm
theorem hrest1 (c : Dev nD) : ∀ b, b ∉ Finset.univ.image (Pipeline.arrRef spec1) → Vr7 m c b = Vr6 m c b :=
  fun b hb => W7_of_ne m c b fun w e => hb (Finset.mem_image.mpr ⟨w, Finset.mem_univ _, e⟩)

/-! ### The arguments end as launched: no host operation writes one, the first region stages none, and the second
    region only reads the one it stages -/

theorem W7_main_arg0 (c : Dev nD) : W7 m c (Proc.devRef .tc main_arg0) = m ((c : Thread nD τ).loc main_arg0) :=
  (W7_of_ne m c main_arg0 (by decide)).trans <| (W6_of_ne m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
theorem W7_main_arg1 (c : Dev nD) : W7 m c (Proc.devRef .tc main_arg1) = m ((c : Thread nD τ).loc main_arg1) :=
  (W7_of_ne m c main_arg1 (by decide)).trans <| (W6_of_ne m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
theorem W7_main_arg3 (c : Dev nD) : W7 m c (Proc.devRef .tc main_arg3) = m ((c : Thread nD τ).loc main_arg3) :=
  (W7_of_ne m c main_arg3 (by decide)).trans <| (W6_of_ne m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl
theorem W7_main_arg4 (c : Dev nD) : W7 m c (Proc.devRef .tc main_arg4) = m ((c : Thread nD τ).loc main_arg4) :=
  (W7_of_ne m c main_arg4 (by decide)).trans <| (W6_of_ne m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans rfl
theorem W7_main_arg5 (c : Dev nD) : W7 m c (Proc.devRef .tc main_arg5) = m ((c : Thread nD τ).loc main_arg5) :=
  (W7_of_ne m c main_arg5 (by decide)).trans <| (W6_of_ne m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans rfl
theorem W7_main_arg2 (c : Dev nD) : W7 m c (Proc.devRef .tc main_arg2) = m ((c : Thread nD τ).loc main_arg2) :=
  (W7_arr m c 2).trans <| ((dat1 (Vr6 m) c).arrAt_in 2 rfl _).trans <| (A_eq1 (Vr6 m) c 2).trans <|
    (W6_of_ne m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl

/-- The result buffer ends at what the second region's write-back leaves. -/
theorem W7_main_v7 (c : Dev nD) : W7 m c (Proc.devRef .tc main_v7) = (dat1 (Vr6 m) c).arrAt 6 cfg1.N :=
  W7_arr m c 6

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vr5 m) c
  | ⟨1, _⟩ => fun c => dat1 (Vr6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
/-- A host stretch as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- The first region: entered from every unscoped buffer at `V5`, left at `W6`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (Vr5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (Vr5 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr5 m c) (Vr6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W6`, left at `W7`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr6 m c) (Vr7 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's seven items in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .region (reg0 m),
    .region (reg1 m) ]

set_option backward.isDefEq.respectTransparency.types false in
/-- THE RUN, at any float instance: from any memory with zero counters every weakly fair execution of @main
    terminates, nothing faulting, and every final memory holds each unscoped buffer at the last contents `W7`. -/
theorem run_main (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- THE FRAME, at any float instance: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c)⟩) (run_main m ρ)

/-- The run with the result named: the result buffer ends at what the second region's write-back leaves, every
    argument array as launched. -/
theorem run_value (ρ : Dev nD → PrngReg) :
    θ_run defs (onTc (τ := τ) (main (F := F))) ⟨m, fun _ => 0, ρ⟩ (fun r => ∀ c : Dev nD,
      r.2.mem ((c.tc : Thread nD τ).loc main_v7) = (dat1 (Vr6 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v7 (by decide))).trans (W7_main_v7 m c),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c)⟩) (run_main m ρ)

end Cert.KernelIdeal.Hand

end
-- ==== Proof.Spec.lean ====
/-
  The mathematics the kernel and its reference share, over the extended reals, index by index.

  An edge `e` carries a feature row `x e` (128 columns) and an index word `b e`; read as a signed integer the word
  names one of 256 segments, or none. `segSum` adds, per segment and column, the rows of the edges the segment owns,
  `segCnt` counts them. The tail divides each sum by its count (at least one), applies a linear map to 256 columns,
  and normalises each row: subtract the row's mean, multiply by the reciprocal square root of the row's variance plus
  a small constant, scale and shift column by column.

  The kernel reaches the segment sums block by block: the edges, padded with zero rows under the word 256 (which
  names no segment) to 246 blocks of 8192, are summed inside each block, and the blocks' sums are added up.
-/
import Idealize.ShloMosaic.PureOps.Ideal
import Idealize.ShloMosaic.Lib.ValueIdx

noncomputable section

namespace Cert.Spec

open Idealize.ShloMosaic Idealize.ShloMosaic.ValueIdx
open scoped BigOperators

/-- The float literals both programs spell with the same words: one, 256, and the small constant under the root. -/
abbrev one : EReal := Ideal.ofBits .f32 0x3F800000#32
abbrev c256 : EReal := Ideal.ofBits .f32 0x43800000#32
abbrev eps : EReal := Ideal.ofBits .f32 0x3727C5AC#32

/-! ## Segment sums and counts -/

/-- Column `d` summed over the edges whose word, read signed, is `g`. -/
def segSum (x : (⟨2, ![2000000, 128]⟩ : Shape).Idx → EReal) (b : (⟨1, ![2000000]⟩ : Shape).Idx → BitVec 32)
    (g : Fin 256) (d : Fin 128) : EReal :=
  ∑ e ∈ Finset.univ.filter (fun e : Fin 2000000 => (b (ix1 e)).toInt = (g.val : ℤ)), x (ix2 e d)

/-- How many edges have the word `g`. -/
def segCnt (b : (⟨1, ![2000000]⟩ : Shape).Idx → BitVec 32) (g : Fin 256) : EReal :=
  ∑ _e ∈ Finset.univ.filter (fun e : Fin 2000000 => (b (ix1 e)).toInt = (g.val : ℤ)), (1 : EReal)

/-! ## The tail: mean, linear map, row normalisation -/

/-- A segment's sum over its count, the count taken as at least one. -/
def mean (S : Fin 256 → Fin 128 → EReal) (C : Fin 256 → EReal) (i : Fin 256) (k : Fin 128) : EReal :=
  Ideal.div (S i k) (max (C i) one)

/-- The linear map: row `i` of the means against column `j` of the weights, plus the bias. -/
def lin (S : Fin 256 → Fin 128 → EReal) (C : Fin 256 → EReal) (W : Fin 128 → Fin 256 → EReal) (bias : Fin 256 → EReal)
    (i j : Fin 256) : EReal :=
  (∑ k : Fin 128, mean S C i k * W k j) + bias j

/-- A row's mean over its 256 columns. -/
def rowMean (v : Fin 256 → Fin 256 → EReal) (i : Fin 256) : EReal := Ideal.div (∑ j : Fin 256, v i j) c256

/-- A row's variance: the mean of the squared deviations. -/
def rowVar (v : Fin 256 → Fin 256 → EReal) (i : Fin 256) : EReal :=
  Ideal.div (∑ j : Fin 256, (v i j - rowMean v i) * (v i j - rowMean v i)) c256

/-- The normalised row, scaled and shifted column by column. -/
def norm (v : Fin 256 → Fin 256 → EReal) (lw lb : Fin 256 → EReal) (i j : Fin 256) : EReal :=
  (v i j - rowMean v i) * Ideal.rsqrt (rowVar v i + eps) * lw j + lb j

/-- The whole tail, from segment sums and counts. -/
def tail (S : Fin 256 → Fin 128 → EReal) (C : Fin 256 → EReal) (W : Fin 128 → Fin 256 → EReal)
    (bias lw lb : Fin 256 → EReal) (i j : Fin 256) : EReal :=
  norm (lin S C W bias) lw lb i j

/-- The result both programs compute, as one function of the six argument arrays. -/
def G (x : (⟨2, ![2000000, 128]⟩ : Shape).Idx → EReal) (b : (⟨1, ![2000000]⟩ : Shape).Idx → BitVec 32)
    (W : (⟨2, ![128, 256]⟩ : Shape).Idx → EReal) (bias lw lb : (⟨1, ![256]⟩ : Shape).Idx → EReal) :
    (⟨2, ![256, 256]⟩ : Shape).Idx → EReal := fun idx =>
  tail (segSum x b) (segCnt b) (fun k j => W (ix2 k j)) (fun j => bias (ix1 j)) (fun j => lw (ix1 j)) (fun j => lb (ix1 j))
    (idx 0) (idx 1)

/-! ## The padded edges, block by block -/

/-- The feature rows padded with zero rows to 2015232 = 246 · 8192. -/
def xPad (x : (⟨2, ![2000000, 128]⟩ : Shape).Idx → EReal) (p : Fin 2015232) (d : Fin 128) : EReal :=
  if h : p.val < 2000000 then x (ix2 ⟨p.val, h⟩ d) else 0

/-- The index words padded with the word 256, which names no segment. -/
def bPad (b : (⟨1, ![2000000]⟩ : Shape).Idx → BitVec 32) (p : Fin 2015232) : BitVec 32 :=
  if h : p.val < 2000000 then b (ix1 ⟨p.val, h⟩) else 256#32

/-- Position `k` of block `t` among the padded edges. -/
theorem blk_lt (t : Fin 246) (k : Fin 8192) : 8192 * t.val + k.val < 2015232 := by
  have := t.isLt; have := k.isLt; omega

/-- Column `d` summed over the positions of block `t` whose word is `g`. -/
def blkSum (x : (⟨2, ![2000000, 128]⟩ : Shape).Idx → EReal) (b : (⟨1, ![2000000]⟩ : Shape).Idx → BitVec 32)
    (t : Fin 246) (g : Fin 256) (d : Fin 128) : EReal :=
  ∑ k ∈ Finset.univ.filter (fun k : Fin 8192 => (bPad b ⟨8192 * t.val + k.val, blk_lt t k⟩).toInt = (g.val : ℤ)),
    xPad x ⟨8192 * t.val + k.val, blk_lt t k⟩ d

/-- How many positions of block `t` have the word `g`. -/
def blkCnt (b : (⟨1, ![2000000]⟩ : Shape).Idx → BitVec 32) (t : Fin 246) (g : Fin 256) : EReal :=
  ∑ _k ∈ Finset.univ.filter (fun k : Fin 8192 => (bPad b ⟨8192 * t.val + k.val, blk_lt t k⟩).toInt = (g.val : ℤ)),
    (1 : EReal)

/-- Block `n`'s sum, with the blocks numbered by a natural (zero past the last block). -/
def blkSumN (x : (⟨2, ![2000000, 128]⟩ : Shape).Idx → EReal) (b : (⟨1, ![2000000]⟩ : Shape).Idx → BitVec 32)
    (n : ℕ) (g : Fin 256) (d : Fin 128) : EReal :=
  if h : n < 246 then blkSum x b ⟨n, h⟩ g d else 0

/-- Block `n`'s count, with the blocks numbered by a natural (zero past the last block). -/
def blkCntN (b : (⟨1, ![2000000]⟩ : Shape).Idx → BitVec 32) (n : ℕ) (g : Fin 256) : EReal :=
  if h : n < 246 then blkCnt b ⟨n, h⟩ g else 0

end Cert.Spec

end
-- ==== Proof.LibIdealReal.lean ====
/-
  The float operations at the ideal values — a float is an extended real — on arguments that are coerced reals:
  each gives the coerced real operation. The arithmetic of coerced reals, the absolute value, minimum and
  maximum; the exponential and the logarithm; the quotient by a nonzero real; the extended reals that six
  32-bit patterns denote; the conversions of a one-bit word and of a signed word; the comparison of two
  coerced reals; a finite sum of coerced reals; and the maximum of finitely many coerced reals, folded from
  the bottom element.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Log.Basic
import Mathlib.Algebra.BigOperators.Group.Finset.Basic
import Mathlib.Data.Finset.Lattice.Fold

noncomputable section

namespace Cert.LibIdealReal

open Idealize.ShloMosaic
open scoped BigOperators

variable {φ : FTy}

/-! ## Arithmetic of coerced reals -/

/-- The product of two coerced reals is the coerced product. -/
theorem mul_coe (a b : ℝ) : (a : EReal) * (b : EReal) = ((a * b : ℝ) : EReal) := (EReal.coe_mul a b).symm

/-- The sum of two coerced reals is the coerced sum. -/
theorem add_coe (a b : ℝ) : (a : EReal) + (b : EReal) = ((a + b : ℝ) : EReal) := (EReal.coe_add a b).symm

/-- The difference of two coerced reals is the coerced difference. -/
theorem sub_coe (a b : ℝ) : (a : EReal) - (b : EReal) = ((a - b : ℝ) : EReal) := (EReal.coe_sub a b).symm

/-- The negation of a coerced real is the coerced negation. -/
theorem neg_coe (a : ℝ) : -(a : EReal) = ((-a : ℝ) : EReal) := (EReal.coe_neg a).symm

/-- The maximum of two coerced reals is the coerced maximum. -/
theorem max_coe (a b : ℝ) : max (a : EReal) (b : EReal) = ((max a b : ℝ) : EReal) :=
  (EReal.coe_strictMono.monotone.map_max (a := a) (b := b)).symm

/-- The minimum of two coerced reals is the coerced minimum. -/
theorem min_coe (a b : ℝ) : min (a : EReal) (b : EReal) = ((min a b : ℝ) : EReal) :=
  (EReal.coe_strictMono.monotone.map_min (a := a) (b := b)).symm

/-- The larger of a coerced real and its negation is the coerced absolute value. -/
theorem abs_coe (a : ℝ) : max (a : EReal) (-(a : EReal)) = ((|a| : ℝ) : EReal) := by
  rw [neg_coe, max_coe, abs_eq_max_neg]

/-- The coerced real zero is the extended real zero. -/
theorem zero_coe : (0 : EReal) = ((0 : ℝ) : EReal) := EReal.coe_zero.symm

/-- The coerced real one is the extended real one. -/
theorem one_coe : (1 : EReal) = ((1 : ℝ) : EReal) := EReal.coe_one.symm

/-! ## Exponential, logarithm, quotient -/

/-- The exponential of a coerced real is the coerced real exponential. -/
theorem exp_coe (a : ℝ) : Ideal.exp (a : EReal) = ((Real.exp a : ℝ) : EReal) := rfl

/-- The logarithm of a coerced positive real is the coerced real logarithm. -/
theorem log_coe {a : ℝ} (h : 0 < a) : Ideal.log (a : EReal) = ((Real.log a : ℝ) : EReal) := by
  rw [Ideal.log_coe, if_neg (not_le.mpr h)]

/-- The logarithm of a coerced real that is not positive is the bottom element. -/
theorem log_coe_nonpos {a : ℝ} (h : a ≤ 0) : Ideal.log (a : EReal) = ⊥ := by
  rw [Ideal.log_coe, if_pos h]

/-- The quotient of a coerced real by a coerced nonzero real is the coerced quotient. -/
theorem div_coe (a : ℝ) {b : ℝ} (h : b ≠ 0) : Ideal.div (a : EReal) (b : EReal) = ((a / b : ℝ) : EReal) := by
  rw [Ideal.div_coe h, mul_coe, mul_one_div]

/-! ## Six patterns -/

/-- The all-zero pattern denotes zero. -/
theorem ofBits_zero : Ideal.ofBits .f32 0x00000000#32 = 0 := Ideal.ofBits_zero_f32

/-- The all-zero pattern denotes the coerced real zero. -/
theorem ofBits_zero_coe : Ideal.ofBits .f32 0x00000000#32 = ((0 : ℝ) : EReal) := by
  rw [ofBits_zero, zero_coe]

/-- The pattern of one denotes the coerced real one. -/
theorem ofBits_one_coe : Ideal.ofBits .f32 0x3F800000#32 = ((1 : ℝ) : EReal) := by
  simp [Ideal.ofBits, Ideal.ieee, -EReal.coe_mul]; norm_num

/-- The pattern of one denotes one. -/
theorem ofBits_one : Ideal.ofBits .f32 0x3F800000#32 = 1 := by
  rw [ofBits_one_coe, one_coe]

/-- The pattern of one half denotes the coerced real one half. -/
theorem ofBits_half : Ideal.ofBits .f32 0x3F000000#32 = ((1 / 2 : ℝ) : EReal) := by
  simp [Ideal.ofBits, Ideal.ieee, -EReal.coe_mul]; norm_num

/-- The pattern of 4096 denotes the coerced real 4096. -/
theorem ofBits_4096 : Ideal.ofBits .f32 0x45800000#32 = ((4096 : ℝ) : EReal) := by
  simp [Ideal.ofBits, Ideal.ieee, -EReal.coe_mul]; norm_num

/-- The pattern of 32 denotes the coerced real 32. -/
theorem ofBits_32 : Ideal.ofBits .f32 0x42000000#32 = ((32 : ℝ) : EReal) := by
  simp [Ideal.ofBits, Ideal.ieee, -EReal.coe_mul]; norm_num

/-- The pattern of minus infinity denotes the bottom element. -/
theorem ofBits_neg_inf : Ideal.ofBits .f32 0xFF800000#32 = ⊥ := by
  simp [Ideal.ofBits, Ideal.ieee]

/-! ## Conversions of words -/

/-- A one-bit word is zero or one. -/
theorem bit_cases (b : BitVec 1) : b = 0#1 ∨ b = 1#1 := by
  have h := b.isLt
  rcases (by omega : b.toNat = 0 ∨ b.toNat = 1) with h0 | h1
  · left; exact BitVec.eq_of_toNat_eq (by simpa using h0)
  · right; exact BitVec.eq_of_toNat_eq (by simpa using h1)

/-- The signed conversion of a word is the coerced real of its signed value. -/
theorem sitofp_def {w : Nat} (b : BitVec w) : FloatOps.sitofp (F := Ideal) φ b = (((b.toInt : ℤ) : ℝ) : EReal) := rfl

/-- The unsigned conversion of a word is the coerced real of its unsigned value. -/
theorem uitofp_def {w : Nat} (b : BitVec w) : FloatOps.uitofp (F := Ideal) φ b = (((b.toNat : ℕ) : ℝ) : EReal) := rfl

/-- The signed conversion of a word whose signed value is `n` is the coerced real `n`. -/
theorem sitofp_of_toInt {w : Nat} (b : BitVec w) (n : ℤ) (h : b.toInt = n) :
    FloatOps.sitofp (F := Ideal) φ b = ((n : ℝ) : EReal) := by
  rw [sitofp_def, h]

/-- The unsigned conversion of the one-bit word one is the coerced real one. -/
theorem uitofp_bit_one : FloatOps.uitofp (F := Ideal) φ (1#1) = ((1 : ℝ) : EReal) := by
  rw [uitofp_def]; norm_num

/-- The unsigned conversion of the one-bit word zero is the coerced real zero. -/
theorem uitofp_bit_zero : FloatOps.uitofp (F := Ideal) φ (0#1) = ((0 : ℝ) : EReal) := by
  rw [uitofp_def]; norm_num

/-- The unsigned conversion of a one-bit word is one or zero as the word is one or not. -/
theorem uitofp_bit (b : BitVec 1) :
    FloatOps.uitofp (F := Ideal) φ b = ((if b = 1#1 then (1 : ℝ) else 0 : ℝ) : EReal) := by
  rcases bit_cases b with rfl | rfl
  · rw [uitofp_bit_zero, if_neg (by decide)]
  · rw [uitofp_bit_one, if_pos rfl]

/-- The signed conversion of the one-bit word one, zero-extended to 32 bits, is the coerced real one. -/
theorem sitofp_extui_bit_one : FloatOps.sitofp (F := Ideal) φ ((1#1 : BitVec 1).setWidth 32) = ((1 : ℝ) : EReal) := by
  rw [sitofp_of_toInt _ 1 (by decide)]; norm_num

/-- The signed conversion of the one-bit word zero, zero-extended to 32 bits, is the coerced real zero. -/
theorem sitofp_extui_bit_zero : FloatOps.sitofp (F := Ideal) φ ((0#1 : BitVec 1).setWidth 32) = ((0 : ℝ) : EReal) := by
  rw [sitofp_of_toInt _ 0 (by decide)]; norm_num

/-- The signed conversion of a zero-extended one-bit word is one or zero as the word is one or not. -/
theorem sitofp_extui_bit (b : BitVec 1) :
    FloatOps.sitofp (F := Ideal) φ (b.setWidth 32) = ((if b = 1#1 then (1 : ℝ) else 0 : ℝ) : EReal) := by
  rcases bit_cases b with rfl | rfl
  · rw [sitofp_extui_bit_zero, if_neg (by decide)]
  · rw [sitofp_extui_bit_one, if_pos rfl]

/-! ## Comparison -/

/-- The strict comparison of two coerced reals is the one-bit word one exactly when the first is below the second. -/
theorem cmp_olt_coe (a b : ℝ) : Ideal.cmp .olt (a : EReal) (b : EReal) = if a < b then 1#1 else 0#1 := by
  by_cases h : a < b
  · simp [Ideal.cmp, h]
  · simp [Ideal.cmp, h]

/-- A choice by the strict comparison of two coerced reals is the choice by the comparison of the reals. -/
theorem select_cmp_olt_coe {α : Type} (a b : ℝ) (x y : α) :
    Scalar.select (Ideal.cmp .olt (a : EReal) (b : EReal)) x y = if a < b then x else y := by
  rw [cmp_olt_coe]
  by_cases h : a < b
  · rw [if_pos h, if_pos h]; exact if_pos rfl
  · rw [if_neg h, if_neg h]; exact if_neg (by decide)

/-! ## Finite sums -/

/-- A finite sum of coerced reals is the coerced sum. -/
theorem sum_coe {ι : Type*} (s : Finset ι) (f : ι → ℝ) :
    ∑ i ∈ s, ((f i : ℝ) : EReal) = ((∑ i ∈ s, f i : ℝ) : EReal) := by
  classical
  refine Finset.induction_on s (by simp) ?_
  intro i s hi ih
  rw [Finset.sum_insert hi, Finset.sum_insert hi, ih, EReal.coe_add]

/-- A sum over a finite type of coerced reals is the coerced sum. -/
theorem sum_univ_coe {ι : Type*} [Fintype ι] (f : ι → ℝ) :
    ∑ i, ((f i : ℝ) : EReal) = ((∑ i, f i : ℝ) : EReal) := sum_coe Finset.univ f

/-- A finite sum of extended reals, each a coerced real, is the coerced sum of the reals. -/
theorem sum_of_eq {ι : Type*} (s : Finset ι) (g : ι → EReal) (f : ι → ℝ) (hg : ∀ i ∈ s, g i = ((f i : ℝ) : EReal)) :
    ∑ i ∈ s, g i = ((∑ i ∈ s, f i : ℝ) : EReal) := by
  rw [Finset.sum_congr rfl hg, sum_coe]

/-! ## Finite maxima from the bottom element -/

/-- The maximum of finitely many coerced reals over a nonempty set, folded from the bottom element, is the
coerced maximum of the reals. -/
theorem fold_max_bot_coe {ι : Type*} (s : Finset ι) (H : s.Nonempty) (f : ι → ℝ) :
    s.fold max (⊥ : EReal) (fun i => ((f i : ℝ) : EReal)) = ((s.sup' H f : ℝ) : EReal) := by
  have h1 : s.fold max (⊥ : EReal) (fun i => ((f i : ℝ) : EReal)) = s.sup (fun i => ((f i : ℝ) : EReal)) := rfl
  rw [h1, ← Finset.sup'_eq_sup H]
  exact (Finset.comp_sup'_eq_sup'_comp H (fun r : ℝ => (r : EReal)) (fun x y => (max_coe x y).symm)).symm

/-- The same for extended reals each known to be a coerced real. -/
theorem fold_max_bot_of_eq {ι : Type*} (s : Finset ι) (H : s.Nonempty) (g : ι → EReal) (f : ι → ℝ)
    (hg : ∀ i, g i = ((f i : ℝ) : EReal)) :
    s.fold max (⊥ : EReal) g = ((s.sup' H f : ℝ) : EReal) := by
  have : g = fun i => ((f i : ℝ) : EReal) := funext hg
  rw [this, fold_max_bot_coe]

/-- The same with the float maximum as the folded operation. -/
theorem fold_maximumf_bot_of_eq {ι : Type*} (s : Finset ι) (H : s.Nonempty) (g : ι → EReal) (f : ι → ℝ)
    (hg : ∀ i, g i = ((f i : ℝ) : EReal)) :
    s.fold (FloatOps.maximumf (F := Ideal) (φ := φ)) (⊥ : EReal) g = ((s.sup' H f : ℝ) : EReal) :=
  fold_max_bot_of_eq s H g f hg

end Cert.LibIdealReal

end
-- ==== Proof.Ideal.HostValue.lean ====
/-
  The kernel program's host operations before its first region, read at an index over the extended reals: the feature
  rows padded with zero rows, the index words padded with the word 256 and laid out as one row, and the three
  parameter vectors laid out as rows.
-/
import proofs.«413057_j54305566490875_2_alg».proof.Proof.Gen.KernelIdeal.Regions
import proofs.«413057_j54305566490875_2_alg».proof.Proof.Spec
import proofs.«413057_j54305566490875_2_alg».proof.Proof.LibIdealReal
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

set_option maxRecDepth 16384

noncomputable section

namespace Cert.KernelIdeal.HostValue

open Cert.KernelIdeal Cert.KernelIdeal.Gen
open Idealize.ShloMosaic Idealize.ShloMosaic.TcCoe Idealize.ShloMosaic.ValueIdx Idealize.SL.Sem
open scoped BigOperators

variable (m : (ℓ : Loc nD τ sig) → Buf (Elt Ideal) ℓ) (c : Dev nD)

/-! ## A pad at the end of the leading axis, read at an index -/

/-- The signed conversion of the zero word is zero. -/
theorem sitofp_zero_word : FloatOps.sitofp (F := Ideal) .f32 (0#32) = (0 : EReal) := by
  rw [Cert.LibIdealReal.sitofp_def, show (0#32).toInt = 0 from rfl, Int.cast_zero, EReal.coe_zero]

/-- Rows padded below with a value, read at `(p, d)`: the row when `p` is one, else the value. -/
theorem pad_rows_apply {α : Type} (x : S2000000x128.Idx → α) (v : S_.Idx → α) (p : Fin 2015232) (d : Fin 128) :
    pad S2015232x128 ![0, 0] ![15232, 0] ![0, 0] x v pads_S2000000x128_S2015232x128_0152320_000 h_S_ (ix2 p d)
      = if h : p.val < 2000000 then x (ix2 ⟨p.val, h⟩ d) else v ix0 := by
  by_cases h : p.val < 2000000
  · rw [dif_pos h]
    refine pad_apply_of_inside _ _ _ x v _ h_S_ (ix2 p d) (ix2 ⟨p.val, h⟩ d) fun a => ?_
    match a with
    | ⟨0, _⟩ => show p.val = 0 + p.val * (0 + 1); omega
    | ⟨1, _⟩ => show d.val = 0 + d.val * (0 + 1); omega
  · rw [dif_neg h]
    refine (pad_apply_of_not_inside _ _ _ x v _ h_S_ (ix2 p d) 0 ?_).trans (congrArg v (eq_ix0 _))
    show ¬(0 ≤ p.val ∧ (p.val - 0) % (0 + 1) = 0 ∧ (p.val - 0) / (0 + 1) < 2000000)
    omega

/-- A vector padded at its end with a value, read at `p`: the entry when `p` is one, else the value. -/
theorem pad_vec_apply {α : Type} (x : S2000000.Idx → α) (v : S_.Idx → α) (p : Fin 2015232) :
    pad S2015232 ![0] ![15232] ![0] x v pads_S2000000_S2015232_0152320 h_S_ (ix1 p)
      = if h : p.val < 2000000 then x (ix1 ⟨p.val, h⟩) else v ix0 := by
  by_cases h : p.val < 2000000
  · rw [dif_pos h]
    refine pad_apply_of_inside _ _ _ x v _ h_S_ (ix1 p) (ix1 ⟨p.val, h⟩) fun a => ?_
    match a with
    | ⟨0, _⟩ => show p.val = 0 + p.val * (0 + 1); omega
  · rw [dif_neg h]
    refine (pad_apply_of_not_inside _ _ _ x v _ h_S_ (ix1 p) 0 ?_).trans (congrArg v (eq_ix0 _))
    show ¬(0 ≤ p.val ∧ (p.val - 0) % (0 + 1) = 0 ∧ (p.val - 0) / (0 + 1) < 2000000)
    omega

/-! ## The buffers the first region reads -/

/-- The padded feature rows, as the first region finds them. -/
theorem v0_apply (p : Fin 2015232) (d : Fin 128) :
    (V5 m c (Proc.devRef .tc main_v0) : S2015232x128.Idx → EReal) (ix2 p d)
      = Cert.Spec.xPad (m ((c : Thread nD τ).loc main_arg0)) p d := by
  rw [V5_of m c main_v0 (by decide), V4_of m c main_v0 (by decide), V3_of m c main_v0 (by decide)]
  show (StableHlo.after (hostOps0_1 (F := Ideal)) (V1 m c) (Proc.devRef .tc main_v0) : S2015232x128.Idx → EReal) (ix2 p d) = _
  after_results
  refine (pad_rows_apply (V0 m c (Proc.devRef .tc main_arg0)) (sitofp (F := Ideal) .f32 (constantI S_ 32 0#32)) p d).trans ?_
  unfold Cert.Spec.xPad
  by_cases h : p.val < 2000000
  · rw [dif_pos h, dif_pos h]
  · rw [dif_neg h, dif_neg h]; exact sitofp_zero_word

/-- The padded index words, laid out as one row. -/
theorem v2_apply (p : Fin 2015232) :
    (V5 m c (Proc.devRef .tc main_v2) : S1x2015232.Idx → BitVec 32) (ix2 (0 : Fin 1) p)
      = Cert.Spec.bPad (m ((c : Thread nD τ).loc main_arg1)) p := by
  show (StableHlo.after (hostOps0_4 (F := Ideal)) (V4 m c) (Proc.devRef .tc main_v2) : S1x2015232.Idx → BitVec 32) (ix2 (0 : Fin 1) p) = _
  after_results
  refine (shapeCast_a_1a_apply (pad S2015232 ![0] ![15232] ![0] (V0 m c (Proc.devRef .tc main_arg1))
    (constantI S_ 32 256#32) pads_S2000000_S2015232_0152320 h_S_) shapeCasts_S2015232_S1x2015232 0 p).trans ?_
  rw [pad_vec_apply]
  rfl

/-- The three parameter vectors laid out as rows. -/
theorem v3_apply (j : Fin 256) :
    (V5 m c (Proc.devRef .tc main_v3) : S1x256.Idx → EReal) (ix2 (0 : Fin 1) j)
      = (m ((c : Thread nD τ).loc main_arg3) : S256.Idx → EReal) (ix1 j) := by
  show (StableHlo.after (hostOps0_4 (F := Ideal)) (V4 m c) (Proc.devRef .tc main_v3) : S1x256.Idx → EReal) (ix2 (0 : Fin 1) j) = _
  after_results
  exact shapeCast_a_1a_apply (V0 m c (Proc.devRef .tc main_arg3)) shapeCasts_S256_S1x256 0 j
theorem v4_apply (j : Fin 256) :
    (V5 m c (Proc.devRef .tc main_v4) : S1x256.Idx → EReal) (ix2 (0 : Fin 1) j)
      = (m ((c : Thread nD τ).loc main_arg4) : S256.Idx → EReal) (ix1 j) := by
  show (StableHlo.after (hostOps0_4 (F := Ideal)) (V4 m c) (Proc.devRef .tc main_v4) : S1x256.Idx → EReal) (ix2 (0 : Fin 1) j) = _
  after_results
  exact shapeCast_a_1a_apply (V0 m c (Proc.devRef .tc main_arg4)) shapeCasts_S256_S1x256 0 j
theorem v5_apply (j : Fin 256) :
    (V5 m c (Proc.devRef .tc main_v5) : S1x256.Idx → EReal) (ix2 (0 : Fin 1) j)
      = (m ((c : Thread nD τ).loc main_arg5) : S256.Idx → EReal) (ix1 j) := by
  show (StableHlo.after (hostOps0_4 (F := Ideal)) (V4 m c) (Proc.devRef .tc main_v5) : S1x256.Idx → EReal) (ix2 (0 : Fin 1) j) = _
  after_results
  exact shapeCast_a_1a_apply (V0 m c (Proc.devRef .tc main_arg5)) shapeCasts_S256_S1x256 0 j

/-- The weights are an argument no host operation writes. -/
theorem arg2_eq : V5 m c (Proc.devRef .tc main_arg2) = m ((c : Thread nD τ).loc main_arg2) :=
  (V5_of m c main_arg2 (by decide)).trans <| (V4_of m c main_arg2 (by decide)).trans <|
    (V3_of m c main_arg2 (by decide)).trans <| (V2_of m c main_arg2 (by decide)).trans <|
    (V1_of m c main_arg2 (by decide)).trans rfl

end Cert.KernelIdeal.HostValue

end
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.Ideal.PayValue.lean ====
/-
  The first kernel's arithmetic read at an index, over the extended reals: the comparison of the segment number with
  an edge's word is exact (both are integers read as reals), so the matrix product of the one-hot rows with the block of
  features is, per segment and column, the sum of the rows of the block whose word is the segment's number; the lane sum of the
  one-hot rows counts them.
-/
import proofs.«413057_j54305566490875_2_alg».proof.Proof.Gen.KernelIdeal.Skeleton
import proofs.«413057_j54305566490875_2_alg».proof.Proof.Spec
import proofs.«413057_j54305566490875_2_alg».proof.Proof.LibPlainDot
import proofs.«413057_j54305566490875_2_alg».proof.Proof.LibIdealReal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen
open Idealize.ShloMosaic Idealize.ShloMosaic.ValueIdx
open scoped BigOperators

/-- The reset values are zero. -/
theorem pay1_apply (g : Fin 256) (d : Fin 128) : k0_pay1 (F := Ideal) (ix2 g d) = 0 := by
  simp only [k0_pay1, shapeCast_self, broadcast_apply]
  exact Ideal.ofBits_zero_f32

theorem pay2_apply (g : Fin 256) : k0_pay2 (F := Ideal) (ix2 g (0 : Fin 1)) = 0 := by
  simp only [k0_pay2, shapeCast_self, broadcast_apply]
  exact Ideal.ofBits_zero_f32

/-- A column broadcast over many: an `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word of a segment number below 256, read signed, is the number. -/
theorem toInt_ofNat_seg (g : Fin 256) : (BitVec.ofNat 32 g.val).toInt = (g.val : ℤ) := by
  have hg := g.isLt
  have hn : (BitVec.ofNat 32 g.val).toNat = g.val := by
    rw [BitVec.toNat_ofNat]; exact Nat.mod_eq_of_lt (by omega)
  rw [BitVec.toInt_eq_toNat_of_lt (by rw [hn]; omega), hn]

/-- The comparison bit: one exactly when the word at position `k`, read signed, is the segment's number. -/
theorem pay3_apply (bb : Vec Ideal S1x8192 .i32) (g : Fin 256) (k : Fin 8192) :
    k0_pay3 (F := Ideal) bb (ix2 g k)
      = if (bb (ix2 (0 : Fin 1) k)).toInt = (g.val : ℤ) then 1#1 else 0#1 := by
  simp only [k0_pay3, shapeCast_self]
  rw [cmpf_apply, broadcastTo_a1_ab_apply, broadcastTo_1b_ab_apply, sitofp_apply, sitofp_apply,
    iota_single_apply]
  show Ideal.cmp .oeq ((((BitVec.ofNat 32 g.val).toInt : ℤ) : ℝ) : EReal)
    ((((bb (ix2 (0 : Fin 1) k)).toInt : ℤ) : ℝ) : EReal) = _
  rw [toInt_ofNat_seg]
  have hiff : (((g.val : ℤ) : ℝ) : EReal) = ((((bb (ix2 (0 : Fin 1) k)).toInt : ℤ) : ℝ) : EReal)
      ↔ (bb (ix2 (0 : Fin 1) k)).toInt = (g.val : ℤ) := by
    rw [EReal.coe_eq_coe_iff, Int.cast_inj]; exact eq_comm
  by_cases h : (bb (ix2 (0 : Fin 1) k)).toInt = (g.val : ℤ)
  · rw [if_pos h]
    simp only [Ideal.cmp, decide_eq_true (hiff.mpr h)]; rfl
  · rw [if_neg h]
    simp only [Ideal.cmp, decide_eq_false (mt hiff.mp h)]; rfl

/-- The one-hot entry as an extended real: one where the word at position `k`, read signed, is the segment's number,
    zero elsewhere. -/
theorem onehot_apply (bb : Vec Ideal S1x8192 .i32) (g : Fin 256) (k : Fin 8192) :
    (sitofp .f32 (extui 32 (k0_pay3 (F := Ideal) bb) natLt_1_32) : FVec Ideal S256x8192 .f32) (ix2 g k)
      = if (bb (ix2 (0 : Fin 1) k)).toInt = (g.val : ℤ) then (1 : EReal) else 0 := by
  rw [sitofp_apply, extui_apply, pay3_apply]
  by_cases h : (bb (ix2 (0 : Fin 1) k)).toInt = (g.val : ℤ)
  · rw [if_pos h, if_pos h, Cert.LibIdealReal.sitofp_extui_bit_one]; exact EReal.coe_one
  · rw [if_neg h, if_neg h, Cert.LibIdealReal.sitofp_extui_bit_zero]; exact EReal.coe_zero

/-- A block product into the zero accumulator at `(p, q)`, whatever the operands' formats:
    `∑ k, lhs (p, k) · rhs (k, q)`. -/
theorem matmul_zero_apply_fmt {A K B : ℕ} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) := by
  rw [Cert.LibPlainDot.eq_plain d hlc hrc hln hrn hlb hrb, Ideal.matmul_constant_zero_apply]
  exact Cert.LibPlainDot.plain_sum lhs rhs p q

/-- The accumulated sums after one block: what was there plus, per segment and column, the rows of the block whose
    word is the segment's number. -/
theorem pay4_apply (bb : Vec Ideal S1x8192 .i32) (xb : Vec Ideal S8192x128 .f32) (s : Vec Ideal S256x128 .f32)
    (g : Fin 256) (d : Fin 128) :
    k0_pay4 (F := Ideal) bb xb s (ix2 g d)
      = s (ix2 g d) + ∑ k ∈ Finset.univ.filter (fun k : Fin 8192 => (bb (ix2 (0 : Fin 1) k)).toInt = (g.val : ℤ)), xb (ix2 k d) := by
  simp only [k0_pay4, shapeCast_self]
  rw [addf_apply]
  refine congrArg (s (ix2 g d) + ·) ?_
  refine (matmul_zero_apply_fmt dot_S256x8192_S8192x128_S256x128_1_0_0_1_n_n rfl rfl rfl rfl rfl rfl none _ _ g d).trans ?_
  rw [Finset.sum_filter]
  refine Finset.sum_congr rfl fun k _ => ?_
  rw [truncf_apply, truncf_apply, onehot_apply]
  by_cases h : (bb (ix2 (0 : Fin 1) k)).toInt = (g.val : ℤ)
  · rw [if_pos h, if_pos h, one_mul]
  · rw [if_neg h, if_neg h, zero_mul]

/-- The source index of the lane sum over result row `g` with lane `k` inserted is `(g, k)`. -/
theorem lift_row (h : S256x8192.Reduces [1] S256) (g : Fin 256) (k : Fin 8192) : h.lift (ix1 g) k = ix2 g k := by
  funext c
  apply Fin.ext
  match c with
  | ⟨0, _⟩ => rfl
  | ⟨1, _⟩ => rfl

/-- The accumulated counts after one block. -/
theorem pay5_apply (bb : Vec Ideal S1x8192 .i32) (s : Vec Ideal S256x1 .f32) (g : Fin 256) :
    k0_pay5 (F := Ideal) bb s (ix2 g (0 : Fin 1))
      = s (ix2 g (0 : Fin 1)) + ∑ _k ∈ Finset.univ.filter (fun k : Fin 8192 => (bb (ix2 (0 : Fin 1) k)).toInt = (g.val : ℤ)), (1 : EReal) := by
  simp only [k0_pay5, shapeCast_self]
  rw [addf_apply]
  refine congrArg (s (ix2 g (0 : Fin 1)) + ·) ?_
  rw [shapeCast_apply _ _ (ix2 g (0 : Fin 1)) (ix1 g) (by
    rw [Shape.rowMajor_val_one, Shape.rowMajor_val_two]
    show g.val = g.val * 1 + 0
    omega)]
  refine (Ideal.multiReduction_add_single (φ := .f32) _ _ reduces_S256x8192_S256 _ _ (ix1 g)).trans ?_
  rw [Finset.sum_filter]
  have hterm : ∀ k : Fin 8192,
      (sitofp .f32 (extui 32 (k0_pay3 (F := Ideal) bb) natLt_1_32) : FVec Ideal S256x8192 .f32)
          (reduces_S256x8192_S256.lift (ix1 g) k)
        = if (bb (ix2 (0 : Fin 1) k)).toInt = (g.val : ℤ) then (1 : EReal) else 0 :=
    fun k => by rw [lift_row, onehot_apply]
  exact Finset.sum_congr rfl fun k _ => hterm k

/-- The two output stores only add a leading unit axis. -/
theorem pay6_apply (v : Vec Ideal S256x128 .f32) (g : Fin 256) (d : Fin 128) :
    k0_pay6 (F := Ideal) v (ix3 (0 : Fin 1) g d) = v (ix2 g d) := by
  simp only [k0_pay6]
  exact shapeCast_ab_1ab_apply v _ 0 g d

theorem pay7_apply (v : Vec Ideal S256x1 .f32) (g : Fin 256) :
    k0_pay7 (F := Ideal) v (ix3 (0 : Fin 1) g (0 : Fin 1)) = v (ix2 g (0 : Fin 1)) := by
  simp only [k0_pay7]
  exact shapeCast_ab_1ab_apply v _ 0 g 0

end Cert.KernelIdeal.PayValue

end
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.SpecBlocks.lean ====
/-
  The blocks' sums add up to the segment sums: the 246 blocks of 8192 positions are the 2015232 padded positions, a
  padded position past the last edge carries a zero row under a word that names no segment, and a running sum that
  restarts every 123 blocks ends, after blocks 122 and 245, at the two halves of the total.
-/
import proofs.«413057_j54305566490875_2_alg».proof.Proof.Spec
import proofs.«413057_j54305566490875_2_alg».proof.Proof.LibBlockSum
import Mathlib.Algebra.BigOperators.Fin
import Mathlib.Algebra.BigOperators.Intervals

noncomputable section

namespace Cert.Spec

open Idealize.ShloMosaic Idealize.ShloMosaic.ValueIdx
open scoped BigOperators

/-! ## General lemmas, at abstract sizes -/

/-- A running sum that restarts at every multiple of 123: at position `s` of stretch `c` it is the sum of the
    stretch's first `s + 1` terms. -/
theorem run_stretch {M : Type*} [AddCommMonoid M] (a f : ℕ → M)
    (hreset : ∀ n, n % 123 = 0 → a n = 0 + f n)
    (hstep : ∀ n, n % 123 ≠ 0 → a n = a (n - 1) + f n) (c s : ℕ) (hs : s < 123) :
    a (123 * c + s) = ∑ i ∈ Finset.range (s + 1), f (123 * c + i) := by
  induction s with
  | zero =>
    rw [hreset _ (by omega), zero_add, Finset.sum_range_one]
  | succ s ih =>
    rw [hstep _ (by omega), Finset.sum_range_succ _ (s + 1), ← ih (by omega)]
    have : 123 * c + (s + 1) - 1 = 123 * c + s := by omega
    rw [this]

/-- The two stretches of 123 together are the sum of the first 246 terms. -/
theorem run_two {M : Type*} [AddCommMonoid M] (a f : ℕ → M)
    (hreset : ∀ n, n % 123 = 0 → a n = 0 + f n)
    (hstep : ∀ n, n % 123 ≠ 0 → a n = a (n - 1) + f n) :
    a 122 + a 245 = ∑ t : Fin 246, f t.val := by
  have h0 := run_stretch a f hreset hstep 0 122 (by omega)
  have h1 := run_stretch a f hreset hstep 1 122 (by omega)
  have e0 : 123 * 0 + 122 = 122 := by omega
  have e1 : 123 * 1 + 122 = 245 := by omega
  rw [e0] at h0; rw [e1] at h1
  have hsplit : ∑ t : Fin 246, f t.val = ∑ i ∈ Finset.range 123, f i + ∑ i ∈ Finset.range 123, f (123 + i) := by
    rw [← Finset.sum_range (n := 246) f]
    exact Finset.sum_range_add f 123 123
  rw [h0, h1, hsplit]
  refine congrArg₂ _ (Finset.sum_congr rfl fun i _ => ?_) (Finset.sum_congr rfl fun i _ => ?_)
  · rw [show 123 * 0 + i = i by omega]
  · rw [show 123 * 1 + i = 123 + i by omega]

/-- Filtered sums over `B` blocks of `S` consecutive indices add up to the filtered sum over all `N = B * S`
    indices. -/
theorem sum_blocks_filter {M : Type*} [AddCommMonoid M] (B S N : ℕ) (hN : B * S = N) (f : Fin N → M)
    (p : Fin N → Prop) [DecidablePred p] (hlt : ∀ (t : Fin B) (k : Fin S), S * t.val + k.val < N) :
    ∑ t : Fin B, ∑ k ∈ Finset.univ.filter (fun k : Fin S => p ⟨S * t.val + k.val, hlt t k⟩),
        f ⟨S * t.val + k.val, hlt t k⟩
      = ∑ n ∈ Finset.univ.filter p, f n := by
  subst hN
  simp only [Finset.sum_filter]
  exact Cert.BlockSum.sum_blocks B S (fun n => if p n then f n else 0)

/-- Padding changes no filtered sum: if the padded predicate and the padded values agree with the original ones
    below `N` and the predicate fails at every padded position from `N` on, the filtered sum over the `N'` padded
    positions is the filtered sum over the `N` original ones. -/
theorem sum_filter_pad {M : Type*} [AddCommMonoid M] (N N' : ℕ) (hNN : N ≤ N')
    (f : Fin N → M) (p : Fin N → Prop) [DecidablePred p]
    (fP : Fin N' → M) (pP : Fin N' → Prop) [DecidablePred pP]
    (hp : ∀ (n : Fin N') (h : n.val < N), pP n ↔ p ⟨n.val, h⟩)
    (hf : ∀ (n : Fin N') (h : n.val < N), fP n = f ⟨n.val, h⟩)
    (hout : ∀ n : Fin N', ¬ n.val < N → ¬ pP n) :
    ∑ n ∈ Finset.univ.filter pP, fP n = ∑ e ∈ Finset.univ.filter p, f e := by
  symm
  refine Finset.sum_bij (fun e _ => Fin.castLE hNN e) ?_ ?_ ?_ ?_
  · intro e he
    rw [Finset.mem_filter] at he ⊢
    exact ⟨Finset.mem_univ _, (hp (Fin.castLE hNN e) e.isLt).mpr he.2⟩
  · intro e₁ _ e₂ _ h
    exact Fin.castLE_injective hNN h
  · intro n hn
    rw [Finset.mem_filter] at hn
    have hlt : n.val < N := by
      by_contra hc
      exact hout n hc hn.2
    refine ⟨⟨n.val, hlt⟩, ?_, Fin.ext rfl⟩
    rw [Finset.mem_filter]
    exact ⟨Finset.mem_univ _, (hp n hlt).mp hn.2⟩
  · intro e _
    exact (hf (Fin.castLE hNN e) e.isLt).symm

/-! ## The padded edges -/

/-- The padding word, read signed, is 256, which no segment's number reaches. -/
theorem pad_word_ne (g : Fin 256) : (256#32 : BitVec 32).toInt ≠ (g.val : ℤ) := by
  have h : (256#32 : BitVec 32).toInt = 256 := by decide
  rw [h]
  have := g.isLt
  omega

/-- The sum of the 246 blocks' sums is the segment sum. -/
theorem sum_blkSum (x : (⟨2, ![2000000, 128]⟩ : Shape).Idx → EReal) (b : (⟨1, ![2000000]⟩ : Shape).Idx → BitVec 32)
    (g : Fin 256) (d : Fin 128) : ∑ t : Fin 246, blkSum x b t g d = segSum x b g d := by
  unfold blkSum segSum
  rw [sum_blocks_filter 246 8192 2015232 (by norm_num) (fun n => xPad x n d)
    (fun n => (bPad b n).toInt = (g.val : ℤ)) blk_lt]
  refine sum_filter_pad 2000000 2015232 (by norm_num) _ _ _ _ ?_ ?_ ?_
  · intro n h
    unfold bPad
    rw [dif_pos h]
  · intro n h
    unfold xPad
    rw [dif_pos h]
  · intro n h
    unfold bPad
    rw [dif_neg h]
    exact pad_word_ne g

/-- The sum of the 246 blocks' counts is the segment count. -/
theorem sum_blkCnt (b : (⟨1, ![2000000]⟩ : Shape).Idx → BitVec 32) (g : Fin 256) :
    ∑ t : Fin 246, blkCnt b t g = segCnt b g := by
  unfold blkCnt segCnt
  rw [sum_blocks_filter 246 8192 2015232 (by norm_num) (fun _ => (1 : EReal))
    (fun n => (bPad b n).toInt = (g.val : ℤ)) blk_lt]
  refine sum_filter_pad 2000000 2015232 (by norm_num) _ _ _ _ ?_ ?_ ?_
  · intro n h
    unfold bPad
    rw [dif_pos h]
  · intro n h
    rfl
  · intro n h
    unfold bPad
    rw [dif_neg h]
    exact pad_word_ne g

/-- A running sum over the 246 blocks that restarts (from zero) at every block whose number is a multiple of 123 and
    otherwise adds the block's sum to what the block before left: after blocks 122 and 245 its two values add up to
    the segment sum. -/
theorem cores_segSum (x : (⟨2, ![2000000, 128]⟩ : Shape).Idx → EReal) (b : (⟨1, ![2000000]⟩ : Shape).Idx → BitVec 32)
    (g : Fin 256) (d : Fin 128) (a : ℕ → EReal)
    (hreset : ∀ n, n % 123 = 0 → a n = 0 + blkSumN x b n g d)
    (hstep : ∀ n, n % 123 ≠ 0 → a n = a (n - 1) + blkSumN x b n g d) :
    a 122 + a 245 = segSum x b g d := by
  rw [run_two a (fun n => blkSumN x b n g d) hreset hstep, ← sum_blkSum]
  refine Finset.sum_congr rfl fun t _ => ?_
  show blkSumN x b t.val g d = _
  unfold blkSumN
  rw [dif_pos t.isLt]

/-- The same for the counts. -/
theorem cores_segCnt (b : (⟨1, ![2000000]⟩ : Shape).Idx → BitVec 32) (g : Fin 256) (a : ℕ → EReal)
    (hreset : ∀ n, n % 123 = 0 → a n = 0 + blkCntN b n g)
    (hstep : ∀ n, n % 123 ≠ 0 → a n = a (n - 1) + blkCntN b n g) :
    a 122 + a 245 = segCnt b g := by
  rw [run_two a (fun n => blkCntN b n g) hreset hstep, ← sum_blkCnt]
  refine Finset.sum_congr rfl fun t _ => ?_
  show blkCntN b t.val g = _
  unfold blkCntN
  rw [dif_pos t.isLt]

end Cert.Spec

end
-- ==== Proof.Ideal.AccValue.lean ====
/-
  The first region's two accumulators against the shared block sums: when the region's first array is the padded
  feature rows and its second the padded index words, the accumulators after points 122 and 245 add up to the
  segment sums and counts.
-/
import proofs.«413057_j54305566490875_2_alg».proof.Proof.Ideal.Dat0
import proofs.«413057_j54305566490875_2_alg».proof.Proof.Ideal.PayValue
import proofs.«413057_j54305566490875_2_alg».proof.Proof.SpecBlocks
import Idealize.ShloMosaic.Lib.ValueIdx
import Idealize.ShloMosaic.Lib.Pipeline.Value

set_option maxRecDepth 16384

noncomputable section

namespace Cert.KernelIdeal.AccValue

open Cert.KernelIdeal Cert.KernelIdeal.Gen Cert.KernelIdeal.Hand
open Idealize.ShloMosaic Idealize.ShloMosaic.TcCoe Idealize.ShloMosaic.ValueIdx Idealize.SL.Sem
open scoped BigOperators

theorem lt122 : 122 < cfg0.N := by decide
theorem lt245 : 245 < cfg0.N := by decide

variable (V : (c : Dev nD) → (b : Ref sig .tc) → Buf (Elt Ideal) ((c : Thread nD τ).loc b)) (c : Dev nD)
  (x : (⟨2, ![2000000, 128]⟩ : Shape).Idx → EReal) (b : (⟨1, ![2000000]⟩ : Shape).Idx → BitVec 32)

/-- The feature window's block index at point `t` is `(t, 0)`. -/
theorem hidx0 : ∀ t : Fin cfg0.N, win0_0.index t (0 : Fin 2) = t.val ∧ win0_0.index t 1 = 0 :=
  (by decide +kernel : ∀ t : Fin grid0.N, win0_0.index t (0 : Fin 2) = t.val ∧ win0_0.index t 1 = 0)
/-- The word window's block index at point `t` is `(0, t)`. -/
theorem hidx1 : ∀ t : Fin cfg0.N, win0_1.index t (0 : Fin 2) = 0 ∧ win0_1.index t 1 = t.val :=
  (by decide +kernel : ∀ t : Fin grid0.N, win0_1.index t (0 : Fin 2) = 0 ∧ win0_1.index t 1 = t.val)

/-- Row `k` of the feature block at point `t` is row `8192 t + k` of the array. -/
theorem xblk_apply (t : Fin cfg0.N) (k : Fin 8192) (d : Fin 128) (p : Fin 2015232) (hp : p.val = 8192 * t.val + k.val) :
    (xblk V c t) (ix2 k d) = (V c main_v0 : S2015232x128.Idx → EReal) (ix2 p d) := by
  unfold xblk iblk0
  rw [View.read_apply]
  show V c main_v0 _ = V c main_v0 _
  congr 1
  funext a
  apply Fin.ext
  match a with
  | ⟨0, _⟩ => show win0_0.index t 0 * 8192 + 1 * k.val = p.val; rw [(hidx0 t).1, hp]; omega
  | ⟨1, _⟩ => show win0_0.index t 1 * 128 + 1 * d.val = d.val; rw [(hidx0 t).2]; omega

/-- Word `k` of the word block at point `t` is word `8192 t + k` of the array. -/
theorem bblk_apply (t : Fin cfg0.N) (k : Fin 8192) (p : Fin 2015232) (hp : p.val = 8192 * t.val + k.val) :
    (bblk V c t) (ix2 (0 : Fin 1) k) = (V c main_v2 : S1x2015232.Idx → BitVec 32) (ix2 (0 : Fin 1) p) := by
  unfold bblk iblk0
  rw [View.read_apply]
  show V c main_v2 _ = V c main_v2 _
  congr 1
  funext a
  apply Fin.ext
  match a with
  | ⟨0, _⟩ => show win0_1.index t 0 * 1 + 1 * 0 = 0; rw [(hidx1 t).1]
  | ⟨1, _⟩ => show win0_1.index t 1 * 8192 + 1 * k.val = p.val; rw [(hidx1 t).2, hp]; omega

/-- The grid has 246 points. -/
theorem hN : cfg0.N = 246 := by decide

/-- One block's update of the feature accumulator, at an index: what was there plus the block's sum. -/
theorem pay4_blk
    (hx : ∀ (p : Fin 2015232) (d : Fin 128), (V c main_v0 : S2015232x128.Idx → EReal) (ix2 p d) = Cert.Spec.xPad x p d)
    (hb : ∀ p : Fin 2015232, (V c main_v2 : S1x2015232.Idx → BitVec 32) (ix2 (0 : Fin 1) p) = Cert.Spec.bPad b p)
    (t : Fin cfg0.N) (s : Vec Ideal S256x128 .f32) (g : Fin 256) (d : Fin 128) :
    k0_pay4 (F := Ideal) (bblk V c t) (xblk V c t) s (ix2 g d) = s (ix2 g d) + Cert.Spec.blkSumN x b t.val g d := by
  have ht : t.val < 246 := hN ▸ t.isLt
  have hbk : ∀ k : Fin 8192, bblk V c t (ix2 (0 : Fin 1) k) = Cert.Spec.bPad b ⟨8192 * t.val + k.val, Cert.Spec.blk_lt ⟨t.val, ht⟩ k⟩ :=
    fun k => (bblk_apply V c t k ⟨8192 * t.val + k.val, Cert.Spec.blk_lt ⟨t.val, ht⟩ k⟩ rfl).trans (hb _)
  have hxk : ∀ k : Fin 8192, xblk V c t (ix2 k d) = Cert.Spec.xPad x ⟨8192 * t.val + k.val, Cert.Spec.blk_lt ⟨t.val, ht⟩ k⟩ d :=
    fun k => (xblk_apply V c t k d ⟨8192 * t.val + k.val, Cert.Spec.blk_lt ⟨t.val, ht⟩ k⟩ rfl).trans (hx _ _)
  rw [Cert.KernelIdeal.PayValue.pay4_apply]
  unfold Cert.Spec.blkSumN
  rw [dif_pos ht]
  unfold Cert.Spec.blkSum
  refine congrArg (s (ix2 g d) + ·) ?_
  exact Finset.sum_congr (Finset.filter_congr fun k _ => by rw [hbk k]) (fun k _ => hxk k)

/-- One block's update of the count accumulator, at an index: what was there plus the block's count. -/
theorem pay5_blk
    (hb : ∀ p : Fin 2015232, (V c main_v2 : S1x2015232.Idx → BitVec 32) (ix2 (0 : Fin 1) p) = Cert.Spec.bPad b p)
    (t : Fin cfg0.N) (s : Vec Ideal S256x1 .f32) (g : Fin 256) :
    k0_pay5 (F := Ideal) (bblk V c t) s (ix2 g (0 : Fin 1)) = s (ix2 g (0 : Fin 1)) + Cert.Spec.blkCntN b t.val g := by
  have ht : t.val < 246 := hN ▸ t.isLt
  have hbk : ∀ k : Fin 8192, bblk V c t (ix2 (0 : Fin 1) k) = Cert.Spec.bPad b ⟨8192 * t.val + k.val, Cert.Spec.blk_lt ⟨t.val, ht⟩ k⟩ :=
    fun k => (bblk_apply V c t k ⟨8192 * t.val + k.val, Cert.Spec.blk_lt ⟨t.val, ht⟩ k⟩ rfl).trans (hb _)
  rw [Cert.KernelIdeal.PayValue.pay5_apply]
  unfold Cert.Spec.blkCntN
  rw [dif_pos ht]
  unfold Cert.Spec.blkCnt
  refine congrArg (s (ix2 g (0 : Fin 1)) + ·) ?_
  exact Finset.sum_congr (Finset.filter_congr fun k _ => by rw [hbk k]) (fun _ _ => rfl)

/-- The feature accumulator at an index after position `n`, zero past the last point. -/
def accSumAt (g : Fin 256) (d : Fin 128) (n : ℕ) : EReal :=
  if h : n < cfg0.N then (accAt V c n h).1 (ix2 g d) else 0

/-- The count accumulator at an index after position `n`, zero past the last point. -/
def accCntAt (g : Fin 256) (n : ℕ) : EReal :=
  if h : n < cfg0.N then (accAt V c n h).2 (ix2 g (0 : Fin 1)) else 0

/-- The feature accumulator after the two cores' last points adds up to the segment sum. -/
theorem acc_sum
    (hx : ∀ (p : Fin 2015232) (d : Fin 128), (V c main_v0 : S2015232x128.Idx → EReal) (ix2 p d) = Cert.Spec.xPad x p d)
    (hb : ∀ p : Fin 2015232, (V c main_v2 : S1x2015232.Idx → BitVec 32) (ix2 (0 : Fin 1) p) = Cert.Spec.bPad b p)
    (g : Fin 256) (d : Fin 128) :
    (accAt V c 122 lt122).1 (ix2 g d) + (accAt V c 245 lt245).1 (ix2 g d) = Cert.Spec.segSum x b g d := by
  have hpast : ∀ n, ¬ n < cfg0.N → Cert.Spec.blkSumN x b n g d = 0 := fun n h => by
    unfold Cert.Spec.blkSumN; rw [dif_neg (hN ▸ h)]
  have hreset : ∀ n, n % 123 = 0 → accSumAt V c g d n = 0 + Cert.Spec.blkSumN x b n g d := by
    intro n h0
    unfold accSumAt
    by_cases h : n < cfg0.N
    · rw [dif_pos h, accAt_reset V c ⟨n, h⟩ h0]
      show k0_pay4 (F := Ideal) (bblk V c ⟨n, h⟩) (xblk V c ⟨n, h⟩) (k0_pay1 (F := Ideal)) (ix2 g d) = _
      rw [pay4_blk V c x b hx hb ⟨n, h⟩, Cert.KernelIdeal.PayValue.pay1_apply]
    · rw [dif_neg h, hpast n h, zero_add]
  have hstep : ∀ n, n % 123 ≠ 0 → accSumAt V c g d n = accSumAt V c g d (n - 1) + Cert.Spec.blkSumN x b n g d := by
    intro n h0
    unfold accSumAt
    by_cases h : n < cfg0.N
    · rw [dif_pos h, dif_pos (Nat.lt_of_le_of_lt (Nat.sub_le _ _) h), accAt_step V c ⟨n, h⟩ h0]
      show k0_pay4 (F := Ideal) (bblk V c ⟨n, h⟩) (xblk V c ⟨n, h⟩) _ (ix2 g d) = _
      rw [pay4_blk V c x b hx hb ⟨n, h⟩]
    · have h1 : ¬ n - 1 < cfg0.N := by rw [hN] at h ⊢; omega
      rw [dif_neg h, dif_neg h1, hpast n h, zero_add]
  have := Cert.Spec.cores_segSum x b g d (accSumAt V c g d) hreset hstep
  unfold accSumAt at this
  rw [dif_pos lt122, dif_pos lt245] at this
  exact this

/-- The count accumulator after the two cores' last points adds up to the segment count. -/
theorem acc_cnt
    (hb : ∀ p : Fin 2015232, (V c main_v2 : S1x2015232.Idx → BitVec 32) (ix2 (0 : Fin 1) p) = Cert.Spec.bPad b p)
    (g : Fin 256) :
    (accAt V c 122 lt122).2 (ix2 g (0 : Fin 1)) + (accAt V c 245 lt245).2 (ix2 g (0 : Fin 1)) = Cert.Spec.segCnt b g := by
  have hpast : ∀ n, ¬ n < cfg0.N → Cert.Spec.blkCntN b n g = 0 := fun n h => by
    unfold Cert.Spec.blkCntN; rw [dif_neg (hN ▸ h)]
  have hreset : ∀ n, n % 123 = 0 → accCntAt V c g n = 0 + Cert.Spec.blkCntN b n g := by
    intro n h0
    unfold accCntAt
    by_cases h : n < cfg0.N
    · rw [dif_pos h, accAt_reset V c ⟨n, h⟩ h0]
      show k0_pay5 (F := Ideal) (bblk V c ⟨n, h⟩) (k0_pay2 (F := Ideal)) (ix2 g (0 : Fin 1)) = _
      rw [pay5_blk V c b hb ⟨n, h⟩, Cert.KernelIdeal.PayValue.pay2_apply]
    · rw [dif_neg h, hpast n h, zero_add]
  have hstep : ∀ n, n % 123 ≠ 0 → accCntAt V c g n = accCntAt V c g (n - 1) + Cert.Spec.blkCntN b n g := by
    intro n h0
    unfold accCntAt
    by_cases h : n < cfg0.N
    · rw [dif_pos h, dif_pos (Nat.lt_of_le_of_lt (Nat.sub_le _ _) h), accAt_step V c ⟨n, h⟩ h0]
      show k0_pay5 (F := Ideal) (bblk V c ⟨n, h⟩) _ (ix2 g (0 : Fin 1)) = _
      rw [pay5_blk V c b hb ⟨n, h⟩]
    · have h1 : ¬ n - 1 < cfg0.N := by rw [hN] at h ⊢; omega
      rw [dif_neg h, dif_neg h1, hpast n h, zero_add]
  have := Cert.Spec.cores_segCnt b g (accCntAt V c g) hreset hstep
  unfold accCntAt at this
  rw [dif_pos lt122, dif_pos lt245] at this
  exact this

end Cert.KernelIdeal.AccValue

end
-- ==== Proof.Ideal.OutValue.lean ====
/-
  What the first region leaves in its two output arrays: slab `cc` of the stacked sums (of the stacked counts) is the
  accumulator after the last point of core `cc`, point 123·cc + 122, the only points at which those windows are
  written back.
-/
import proofs.«413057_j54305566490875_2_alg».proof.Proof.Ideal.Dat0
import proofs.«413057_j54305566490875_2_alg».proof.Proof.Ideal.PayValue
import Idealize.ShloMosaic.Lib.ValueIdx
import Idealize.ShloMosaic.Lib.Pipeline.Value

set_option maxRecDepth 16384

noncomputable section

namespace Cert.KernelIdeal.OutValue

open Cert.KernelIdeal Cert.KernelIdeal.Gen Cert.KernelIdeal.Hand
open Idealize.ShloMosaic Idealize.ShloMosaic.TcCoe Idealize.ShloMosaic.ValueIdx Idealize.SL.Sem
open scoped BigOperators

theorem lt_last (cc : Fin 2) : 123 * cc.val + 122 < cfg0.N := by
  have h : cfg0.N = 246 := N_0; have := cc.isLt; omega

variable (V : (c : Dev nD) → (b : Ref sig .tc) → Buf (Elt Ideal) ((c : Thread nD τ).loc b)) (c : Dev nD)

/-! ## Where the two output windows' blocks lie, and when they are written back -/

/-- Window 2's block index at point `t` is `(t / 123, 0, 0)`. -/
theorem index0_2 : ∀ t : Fin cfg0.N, (cfg0.win 2).index t 0 = t.val / 123 ∧ (cfg0.win 2).index t 1 = 0 ∧ (cfg0.win 2).index t 2 = 0 :=
  (by decide +kernel : ∀ t : Fin grid0.N, win0_2.index t (0 : Fin 3) = t.val / 123 ∧ win0_2.index t (1 : Fin 3) = 0 ∧ win0_2.index t (2 : Fin 3) = 0)

/-- Window 3's block index at point `t` is `(t / 123, 0, 0)`. -/
theorem index0_3 : ∀ t : Fin cfg0.N, (cfg0.win 3).index t 0 = t.val / 123 ∧ (cfg0.win 3).index t 1 = 0 ∧ (cfg0.win 3).index t 2 = 0 :=
  (by decide +kernel : ∀ t : Fin grid0.N, win0_3.index t (0 : Fin 3) = t.val / 123 ∧ win0_3.index t (1 : Fin 3) = 0 ∧ win0_3.index t (2 : Fin 3) = 0)

/-- The last point of core `cc`. -/
abbrev tLast (cc : Fin 2) : Fin cfg0.N := ⟨123 * cc.val + 122, lt_last cc⟩

theorem tLast_mod (cc : Fin 2) : (tLast cc).val % 123 = 122 := by
  show (123 * cc.val + 122) % 123 = 122
  omega

theorem tLast_div (cc : Fin 2) : (tLast cc).val / 123 = cc.val := by
  show (123 * cc.val + 122) / 123 = cc.val
  omega

/-- Two different points at which window 2 is written back write disjoint slabs: they differ on the leading axis. -/
theorem disj0_2 (t t' : Fin cfg0.N) (hf : (cfg0.win 2).flush t = true) (hf' : (cfg0.win 2).flush t' = true) (hne : t ≠ t') :
    Disjoint ((cfg0.win 2).blk t).view.set ((cfg0.win 2).blk t').view.set := by
  have h := (flush0_2 t).mp hf
  have h' := (flush0_2 t').mp hf'
  have hv : t.val ≠ t'.val := fun e => hne (Fin.ext e)
  show Disjoint ((View.whole main_v6_0).slice ((cfg0.win 2).rect t)).set ((View.whole main_v6_0).slice ((cfg0.win 2).rect t')).set
  rw [View.set_slice_whole, View.set_slice_whole]
  refine Rect.unit_disjoint (0 : Fin 3) ?_
  show (cfg0.win 2).index t 0 * 1 + 1 ≤ (cfg0.win 2).index t' 0 * 1 ∨ (cfg0.win 2).index t' 0 * 1 + 1 ≤ (cfg0.win 2).index t 0 * 1
  rw [(index0_2 t).1, (index0_2 t').1]
  omega

/-- The same for window 3. -/
theorem disj0_3 (t t' : Fin cfg0.N) (hf : (cfg0.win 3).flush t = true) (hf' : (cfg0.win 3).flush t' = true) (hne : t ≠ t') :
    Disjoint ((cfg0.win 3).blk t).view.set ((cfg0.win 3).blk t').view.set := by
  have h := (flush0_3 t).mp hf
  have h' := (flush0_3 t').mp hf'
  have hv : t.val ≠ t'.val := fun e => hne (Fin.ext e)
  show Disjoint ((View.whole main_v6_1).slice ((cfg0.win 3).rect t)).set ((View.whole main_v6_1).slice ((cfg0.win 3).rect t')).set
  rw [View.set_slice_whole, View.set_slice_whole]
  refine Rect.unit_disjoint (0 : Fin 3) ?_
  show (cfg0.win 3).index t 0 * 1 + 1 ≤ (cfg0.win 3).index t' 0 * 1 ∨ (cfg0.win 3).index t' 0 * 1 + 1 ≤ (cfg0.win 3).index t 0 * 1
  rw [(index0_3 t).1, (index0_3 t').1]
  omega

/-- Element `(0, g, d)` of window 2's block at the last point of core `cc` is element `(cc, g, d)` of the array. -/
theorem emb0_2 (cc : Fin 2) (g : Fin 256) (d : Fin 128) :
    ((cfg0.win 2).blk (tLast cc)).view.emb (ix3 (0 : Fin 1) g d : S1x256x128.Idx) = (ix3 cc g d : S2x256x128.Idx) := by
  funext a
  apply Fin.ext
  have hi := index0_2 (tLast cc)
  rw [tLast_div] at hi
  match a with
  | ⟨0, _⟩ =>
    refine ((cfg0.win 2).rect_emb_val (tLast cc) (ix3 (0 : Fin 1) g d) 0).trans ?_
    rw [hi.1]; show cc.val * 1 + 0 = cc.val; omega
  | ⟨1, _⟩ =>
    refine ((cfg0.win 2).rect_emb_val (tLast cc) (ix3 (0 : Fin 1) g d) 1).trans ?_
    rw [hi.2.1]; show 0 * 256 + g.val = g.val; omega
  | ⟨2, _⟩ =>
    refine ((cfg0.win 2).rect_emb_val (tLast cc) (ix3 (0 : Fin 1) g d) 2).trans ?_
    rw [hi.2.2]; show 0 * 128 + d.val = d.val; omega

/-- Element `(0, g, 0)` of window 3's block at the last point of core `cc` is element `(cc, g, 0)` of the array. -/
theorem emb0_3 (cc : Fin 2) (g : Fin 256) :
    ((cfg0.win 3).blk (tLast cc)).view.emb (ix3 (0 : Fin 1) g (0 : Fin 1) : S1x256x1.Idx) = (ix3 cc g (0 : Fin 1) : S2x256x1.Idx) := by
  funext a
  apply Fin.ext
  have hi := index0_3 (tLast cc)
  rw [tLast_div] at hi
  match a with
  | ⟨0, _⟩ =>
    refine ((cfg0.win 3).rect_emb_val (tLast cc) (ix3 (0 : Fin 1) g (0 : Fin 1)) 0).trans ?_
    rw [hi.1]; show cc.val * 1 + 0 = cc.val; omega
  | ⟨1, _⟩ =>
    refine ((cfg0.win 3).rect_emb_val (tLast cc) (ix3 (0 : Fin 1) g (0 : Fin 1)) 1).trans ?_
    rw [hi.2.1]; show 0 * 256 + g.val = g.val; omega
  | ⟨2, _⟩ =>
    refine ((cfg0.win 3).rect_emb_val (tLast cc) (ix3 (0 : Fin 1) g (0 : Fin 1)) 2).trans ?_
    rw [hi.2.2]; show 0 * 1 + 0 = 0; omega

/-- Slab `cc` of the stacked sums. -/
theorem sum_arr (cc : Fin 2) (g : Fin 256) (d : Fin 128) :
    ((dat0 V c).arrAt 2 cfg0.N : S2x256x128.Idx → EReal) (ix3 cc g d)
      = (accAt V c (123 * cc.val + 122) (lt_last cc)).1 (ix2 g d) := by
  have hf : (cfg0.win 2).flush (tLast cc) = true := (flush0_2 (tLast cc)).mpr (tLast_mod cc)
  have h := (dat0 V c).arrAt_emb_eq_flushed 2 disj0_2 (tLast cc) hf (ix3 (0 : Fin 1) g d : S1x256x128.Idx)
  refine (congrArg ((dat0 V c).arrAt 2 cfg0.N : S2x256x128.Idx → EReal) (emb0_2 cc g d).symm).trans (h.trans ?_)
  show (dat0 V c).after 2 (tLast cc) (ix3 (0 : Fin 1) g d) = _
  rw [after0_2]
  exact Cert.KernelIdeal.PayValue.pay6_apply _ g d

/-- Slab `cc` of the stacked counts. -/
theorem cnt_arr (cc : Fin 2) (g : Fin 256) :
    ((dat0 V c).arrAt 3 cfg0.N : S2x256x1.Idx → EReal) (ix3 cc g (0 : Fin 1))
      = (accAt V c (123 * cc.val + 122) (lt_last cc)).2 (ix2 g (0 : Fin 1)) := by
  have hf : (cfg0.win 3).flush (tLast cc) = true := (flush0_3 (tLast cc)).mpr (tLast_mod cc)
  have h := (dat0 V c).arrAt_emb_eq_flushed 3 disj0_3 (tLast cc) hf (ix3 (0 : Fin 1) g (0 : Fin 1) : S1x256x1.Idx)
  refine (congrArg ((dat0 V c).arrAt 3 cfg0.N : S2x256x1.Idx → EReal) (emb0_3 cc g).symm).trans (h.trans ?_)
  show (dat0 V c).after 3 (tLast cc) (ix3 (0 : Fin 1) g (0 : Fin 1)) = _
  rw [after0_3]
  exact Cert.KernelIdeal.PayValue.pay7_apply _ g

end Cert.KernelIdeal.OutValue

end
-- ==== Proof.Ideal.FinArr.lean ====
/-
  What the second region leaves in its output array: its one point writes back the value the body stores, and each of
  its six input windows' one block is the whole of its array.
-/
import proofs.«413057_j54305566490875_2_alg».proof.Proof.Ideal.Dat1
import Idealize.ShloMosaic.Lib.ValueIdx
import Idealize.ShloMosaic.Lib.Pipeline.Value

set_option maxRecDepth 16384

noncomputable section

namespace Cert.KernelIdeal.FinArr

open Cert.KernelIdeal Cert.KernelIdeal.Gen Cert.KernelIdeal.Hand
open Idealize.ShloMosaic Idealize.ShloMosaic.TcCoe Idealize.ShloMosaic.ValueIdx Idealize.SL.Sem
open scoped BigOperators

variable {F : FTy → Type} [FloatOps F]
variable (V : (c : Dev nD) → (b : Ref sig .tc) → Buf (Elt F) ((c : Thread nD τ).loc b)) (c : Dev nD)

/-! ## Each input window's one block is its whole array -/

/-- Window 0's block index at the one point is zero on every axis, so its offsets are zero. -/
theorem off1_0 (t : Fin cfg1.N) : (fun a => win1_0.index t a * main_v6_0.ty.shape.size a) = fun _ => 0 := by
  obtain rfl := fin_N1 t
  exact funext fun a => by fin_cases a <;> decide +kernel
theorem off1_1 (t : Fin cfg1.N) : (fun a => win1_1.index t a * main_v6_1.ty.shape.size a) = fun _ => 0 := by
  obtain rfl := fin_N1 t
  exact funext fun a => by fin_cases a <;> decide +kernel
theorem off1_2 (t : Fin cfg1.N) : (fun a => win1_2.index t a * main_arg2.ty.shape.size a) = fun _ => 0 := by
  obtain rfl := fin_N1 t
  exact funext fun a => by fin_cases a <;> decide +kernel
theorem off1_3 (t : Fin cfg1.N) : (fun a => win1_3.index t a * main_v3.ty.shape.size a) = fun _ => 0 := by
  obtain rfl := fin_N1 t
  exact funext fun a => by fin_cases a <;> decide +kernel
theorem off1_4 (t : Fin cfg1.N) : (fun a => win1_4.index t a * main_v4.ty.shape.size a) = fun _ => 0 := by
  obtain rfl := fin_N1 t
  exact funext fun a => by fin_cases a <;> decide +kernel
theorem off1_5 (t : Fin cfg1.N) : (fun a => win1_5.index t a * main_v5.ty.shape.size a) = fun _ => 0 := by
  obtain rfl := fin_N1 t
  exact funext fun a => by fin_cases a <;> decide +kernel
theorem off1_6 (t : Fin cfg1.N) : (fun a => win1_6.index t a * main_v7.ty.shape.size a) = fun _ => 0 := by
  obtain rfl := fin_N1 t
  exact funext fun a => by fin_cases a <;> decide +kernel

/-- A window's block read off its array, when the block is the whole array at zero offsets, is the array. -/
theorem iblk1_0 (t : Fin cfg1.N) : iblk1 V c 0 t = V c main_v6_0 :=
  Memref.read_access_unit_zero (Elt F) main_v6_0 (off1_0 t) (fun a => by rw [congrFun (off1_0 t) a]; simp) (V c main_v6_0)
theorem iblk1_1 (t : Fin cfg1.N) : iblk1 V c 1 t = V c main_v6_1 :=
  Memref.read_access_unit_zero (Elt F) main_v6_1 (off1_1 t) (fun a => by rw [congrFun (off1_1 t) a]; simp) (V c main_v6_1)
theorem iblk1_2 (t : Fin cfg1.N) : iblk1 V c 2 t = V c main_arg2 :=
  Memref.read_access_unit_zero (Elt F) main_arg2 (off1_2 t) (fun a => by rw [congrFun (off1_2 t) a]; simp) (V c main_arg2)
theorem iblk1_3 (t : Fin cfg1.N) : iblk1 V c 3 t = V c main_v3 :=
  Memref.read_access_unit_zero (Elt F) main_v3 (off1_3 t) (fun a => by rw [congrFun (off1_3 t) a]; simp) (V c main_v3)
theorem iblk1_4 (t : Fin cfg1.N) : iblk1 V c 4 t = V c main_v4 :=
  Memref.read_access_unit_zero (Elt F) main_v4 (off1_4 t) (fun a => by rw [congrFun (off1_4 t) a]; simp) (V c main_v4)
theorem iblk1_5 (t : Fin cfg1.N) : iblk1 V c 5 t = V c main_v5 :=
  Memref.read_access_unit_zero (Elt F) main_v5 (off1_5 t) (fun a => by rw [congrFun (off1_5 t) a]; simp) (V c main_v5)

/-! ## The output window: what its one point writes back, and that its block covers the array -/

/-- What the point writes back is `fin1` of the six input arrays, read through the output's block (which is the whole
    array, so the read changes nothing). -/
theorem flushed1_6 (t : Fin cfg1.N) :
    (dat1 V c).flushed 6 t = ((cfg1.win 6).blk t).view.read (Elt F)
      (fin1 (V c main_v6_0) (V c main_v6_1) (V c main_arg2) (V c main_v3) (V c main_v4) (V c main_v5)) := by
  show (cfg1.win 6).cut (grid1.coords t) ((dat1 V c).after 6 t) = _
  rw [after1_6, iblk1_0, iblk1_1, iblk1_2, iblk1_3, iblk1_4, iblk1_5]
  exact (Memref.read_access_unit_zero (Elt F) main_v7 (off1_6 t) (fun a => by rw [congrFun (off1_6 t) a]; simp) _).symm

/-- Every index of the output array lies in the one point's block. -/
theorem cover1_6 (i : ((cfg1.win 6).arr.view.loc ((c.tc : Thread nD τ))).2.ty.Idx) :
    ∃ t : Fin cfg1.N, (cfg1.win 6).flush t = true ∧ i ∈ ((cfg1.win 6).blk t).view.set := by
  refine ⟨t1_0, flush1_6 t1_0, ?_⟩
  show i ∈ ((View.whole main_v7).slice (win1_6.rect t1_0)).set
  rw [View.set_slice_whole]
  exact View.mem_set_unit_zero (off1_6 t1_0) (fun a => by rw [congrFun (off1_6 t1_0) a]; simp) i

/-- The output array after the region is `fin1` of the six input arrays as the region found them. -/
theorem out_arr :
    ((dat1 V c).arrAt 6 cfg1.N : S256x256.Idx → Elt F .f32)
      = fin1 (V c main_v6_0) (V c main_v6_1) (V c main_arg2) (V c main_v3) (V c main_v4) (V c main_v5) := by
  exact (dat1 V c).arrAt_eq_of_cover 6 _ (fun t _ => flushed1_6 V c t) (cover1_6 c)

end Cert.KernelIdeal.FinArr

end
-- ==== Proof.Ideal.FinValue.lean ====
/-
  The second kernel's value read at an index, over the extended reals: it is the shared tail of the two partial
  segment sums added and the two partial counts added.
-/
import proofs.«413057_j54305566490875_2_alg».proof.Proof.Ideal.Pure
import proofs.«413057_j54305566490875_2_alg».proof.Proof.Spec
import proofs.«413057_j54305566490875_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.FinValue

open Cert.KernelIdeal Cert.KernelIdeal.Gen Cert.KernelIdeal.Hand
open Idealize.ShloMosaic Idealize.ShloMosaic.ValueIdx
open scoped BigOperators

/-! ## Layout operations at an index: a column kept by a row reduction -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two slabs of a stacked pair -/

/-- The first slab of the stacked sums, read at `(0, g, d)`, is the stack at `(0, g, d)`. -/
theorem ld_sum0 (y0 : Vec Ideal S2x256x128 .f32) (g : Fin 256) (d : Fin 128) :
    View.ld y0 rSum0 (ix3 (0 : Fin 1) g d) = y0 (ix3 (0 : Fin 2) g d) := by
  show y0 _ = y0 _
  congr 1
  funext a
  apply Fin.ext
  match a with
  | ⟨0, _⟩ => rfl
  | ⟨1, _⟩ => show 0 + 1 * g.val = g.val; omega
  | ⟨2, _⟩ => show 0 + 1 * d.val = d.val; omega

/-- The second slab of the stacked sums, read at `(0, g, d)`, is the stack at `(1, g, d)`. -/
theorem ld_sum1 (y0 : Vec Ideal S2x256x128 .f32) (g : Fin 256) (d : Fin 128) :
    View.ld y0 rSum1 (ix3 (0 : Fin 1) g d) = y0 (ix3 (1 : Fin 2) g d) := by
  show y0 _ = y0 _
  congr 1
  funext a
  apply Fin.ext
  match a with
  | ⟨0, _⟩ => rfl
  | ⟨1, _⟩ => show 0 + 1 * g.val = g.val; omega
  | ⟨2, _⟩ => show 0 + 1 * d.val = d.val; omega

/-- The first slab of the stacked counts, read at `(0, g, 0)`, is the stack at `(0, g, 0)`. -/
theorem ld_cnt0 (y1 : Vec Ideal S2x256x1 .f32) (g : Fin 256) :
    View.ld y1 rCnt0 (ix3 (0 : Fin 1) g (0 : Fin 1)) = y1 (ix3 (0 : Fin 2) g (0 : Fin 1)) := by
  show y1 _ = y1 _
  congr 1
  funext a
  apply Fin.ext
  match a with
  | ⟨0, _⟩ => rfl
  | ⟨1, _⟩ => show 0 + 1 * g.val = g.val; omega
  | ⟨2, _⟩ => rfl

/-- The second slab of the stacked counts, read at `(0, g, 0)`, is the stack at `(1, g, 0)`. -/
theorem ld_cnt1 (y1 : Vec Ideal S2x256x1 .f32) (g : Fin 256) :
    View.ld y1 rCnt1 (ix3 (0 : Fin 1) g (0 : Fin 1)) = y1 (ix3 (1 : Fin 2) g (0 : Fin 1)) := by
  show y1 _ = y1 _
  congr 1
  funext a
  apply Fin.ext
  match a with
  | ⟨0, _⟩ => rfl
  | ⟨1, _⟩ => show 0 + 1 * g.val = g.val; omega
  | ⟨2, _⟩ => rfl

/-! ## The arithmetic stages, each over its inputs as variables -/

/-- A reciprocal square root at an index is the element's. -/
theorem rsqrt_apply {s : Shape} {φ : FTy} (a : FVec Ideal s φ) (i : s.Idx) : rsqrt a i = Ideal.rsqrt (a i) := rfl

/-- The source index a row reduction reads: `(i, k)` over the result index `i`. -/
theorem lift_row (h : S256x256.Reduces [1] S256) (i k : Fin 256) : h.lift (ix1 i) k = ix2 i k := by
  funext a
  apply Fin.ext
  match a with
  | ⟨0, _⟩ => rfl
  | ⟨1, _⟩ => rfl

/-- A row's sum kept as a column and divided by 256: the row's mean. -/
theorem rowMean_stage (hr : S256x256.Reduces [1] S256) (hc : S256.ShapeCasts S256x1) (hφ) (hacc)
    (v : FVec Ideal S256x256 .f32) (i : Fin 256) (u : Fin 1) :
    divf (shapeCast S256x1 (multiReduction (F := Ideal) .add [1] S256 v 0x00000000#32 hr hφ hacc) hc)
        (broadcast S256x1 (Scalar.ofBits (F := Ideal) .f32 0x43800000#32)) (ix2 i u)
      = Ideal.div (∑ j : Fin 256, v (ix2 i j)) Cert.Spec.c256 := by
  rw [divf_apply, shapeCast_a_a1_apply, Ideal.multiReduction_add_single]
  refine congrArg₂ Ideal.div (Finset.sum_congr rfl fun k _ => congrArg v ?_) rfl
  exact lift_row hr i k

/-- The squared deviations from a column, summed along each row and divided by 256. -/
theorem rowVar_stage (hr : S256x256.Reduces [1] S256) (hc : S256.ShapeCasts S256x1) (hφ) (hacc)
    (hb : S256x1.Broadcasts S256x256) (v : FVec Ideal S256x256 .f32) (m : FVec Ideal S256x1 .f32) (i : Fin 256) (u : Fin 1) :
    divf (shapeCast S256x1 (multiReduction (F := Ideal) .add [1] S256
            (mulf (subf v (broadcastTo S256x256 m hb)) (subf v (broadcastTo S256x256 m hb))) 0x00000000#32 hr hφ hacc) hc)
        (broadcast S256x1 (Scalar.ofBits (F := Ideal) .f32 0x43800000#32)) (ix2 i u)
      = Ideal.div (∑ j : Fin 256, (v (ix2 i j) - m (ix2 i (0 : Fin 1))) * (v (ix2 i j) - m (ix2 i (0 : Fin 1)))) Cert.Spec.c256 := by
  rw [rowMean_stage]
  refine congrArg₂ Ideal.div (Finset.sum_congr rfl fun k _ => ?_) rfl
  rw [mulf_apply, subf_apply, broadcastTo_a1_ab_apply]

/-- A block product into the zero accumulator contracted over one axis, whatever the operands' formats. -/
theorem matmul_zero_any_apply {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [Cert.LibPlainDot.eq_plain d hlc hrc hln hrn hlb hrb, Ideal.matmul_constant_zero_apply]
  exact Cert.LibPlainDot.plain_sum lhs rhs p q

/-! ## The payloads at an index -/

section Payloads
variable (v0 v2 : Vec Ideal S1x256x128 .f32) (v5 v7 : Vec Ideal S1x256x1 .f32) (w : Vec Ideal S128x256 .f32)
  (bias : Vec Ideal S1x256 .f32)

/-- The linear map of the means, plus the bias. -/
theorem k1_pay2_apply (i j : Fin 256) :
    k1_pay2 (F := Ideal) v0 v2 v5 v7 w bias (ix2 i j)
      = (∑ k : Fin 128, Ideal.div (v0 (ix3 (0 : Fin 1) i k) + v2 (ix3 (0 : Fin 1) i k))
            (max (v5 (ix3 (0 : Fin 1) i (0 : Fin 1)) + v7 (ix3 (0 : Fin 1) i (0 : Fin 1))) Cert.Spec.one) * w (ix2 k j))
        + bias (ix2 (0 : Fin 1) j) := by
  simp only [k1_pay2, matmul]
  rw [addf_apply, broadcastTo_1b_ab_apply, shapeCast_self, matmul_zero_any_apply _ rfl rfl rfl rfl rfl rfl]
  congr 1
  refine Finset.sum_congr rfl fun k _ => ?_
  rw [truncf_apply, truncf_apply, divf_apply, addf_apply, shapeCast_1ab_ab_apply, shapeCast_1ab_ab_apply,
    broadcastTo_a1_ab_apply, maximumf_apply, addf_apply, shapeCast_1ab_ab_apply, shapeCast_1ab_ab_apply, broadcast_apply]
  rfl

/-- Each row's mean, kept as a column. -/
theorem k1_pay3_apply (i : Fin 256) (u : Fin 1) :
    k1_pay3 (F := Ideal) v0 v2 v5 v7 w bias (ix2 i u)
      = Ideal.div (∑ j : Fin 256, k1_pay2 (F := Ideal) v0 v2 v5 v7 w bias (ix2 i j)) Cert.Spec.c256 :=
  rowMean_stage _ _ _ _ _ i u

/-- Each row's variance, kept as a column. -/
theorem k1_pay4_apply (i : Fin 256) (u : Fin 1) :
    k1_pay4 (F := Ideal) v0 v2 v5 v7 w bias (ix2 i u)
      = Ideal.div (∑ j : Fin 256,
            (k1_pay2 (F := Ideal) v0 v2 v5 v7 w bias (ix2 i j) - k1_pay3 (F := Ideal) v0 v2 v5 v7 w bias (ix2 i (0 : Fin 1)))
              * (k1_pay2 (F := Ideal) v0 v2 v5 v7 w bias (ix2 i j) - k1_pay3 (F := Ideal) v0 v2 v5 v7 w bias (ix2 i (0 : Fin 1))))
          Cert.Spec.c256 :=
  rowVar_stage _ _ _ _ _ _ _ i u

/-- The deviations from the row's mean. -/
theorem k1_pay5_apply (i j : Fin 256) :
    k1_pay5 (F := Ideal) v0 v2 v5 v7 w bias (ix2 i j)
      = k1_pay2 (F := Ideal) v0 v2 v5 v7 w bias (ix2 i j) - k1_pay3 (F := Ideal) v0 v2 v5 v7 w bias (ix2 i (0 : Fin 1)) := by
  simp only [k1_pay5]
  rw [subf_apply, broadcastTo_a1_ab_apply]

end Payloads

/-- The small constant, at every index. -/
theorem k1_pay6_apply (i : Fin 256) (u : Fin 1) : k1_pay6 (F := Ideal) (ix2 i u) = Cert.Spec.eps := rfl

/-- The normalisation: deviation times the reciprocal root, scaled and shifted column by column. -/
theorem k1_pay1_apply (v32 : FVec Ideal S256x1 .f32) (v34 : FVec Ideal S256x256 .f32) (v35 : FVec Ideal S256x1 .f32)
    (lw lb : Vec Ideal S1x256 .f32) (i j : Fin 256) :
    k1_pay1 (F := Ideal) v32 v34 v35 lw lb (ix2 i j)
      = v34 (ix2 i j) * Ideal.rsqrt (v32 (ix2 i (0 : Fin 1)) + v35 (ix2 i (0 : Fin 1))) * lw (ix2 (0 : Fin 1) j)
        + lb (ix2 (0 : Fin 1) j) := by
  simp only [k1_pay1]
  rw [addf_apply, mulf_apply, mulf_apply, broadcastTo_a1_ab_apply, rsqrt_apply, addf_apply, broadcastTo_1b_ab_apply,
    broadcastTo_1b_ab_apply, shapeCast_self, shapeCast_self]

/-! ## The stored value -/

/-- The second kernel's stored value at `(i, j)` is the tail of the added partial sums and counts. -/
theorem fin1_apply (y0 : Vec Ideal S2x256x128 .f32) (y1 : Vec Ideal S2x256x1 .f32) (w : Vec Ideal S128x256 .f32)
    (bias lw lb : Vec Ideal S1x256 .f32) (i j : Fin 256) :
    fin1 (F := Ideal) y0 y1 w bias lw lb (ix2 i j)
      = Cert.Spec.tail (fun g d => y0 (ix3 (0 : Fin 2) g d) + y0 (ix3 (1 : Fin 2) g d))
          (fun g => y1 (ix3 (0 : Fin 2) g (0 : Fin 1)) + y1 (ix3 (1 : Fin 2) g (0 : Fin 1)))
          (fun k j => w (ix2 k j)) (fun j => bias (ix2 (0 : Fin 1) j)) (fun j => lw (ix2 (0 : Fin 1) j))
          (fun j => lb (ix2 (0 : Fin 1) j)) i j := by
  have hL : ∀ p q : Fin 256,
      k1_pay2 (F := Ideal) (View.ld y0 rSum0) (View.ld y0 rSum1) (View.ld y1 rCnt0) (View.ld y1 rCnt1) w bias (ix2 p q)
        = Cert.Spec.lin (fun g d => y0 (ix3 (0 : Fin 2) g d) + y0 (ix3 (1 : Fin 2) g d))
            (fun g => y1 (ix3 (0 : Fin 2) g (0 : Fin 1)) + y1 (ix3 (1 : Fin 2) g (0 : Fin 1)))
            (fun k j => w (ix2 k j)) (fun j => bias (ix2 (0 : Fin 1) j)) p q := by
    intro p q
    rw [k1_pay2_apply, ld_cnt0, ld_cnt1]
    refine congrArg₂ (· + ·) (Finset.sum_congr rfl fun k _ => ?_) rfl
    rw [ld_sum0, ld_sum1]
    rfl
  show k1_pay1 (F := Ideal) _ _ _ lw lb (ix2 i j) = _
  rw [k1_pay1_apply, k1_pay5_apply, k1_pay4_apply, k1_pay3_apply, k1_pay6_apply]
  simp only [hL]
  rfl

end Cert.KernelIdeal.FinValue

end
-- ==== Proof.Ideal.KValue.lean ====
/-
  The idealized kernel's result is the shared function of the six argument arrays.

  What the second region writes back is its body's value of the six arrays it finds. Two of those are the first region's
  outputs: slab by slab, the accumulators after each core's last point, which add up to the segment sums and counts of
  the padded edges, that is of the edges. The other four are the weights and the three parameter vectors laid out as rows.
  So the value is the shared tail of the segment sums and counts.
-/
import proofs.«413057_j54305566490875_2_alg».proof.Proof.Ideal.Run
import proofs.«413057_j54305566490875_2_alg».proof.Proof.Ideal.HostValue
import proofs.«413057_j54305566490875_2_alg».proof.Proof.Ideal.AccValue
import proofs.«413057_j54305566490875_2_alg».proof.Proof.Ideal.OutValue
import proofs.«413057_j54305566490875_2_alg».proof.Proof.Ideal.FinArr
import proofs.«413057_j54305566490875_2_alg».proof.Proof.Ideal.FinValue
import proofs.«413057_j54305566490875_2_alg».proof.Proof.Spec

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx Idealize.SL.Sem
open scoped BigOperators

/-- The tail depends on its six arguments only through their values. -/
theorem tail_congr {S S' : Fin 256 → Fin 128 → EReal} {C C' : Fin 256 → EReal} {W W' : Fin 128 → Fin 256 → EReal}
    {b b' lw lw' lb lb' : Fin 256 → EReal} (hS : ∀ g d, S g d = S' g d) (hC : ∀ g, C g = C' g) (hW : ∀ k j, W k j = W' k j)
    (hb : ∀ j, b j = b' j) (hlw : ∀ j, lw j = lw' j) (hlb : ∀ j, lb j = lb' j) (i j : Fin 256) :
    Cert.Spec.tail S C W b lw lb i j = Cert.Spec.tail S' C' W' b' lw' lb' i j := by
  rw [show S = S' from funext fun g => funext (hS g), show C = C' from funext hC, show W = W' from funext fun k => funext (hW k),
    show b = b' from funext hb, show lw = lw' from funext hlw, show lb = lb' from funext hlb]

variable (m : (ℓ : Loc nD τ sig) → Buf (Elt Ideal) ℓ) (c : Dev nD)

/-- The six arrays the second region finds, at their literal types. -/
abbrev sumsArr : Vec Ideal S2x256x128 .f32 := Vr6 m c main_v6_0
abbrev cntsArr : Vec Ideal S2x256x1 .f32 := Vr6 m c main_v6_1
abbrev wArr : Vec Ideal S128x256 .f32 := Vr6 m c main_arg2
abbrev bRow : Vec Ideal S1x256 .f32 := Vr6 m c main_v3
abbrev lwRow : Vec Ideal S1x256 .f32 := Vr6 m c main_v4
abbrev lbRow : Vec Ideal S1x256 .f32 := Vr6 m c main_v5
/-- The six arguments, at their literal types. -/
abbrev a0 : Vec Ideal S2000000x128 .f32 := m ((c : Thread nD τ).loc main_arg0)
abbrev a1 : Vec Ideal S2000000 .i32 := m ((c : Thread nD τ).loc main_arg1)
abbrev a2 : Vec Ideal S128x256 .f32 := m ((c : Thread nD τ).loc main_arg2)
abbrev a3 : Vec Ideal S256 .f32 := m ((c : Thread nD τ).loc main_arg3)
abbrev a4 : Vec Ideal S256 .f32 := m ((c : Thread nD τ).loc main_arg4)
abbrev a5 : Vec Ideal S256 .f32 := m ((c : Thread nD τ).loc main_arg5)

/-- The stacked partial sums and counts the second region finds are what the first region's write-backs left. -/
theorem sums_eq : sumsArr m c = (dat0 (Vr5 m) c).arrAt 2 cfg0.N := (hF0 m c 2).symm
theorem cnts_eq : cntsArr m c = (dat0 (Vr5 m) c).arrAt 3 cfg0.N := (hF0 m c 3).symm

/-- The two slabs of the stacked partial sums add up to the segment sums. -/
theorem seg_sums (g : Fin 256) (d : Fin 128) :
    sumsArr m c (ix3 (0 : Fin 2) g d) + sumsArr m c (ix3 (1 : Fin 2) g d) = Cert.Spec.segSum (a0 m c) (a1 m c) g d := by
  rw [sums_eq, OutValue.sum_arr, OutValue.sum_arr]
  exact AccValue.acc_sum (Vr5 m) c _ _ (HostValue.v0_apply m c) (HostValue.v2_apply m c) g d

/-- The two slabs of the stacked partial counts add up to the segment counts. -/
theorem seg_cnts (g : Fin 256) :
    cntsArr m c (ix3 (0 : Fin 2) g (0 : Fin 1)) + cntsArr m c (ix3 (1 : Fin 2) g (0 : Fin 1)) = Cert.Spec.segCnt (a1 m c) g := by
  rw [cnts_eq, OutValue.cnt_arr, OutValue.cnt_arr]
  exact AccValue.acc_cnt (Vr5 m) c _ (HostValue.v2_apply m c) g

/-- The weights and the three parameter rows the second region finds are the arguments'. -/
theorem w_eq : wArr m c = a2 m c :=
  (W6_of_ne m c main_arg2 (by decide)).trans (HostValue.arg2_eq m c)
theorem b_eq (j : Fin 256) : bRow m c (ix2 (0 : Fin 1) j) = a3 m c (ix1 j) :=
  (congrFun (W6_of_ne m c main_v3 (by decide)) _).trans (HostValue.v3_apply m c j)
theorem lw_eq (j : Fin 256) : lwRow m c (ix2 (0 : Fin 1) j) = a4 m c (ix1 j) :=
  (congrFun (W6_of_ne m c main_v4 (by decide)) _).trans (HostValue.v4_apply m c j)
theorem lb_eq (j : Fin 256) : lbRow m c (ix2 (0 : Fin 1) j) = a5 m c (ix1 j) :=
  (congrFun (W6_of_ne m c main_v5 (by decide)) _).trans (HostValue.v5_apply m c j)

/-- What the second region's write-back leaves in the result array is the shared function of the arguments. -/
theorem out_eq_G :
    ((dat1 (Vr6 m) c).arrAt 6 cfg1.N : S256x256.Idx → EReal)
      = Cert.Spec.G (a0 m c) (a1 m c) (a2 m c) (a3 m c) (a4 m c) (a5 m c) := by
  rw [FinArr.out_arr]
  funext idx
  obtain ⟨i, j, rfl⟩ : ∃ (i : Fin 256) (j : Fin 256), idx = ix2 i j := ⟨idx 0, idx 1, eq_ix2 idx⟩
  refine (FinValue.fin1_apply (sumsArr m c) (cntsArr m c) (wArr m c) (bRow m c) (lwRow m c) (lbRow m c) i j).trans ?_
  exact tail_congr (seg_sums m c) (seg_cnts m c) (fun k j => congrFun (w_eq m c) (ix2 k j)) (b_eq m c) (lw_eq m c) (lb_eq m c) i j

end Cert.KernelIdeal.KValue

end
-- ==== Proof.LibScatterGather2.lean ====
/-
  The accumulating scatter and the gather of a table of rows by a column of index words, read at an index.

  Both operations here take an operand of `N` rows and `C` columns and an `M × 1` column of index words, one word per
  update (or result) row: row `e` names row `idx[e, 0]` of the operand, the word read as a SIGNED integer, and the
  columns go straight across.
    • The scatter adds update row `e` into the operand row its word names, column by column, and drops it when the
      word names no row; so element `(u, j)` ends as its old value plus the sum, over the update rows whose word read
      signed is `u`, of their column `j`.
    • The gather reads, at `(e, j)`, column `j` of the operand row `e`'s word names, the word clamped into
      `[0, N − 1]`; when the word is already below `N` (and `N` is at most half the word range, so that the signed
      reading is the unsigned one) that is the row at the word itself.
  Nothing here depends on the sizes: every step is about the two axes, never about the `N`, `M` or `C` positions.
-/
import Idealize.ShloMosaic.PureOps.Ideal
import Idealize.ShloMosaic.PureOps.ShapeOps
import Idealize.ShloMosaic.PureOps.Contract
import Idealize.ShloMosaic.Lib.ValueIdx

noncomputable section

namespace Cert.LibScatterGather2

open Idealize.ShloMosaic Idealize.ShloMosaic.ValueIdx

/-! ## The scatter -/

section Scatter

variable {N C M w : Nat}

/-- Where update index `jj` starts and how far into its window it sits, axis by axis: on the row axis the start is
    the index word of `jj`'s row, read signed, and the window coordinate is zero (the axis is inserted); on the column
    axis the start is zero (no word names it) and the window coordinate is `jj`'s column. -/
theorem start_window (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) :
    d.start jj idx 0 = (idx (ix2 (n0 := M) (n1 := 1) (jj 0) 0)).toInt ∧ d.start jj idx 1 = 0
      ∧ d.window jj 0 = 0 ∧ d.window jj 1 = (jj 1).val := by
  cases d with
  | mk uw iw sd iv wf =>
    obtain rfl : uw = [1] := huw
    obtain rfl : iw = [0] := hiw
    obtain rfl : sd = [0] := hsd
    obtain rfl : iv = 1 := hivd
    refine ⟨?_, ?_, ?_, ?_⟩
    · unfold ScatterDims.start
      rw [dif_pos (List.mem_singleton.mpr rfl)]
      refine congrArg (fun k => (idx k).toInt) ?_
      funext b
      match b with
      | ⟨0, _⟩ => exact Fin.ext rfl
      | ⟨1, _⟩ => exact Fin.ext rfl
    · unfold ScatterDims.start
      rw [dif_neg (by decide : (1 : Fin 2) ∉ [0])]
    · unfold ScatterDims.window
      exact dif_neg (by decide : (0 : Fin 2) ∉ (List.finRange 2).filter (· ∉ [0]))
    · unfold ScatterDims.window
      refine (dif_pos (by decide : (1 : Fin 2) ∈ (List.finRange 2).filter (· ∉ [0]))).trans ?_
      rfl

/-- Update index `jj` lands on element `i` exactly when its row's index word, read signed, is `i`'s row and its
    column is `i`'s column. -/
theorem resultIdx?_iff (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) (i : (⟨2, ![N, C]⟩ : Shape).Idx) :
    d.resultIdx? jj idx = some i
      ↔ (idx (ix2 (n0 := M) (n1 := 1) (jj 0) 0)).toInt = ((i 0).val : ℤ) ∧ (jj 1).val = (i 1).val := by
  obtain ⟨hs0, hs1, hw0, hw1⟩ := start_window d huw hiw hsd hivd idx jj
  have hi0 : (i 0).val < N := (i 0).isLt
  have hi1 : (i 1).val < C := (i 1).isLt
  have hj1 : (jj 1).val < C := (jj 1).isLt
  unfold ScatterDims.resultIdx?
  constructor
  · intro h
    split at h
    · rename_i hc
      have hf := Option.some.inj h
      have h0 : (d.start jj idx 0 + (d.window jj 0 : ℤ)).toNat = (i 0).val := congrArg (fun f => (f 0).val) hf
      have h1 : (d.start jj idx 1 + (d.window jj 1 : ℤ)).toNat = (i 1).val := congrArg (fun f => (f 1).val) hf
      have hc0 := (hc 0).1
      rw [hs0, hw0] at hc0 h0
      rw [hs1, hw1] at h1
      constructor
      · omega
      · omega
    · exact absurd h (by simp)
  · rintro ⟨h, h'⟩
    have hc : ∀ a : Fin 2, 0 ≤ d.start jj idx a + (d.window jj a : ℤ)
        ∧ d.start jj idx a + (d.window jj a : ℤ) < ((⟨2, ![N, C]⟩ : Shape).size a : ℤ) := by
      intro a
      match a with
      | ⟨0, _⟩ =>
        show 0 ≤ d.start jj idx 0 + (d.window jj 0 : ℤ) ∧ d.start jj idx 0 + (d.window jj 0 : ℤ) < (N : ℤ)
        rw [hs0, hw0, h]
        constructor <;> omega
      | ⟨1, _⟩ =>
        show 0 ≤ d.start jj idx 1 + (d.window jj 1 : ℤ) ∧ d.start jj idx 1 + (d.window jj 1 : ℤ) < (C : ℤ)
        rw [hs1, hw1]
        constructor <;> omega
    rw [dif_pos hc]
    refine congrArg some ?_
    funext a
    match a with
    | ⟨0, _⟩ =>
      apply Fin.ext
      show (d.start jj idx 0 + (d.window jj 0 : ℤ)).toNat = (i 0).val
      rw [hs0, hw0, h]; simp
    | ⟨1, _⟩ =>
      apply Fin.ext
      show (d.start jj idx 1 + (d.window jj 1 : ℤ)).toNat = (i 1).val
      rw [hs1, hw1]; simpa using h'

/-- The accumulating scatter at element `(u, j)`: the old value plus column `j` of the update rows whose word,
    read signed, is `u`. -/
theorem scatterAdd_apply {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ)
    (u : Fin N) (j : Fin C) :
    Host.scatterAdd (F := Ideal) d x idx upd (ix2 u j)
      = x (ix2 u j) + ∑ e ∈ Finset.univ.filter (fun e : Fin M => (idx (ix2 e (0 : Fin 1))).toInt = (u.val : ℤ)),
          upd (ix2 e j) := by
  show Ideal.hostScatterAdd d x idx upd (ix2 u j) = _
  unfold Ideal.hostScatterAdd
  refine congrArg (x (ix2 u j) + ·) ?_
  symm
  refine Finset.sum_bij (fun e _ => ix2 e j) ?_ ?_ ?_ (fun _ _ => rfl)
  · intro e he
    rw [Finset.mem_filter] at he ⊢
    exact ⟨Finset.mem_univ _, (resultIdx?_iff d huw hiw hsd hivd idx (ix2 e j) (ix2 u j)).mpr ⟨he.2, rfl⟩⟩
  · intro e _ e' _ h
    exact congrFun h 0
  · intro jj hjj
    rw [Finset.mem_filter] at hjj
    obtain ⟨h, h'⟩ := (resultIdx?_iff d huw hiw hsd hivd idx jj (ix2 u j)).mp hjj.2
    refine ⟨jj 0, Finset.mem_filter.mpr ⟨Finset.mem_univ _, h⟩, ?_⟩
    rw [eq_ix2 jj]
    refine congrArg (ix2 (jj 0)) (Fin.ext ?_)
    exact h'.symm

end Scatter

/-! ## The gather -/

section Gather

variable {α : Type} {N C M w : Nat}

/-- The gather at `(e, j)`, whatever the word: column `j` of the row at the word read signed and clamped. -/
theorem gather_apply_clamp (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C) (hN : 0 < N) :
    Host.gather d x idx (ix2 e j)
      = x (ix2 ⟨min (idx (ix2 e (0 : Fin 1))).toInt.toNat (N - 1), by omega⟩ j) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [1] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix2 e j) idx 0 + GatherDims.batchCoord _ (ix2 e j) 0 + GatherDims.offCoord _ (ix2 e j) 0
        = min (idx (ix2 e (0 : Fin 1))).toInt.toNat (N - 1)
      rw [GatherDims.batchCoord_eq_zero _ _ _ List.not_mem_nil,
        GatherDims.offCoord_eq_zero _ _ _ (by decide : (0 : Fin 2) ∉ (List.finRange 2).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl
    | ⟨1, _⟩ =>
      apply Fin.ext
      show GatherDims.start _ (ix2 e j) idx 1 + GatherDims.batchCoord _ (ix2 e j) 1 + GatherDims.offCoord _ (ix2 e j) 1
        = j.val
      rw [GatherDims.batchCoord_eq_zero _ _ _ List.not_mem_nil]
      simp only [Nat.add_zero]
      unfold GatherDims.start
      rw [dif_neg (by decide : (1 : Fin 2) ∉ [0]), Nat.zero_add]
      unfold GatherDims.offCoord
      refine (dif_pos (by decide : (1 : Fin 2) ∈ (List.finRange 2).filter (· ∉ [0] ++ []))).trans ?_
      rfl

/-- The gather at `(e, j)` when the word is a row's position: column `j` of that row. -/
theorem gather_apply (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C)
    (hN : 2 * N ≤ 2 ^ w) (h : (idx (ix2 e (0 : Fin 1))).toNat < N) :
    Host.gather d x idx (ix2 e j) = x (ix2 ⟨(idx (ix2 e (0 : Fin 1))).toNat, h⟩ j) := by
  have hN0 : 0 < N := by omega
  rw [gather_apply_clamp d hoff hcoll hob hsim hivd x idx e j hN0]
  refine congrArg x (congrArg (fun r => ix2 r j) (Fin.ext ?_))
  show min (idx (ix2 e (0 : Fin 1))).toInt.toNat (N - 1) = (idx (ix2 e (0 : Fin 1))).toNat
  rw [BitVec.toInt_eq_toNat_of_lt (by omega), Int.toNat_natCast]
  omega

end Gather

end Cert.LibScatterGather2

end
-- ==== Proof.LibCells.lean ====
/-
  Host scatters and gathers whose every update (or result) element is ONE scalar placed by index words, read at an
  index; and two columns of words joined side by side, read at an index.

    • A table of `N` entries and an `M × 1` column of index words, one scalar update per word: the accumulating scatter
      leaves at entry `u` its old value plus the sum of the updates whose word, read signed, is `u` (an update whose
      word names no entry is dropped).
    • A table of `N` rows and `C` columns and an `M × 2` array of index words (row word, column word), one scalar update
      per pair: the accumulating scatter leaves at cell `(u, v)` its old value plus the sum of the updates whose two
      words, read signed, are `u` and `v`.
    • The gather by such an `M × 2` array reads, at `e`, the table at the two words of `e`, each read signed and clamped
      into the table.
    • Two `M × 1` columns joined along the second axis: entry `(e, 0)` is the first column's, `(e, 1)` the second's.
  Nothing here depends on the sizes.
-/
import Idealize.ShloMosaic.PureOps.Ideal
import Idealize.ShloMosaic.PureOps.ShapeOps
import Idealize.ShloMosaic.PureOps.Contract
import Idealize.ShloMosaic.Lib.ValueIdx
import Idealize.ShloMosaic.Lib.Pipeline.Value

noncomputable section

namespace Cert.LibCells

open Idealize.ShloMosaic Idealize.ShloMosaic.ValueIdx
open scoped BigOperators

/-! ## Where an update lands, for any dimension numbers -/

/-- An update index lands on element `i` exactly when, on every operand axis, its start plus its window coordinate is
    `i`'s coordinate: the sum is then inside the operand because `i` is, and the landing index is read off it. -/
theorem resultIdx?_eq_some_iff {s si su : Shape} {w : Nat} (d : ScatterDims s si su) (idx : IVec si w) (jj : su.Idx)
    (i : s.Idx) :
    d.resultIdx? jj idx = some i ↔ ∀ a, d.start jj idx a + (d.window jj a : ℤ) = ((i a).val : ℤ) := by
  unfold ScatterDims.resultIdx?
  constructor
  · intro h a
    split at h
    · rename_i hin
      have hcoord : (d.start jj idx a + (d.window jj a : ℤ)).toNat = (i a).val :=
        congrArg (fun f => (f a).val) (Option.some.inj h)
      have hpos := (hin a).1
      omega
    · exact absurd h (by simp)
  · intro h
    have hin : ∀ a, 0 ≤ d.start jj idx a + (d.window jj a : ℤ)
        ∧ d.start jj idx a + (d.window jj a : ℤ) < (s.size a : ℤ) := by
      intro a
      have hlt := (i a).isLt
      rw [h a]
      constructor <;> omega
    rw [dif_pos hin]
    refine congrArg some (funext fun a => Fin.ext ?_)
    show (d.start jj idx a + (d.window jj a : ℤ)).toNat = (i a).val
    rw [h a]
    simp

/-- A sum over the rank-one indices below `M` that satisfy `p` is the sum over the positions `e < M` whose index
    `ix1 e` satisfies it: an index of rank one is its one coordinate. -/
theorem sum_filter_ix1 {M : Nat} {β : Type} [AddCommMonoid β] (p : (⟨1, ![M]⟩ : Shape).Idx → Prop) [DecidablePred p]
    (q : Fin M → Prop) [DecidablePred q] (hpq : ∀ e, p (ix1 e) ↔ q e) (f : (⟨1, ![M]⟩ : Shape).Idx → β) :
    ∑ jj ∈ Finset.univ.filter p, f jj = ∑ e ∈ Finset.univ.filter q, f (ix1 e) := by
  -- an index satisfies `p` exactly when its coordinate satisfies `q`
  have hp : ∀ jj : (⟨1, ![M]⟩ : Shape).Idx, p jj ↔ q (jj 0) := fun jj =>
    (iff_of_eq (congrArg p (eq_ix1 jj))).trans (hpq (jj 0))
  refine Finset.sum_nbij' (fun jj => (jj 0 : Fin M)) (fun e => ix1 e) ?_ ?_ ?_ ?_ ?_
  · intro jj hjj
    exact Finset.mem_filter.mpr ⟨Finset.mem_univ _, (hp jj).mp (Finset.mem_filter.mp hjj).2⟩
  · intro e he
    exact Finset.mem_filter.mpr ⟨Finset.mem_univ _, (hpq e).mpr (Finset.mem_filter.mp he).2⟩
  · intro jj _
    exact (eq_ix1 jj).symm
  · intro e _
    rfl
  · intro jj _
    exact congrArg f (eq_ix1 jj)

/-! ## One word per update: a table of entries -/

section Scatter1

variable {N M w : Nat}

/-- With the table's one axis inserted and named by the one word of a row: the start of update `jj` is the word of row
    `jj`, read signed, and its window coordinate is zero. -/
theorem start_window1 (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (idx : IVec ⟨2, ![M, 1]⟩ w) (jj : (⟨1, ![M]⟩ : Shape).Idx) :
    d.start jj idx 0 = (idx (ix2 (n0 := M) (n1 := 1) (jj 0) 0)).toInt ∧ d.window jj 0 = 0 := by
  cases d with
  | mk uw iw sd iv wf =>
    obtain rfl : uw = [] := huw
    obtain rfl : iw = [0] := hiw
    obtain rfl : sd = [0] := hsd
    obtain rfl : iv = 1 := hivd
    constructor
    · unfold ScatterDims.start
      rw [dif_pos (List.mem_singleton.mpr rfl)]
      refine congrArg (fun k => (idx k).toInt) (funext fun b => ?_)
      match b with
      | ⟨0, _⟩ => exact Fin.ext rfl
      | ⟨1, _⟩ => exact Fin.ext rfl
    · unfold ScatterDims.window
      exact dif_neg (by decide : (0 : Fin 1) ∉ (List.finRange 1).filter (· ∉ [0]))

/-- Update `jj` lands on entry `i` exactly when its word, read signed, is `i`'s position. -/
theorem lands1_iff (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (idx : IVec ⟨2, ![M, 1]⟩ w) (jj : (⟨1, ![M]⟩ : Shape).Idx)
    (i : (⟨1, ![N]⟩ : Shape).Idx) :
    d.resultIdx? jj idx = some i ↔ (idx (ix2 (n0 := M) (n1 := 1) (jj 0) 0)).toInt = ((i 0).val : ℤ) := by
  obtain ⟨hs, hw⟩ := start_window1 d huw hiw hsd hivd idx jj
  rw [resultIdx?_eq_some_iff]
  constructor
  · intro h
    have h0 := h 0
    rw [hs, hw] at h0
    simpa using h0
  · intro h a
    match a with
    | ⟨0, _⟩ =>
      show d.start jj idx 0 + (d.window jj 0 : ℤ) = ((i 0).val : ℤ)
      rw [hs, hw, h]
      simp

end Scatter1

/-- The accumulating scatter of scalars into a table of `N` entries by an `M × 1` column of words. -/
theorem scatterAdd1_apply {N M w : Nat} {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ) (u : Fin N) :
    Host.scatterAdd (F := Ideal) d x idx upd (ix1 u)
      = x (ix1 u) + ∑ e ∈ Finset.univ.filter (fun e : Fin M => (idx (ix2 e (0 : Fin 1))).toInt = (u.val : ℤ)),
          upd (ix1 e) := by
  show Ideal.hostScatterAdd d x idx upd (ix1 u) = _
  unfold Ideal.hostScatterAdd
  refine congrArg (x (ix1 u) + ·) ?_
  exact sum_filter_ix1 _ _ (fun e => lands1_iff d huw hiw hsd hivd idx (ix1 e) (ix1 u)) upd

/-! ## Two words per update: a table of cells -/

section Scatter2

variable {N C M w : Nat}

/-- With both of the table's axes inserted, the row axis named by a pair's first word and the column axis by its
    second: the starts of update `jj` are the two words of row `jj`, read signed, and both window coordinates are
    zero. -/
theorem start_window2 (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (idx : IVec ⟨2, ![M, 2]⟩ w) (jj : (⟨1, ![M]⟩ : Shape).Idx) :
    d.start jj idx 0 = (idx (ix2 (n0 := M) (n1 := 2) (jj 0) 0)).toInt
      ∧ d.start jj idx 1 = (idx (ix2 (n0 := M) (n1 := 2) (jj 0) 1)).toInt
      ∧ d.window jj 0 = 0 ∧ d.window jj 1 = 0 := by
  cases d with
  | mk uw iw sd iv wf =>
    obtain rfl : uw = [] := huw
    obtain rfl : iw = [0, 1] := hiw
    obtain rfl : sd = [0, 1] := hsd
    obtain rfl : iv = 1 := hivd
    refine ⟨?_, ?_, ?_, ?_⟩
    · unfold ScatterDims.start
      rw [dif_pos (by decide : (0 : Fin 2) ∈ [(0 : Fin 2), 1])]
      refine congrArg (fun k => (idx k).toInt) (funext fun b => ?_)
      match b with
      | ⟨0, _⟩ => exact Fin.ext rfl
      | ⟨1, _⟩ => exact Fin.ext rfl
    · unfold ScatterDims.start
      rw [dif_pos (by decide : (1 : Fin 2) ∈ [(0 : Fin 2), 1])]
      refine congrArg (fun k => (idx k).toInt) (funext fun b => ?_)
      match b with
      | ⟨0, _⟩ => exact Fin.ext rfl
      | ⟨1, _⟩ => exact Fin.ext rfl
    · unfold ScatterDims.window
      exact dif_neg (by decide : (0 : Fin 2) ∉ (List.finRange 2).filter (· ∉ [(0 : Fin 2), 1]))
    · unfold ScatterDims.window
      exact dif_neg (by decide : (1 : Fin 2) ∉ (List.finRange 2).filter (· ∉ [(0 : Fin 2), 1]))

/-- Update `jj` lands on cell `i` exactly when its two words, read signed, are `i`'s row and column. -/
theorem lands2_iff (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (idx : IVec ⟨2, ![M, 2]⟩ w) (jj : (⟨1, ![M]⟩ : Shape).Idx) (i : (⟨2, ![N, C]⟩ : Shape).Idx) :
    d.resultIdx? jj idx = some i
      ↔ (idx (ix2 (n0 := M) (n1 := 2) (jj 0) 0)).toInt = ((i 0).val : ℤ)
        ∧ (idx (ix2 (n0 := M) (n1 := 2) (jj 0) 1)).toInt = ((i 1).val : ℤ) := by
  obtain ⟨hs0, hs1, hw0, hw1⟩ := start_window2 d huw hiw hsd hivd idx jj
  rw [resultIdx?_eq_some_iff]
  constructor
  · intro h
    have h0 := h 0
    have h1 := h 1
    rw [hs0, hw0] at h0
    rw [hs1, hw1] at h1
    exact ⟨by simpa using h0, by simpa using h1⟩
  · rintro ⟨h0, h1⟩ a
    match a with
    | ⟨0, _⟩ =>
      show d.start jj idx 0 + (d.window jj 0 : ℤ) = ((i 0).val : ℤ)
      rw [hs0, hw0, h0]
      simp
    | ⟨1, _⟩ =>
      show d.start jj idx 1 + (d.window jj 1 : ℤ) = ((i 1).val : ℤ)
      rw [hs1, hw1, h1]
      simp

end Scatter2

/-- The accumulating scatter of scalars into a table of `N × C` cells by an `M × 2` array of (row, column) words. -/
theorem scatterAdd2_apply {N C M w : Nat} {φ : FTy} (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (x : FVec Ideal ⟨2, ![N, C]⟩ φ) (idx : IVec ⟨2, ![M, 2]⟩ w) (upd : FVec Ideal ⟨1, ![M]⟩ φ) (u : Fin N) (v : Fin C) :
    Host.scatterAdd (F := Ideal) d x idx upd (ix2 u v)
      = x (ix2 u v) + ∑ e ∈ Finset.univ.filter (fun e : Fin M =>
            (idx (ix2 e (0 : Fin 2))).toInt = (u.val : ℤ) ∧ (idx (ix2 e (1 : Fin 2))).toInt = (v.val : ℤ)),
          upd (ix1 e) := by
  show Ideal.hostScatterAdd d x idx upd (ix2 u v) = _
  unfold Ideal.hostScatterAdd
  refine congrArg (x (ix2 u v) + ·) ?_
  exact sum_filter_ix1 _ _ (fun e => lands2_iff d huw hiw hsd hivd idx (ix1 e) (ix2 u v)) upd

/-! ## The gather by two words -/

/-- The gather of scalars from a table of `N × C` cells by an `M × 2` array of (row, column) words: each word read
    signed and clamped into the table. -/
theorem gather2_apply {α : Type} {N C M w : Nat} (d : GatherDims ⟨2, ![N, C]⟩ ⟨2, ![M, 2]⟩ ⟨1, ![M]⟩)
    (hoff : d.offsetDims = []) (hcoll : d.collapsedSliceDims = [0, 1]) (hob : d.operandBatchingDims = [])
    (hsim : d.startIndexMap = [0, 1]) (hivd : d.indexVectorDim = 1)
    (x : (⟨2, ![N, C]⟩ : Shape).Idx → α) (idx : IVec ⟨2, ![M, 2]⟩ w) (e : Fin M) (hN : 0 < N) (hC : 0 < C) :
    Host.gather d x idx (ix1 e)
      = x (ix2 ⟨min (idx (ix2 e (0 : Fin 2))).toInt.toNat (N - 1), by omega⟩
               ⟨min (idx (ix2 e (1 : Fin 2))).toInt.toNat (C - 1), by omega⟩) := by
  -- both axes are collapsed, so the slice taken along each is one element
  have hsl0 : d.sliceSizes 0 = 1 := d.slice_collapsed 0 (by rw [hcoll]; exact List.mem_cons.mpr (Or.inl rfl))
  have hsl1 : d.sliceSizes 1 = 1 :=
    d.slice_collapsed 1 (by rw [hcoll]; exact List.mem_cons.mpr (Or.inr (List.mem_singleton.mpr rfl)))
  unfold Host.gather
  refine congrArg x ?_
  cases d with
  | mk od cd ob sb sm iv ss wf =>
    obtain rfl : od = [] := hoff
    obtain rfl : cd = [0, 1] := hcoll
    obtain rfl : ob = [] := hob
    obtain rfl : sm = [0, 1] := hsim
    obtain rfl : iv = 1 := hivd
    replace hsl0 : ss 0 = 1 := hsl0
    replace hsl1 : ss 1 = 1 := hsl1
    funext a
    match a with
    | ⟨0, _⟩ =>
      apply Fin.ext
      show GatherDims.start _ (ix1 e) idx 0 + GatherDims.batchCoord _ (ix1 e) 0 + GatherDims.offCoord _ (ix1 e) 0
        = min (idx (ix2 e (0 : Fin 2))).toInt.toNat (N - 1)
      rw [GatherDims.batchCoord_eq_zero _ _ _ List.not_mem_nil,
        GatherDims.offCoord_eq_zero _ _ _
          (by decide : (0 : Fin 2) ∉ (List.finRange 2).filter (· ∉ [(0 : Fin 2), 1] ++ []))]
      simp only [Nat.add_zero]
      unfold GatherDims.start
      rw [dif_pos (by decide : (0 : Fin 2) ∈ [(0 : Fin 2), 1])]
      show min (idx _).toInt.toNat (N - ss 0) = _
      rw [hsl0]
      refine congrArg (fun k => min (idx k).toInt.toNat (N - 1)) (funext fun b => ?_)
      match b with
      | ⟨0, _⟩ => exact Fin.ext rfl
      | ⟨1, _⟩ => exact Fin.ext rfl
    | ⟨1, _⟩ =>
      apply Fin.ext
      show GatherDims.start _ (ix1 e) idx 1 + GatherDims.batchCoord _ (ix1 e) 1 + GatherDims.offCoord _ (ix1 e) 1
        = min (idx (ix2 e (1 : Fin 2))).toInt.toNat (C - 1)
      rw [GatherDims.batchCoord_eq_zero _ _ _ List.not_mem_nil,
        GatherDims.offCoord_eq_zero _ _ _
          (by decide : (1 : Fin 2) ∉ (List.finRange 2).filter (· ∉ [(0 : Fin 2), 1] ++ []))]
      simp only [Nat.add_zero]
      unfold GatherDims.start
      rw [dif_pos (by decide : (1 : Fin 2) ∈ [(0 : Fin 2), 1])]
      show min (idx _).toInt.toNat (C - ss 1) = _
      rw [hsl1]
      refine congrArg (fun k => min (idx k).toInt.toNat (C - 1)) (funext fun b => ?_)
      match b with
      | ⟨0, _⟩ => exact Fin.ext rfl
      | ⟨1, _⟩ => exact Fin.ext rfl

/-! ## Two columns side by side -/

/-- Two `M × 1` columns joined along the second axis, at the first column. -/
theorem concat_cols_apply0 {α : Type} {M : Nat} (a b : (⟨2, ![M, 1]⟩ : Shape).Idx → α)
    (h : Shape.Concatenates [(⟨2, ![M, 1]⟩ : Shape), ⟨2, ![M, 1]⟩] ⟨2, ![M, 2]⟩ 1) (e : Fin M) :
    concatenate ⟨2, ![M, 2]⟩ 1 [⟨⟨2, ![M, 1]⟩, a⟩, ⟨⟨2, ![M, 1]⟩, b⟩] h (ix2 e (0 : Fin 2)) = a (ix2 e (0 : Fin 1)) := by
  -- position 0 along the joined axis is below the first column's extent 1: the first column, same coordinates
  refine concatenate_pair_apply_left 1 a b h (ix2 e (0 : Fin 2)) rfl (ix2 e (0 : Fin 1)) ?_
  intro c
  match c with
  | ⟨0, _⟩ => rfl
  | ⟨1, _⟩ => rfl

/-- Two `M × 1` columns joined along the second axis, at the second column. -/
theorem concat_cols_apply1 {α : Type} {M : Nat} (a b : (⟨2, ![M, 1]⟩ : Shape).Idx → α)
    (h : Shape.Concatenates [(⟨2, ![M, 1]⟩ : Shape), ⟨2, ![M, 1]⟩] ⟨2, ![M, 2]⟩ 1) (e : Fin M) :
    concatenate ⟨2, ![M, 2]⟩ 1 [⟨⟨2, ![M, 1]⟩, a⟩, ⟨⟨2, ![M, 1]⟩, b⟩] h (ix2 e (1 : Fin 2)) = b (ix2 e (0 : Fin 1)) := by
  -- position 1 along the joined axis is past the first column's extent 1: the second column at 1 − 1 = 0
  refine concatenate_pair_apply_right 1 a b h (ix2 e (1 : Fin 2)) rfl rfl (ix2 e (0 : Fin 1)) ?_ ?_
  · intro c hc
    match c with
    | ⟨0, _⟩ => rfl
    | ⟨1, _⟩ => exact absurd rfl hc
  · rfl

end Cert.LibCells

end
-- ==== Proof.RefValue.lean ====
/-
  The reference's result, read one operation at a time, is the shared function of the six argument arrays: its two
  accumulating scatters are the segment sums and counts, and the operations after them are the tail.
-/
import proofs.«413057_j54305566490875_2_alg».proof.Proof.Gen.ReferenceIdeal.Read
import proofs.«413057_j54305566490875_2_alg».proof.Proof.Spec
import proofs.«413057_j54305566490875_2_alg».proof.Proof.LibScatterGather2
import proofs.«413057_j54305566490875_2_alg».proof.Proof.LibCells
import proofs.«413057_j54305566490875_2_alg».proof.Proof.LibIdealReal

noncomputable section

namespace Cert.ReferenceIdeal.RefValue

open Cert.ReferenceIdeal Cert.ReferenceIdeal.Gen Cert.ReferenceIdeal.Read
open Idealize.ShloMosaic Idealize.ShloMosaic.ValueIdx
open scoped BigOperators

/-- Two indices of rank two agree when their coordinates do. -/
local macro "idx2_rfl" : tactic => `(tactic| (funext a; match a with | ⟨0, _⟩ => rfl | ⟨1, _⟩ => rfl))
/-- Two indices of rank one agree when their coordinate does. -/
local macro "idx1_rfl" : tactic => `(tactic| (funext a; match a with | ⟨0, _⟩ => rfl))

section Stages

variable (x0 : (⟨S2000000x128, .f32⟩ : BufTy).Contents (Elt Ideal)) (x1 : (⟨S2000000, .i32⟩ : BufTy).Contents (Elt Ideal))
  (x2 : (⟨S128x256, .f32⟩ : BufTy).Contents (Elt Ideal)) (x3 x4 x5 : (⟨S256, .f32⟩ : BufTy).Contents (Elt Ideal))

/-! ## The two scatters: segment sums and counts -/

/-- The column of index words at row `e` is the word of edge `e`. -/
theorem v1_apply (e : Fin 2000000) : val_main_v1 (F := Ideal) x1 (ix2 e (0 : Fin 1)) = x1 (ix1 e) := by
  rw [val_main_v1_apply]
  exact congrArg x1 (by idx1_rfl)

/-- The same column, built a second time for the counts. -/
theorem v5_apply (e : Fin 2000000) : val_main_v5 (F := Ideal) x1 (ix2 e (0 : Fin 1)) = x1 (ix1 e) := by
  rw [val_main_v5_apply]
  exact congrArg x1 (by idx1_rfl)

/-- The rows' scatter at `(p, q)` is the segment sum. -/
theorem v2_apply (p : Fin 256) (q : Fin 128) :
    val_main_v2 (F := Ideal) x0 x1 (ix2 p q) = Cert.Spec.segSum x0 x1 p q := by
  unfold val_main_v2
  rw [Cert.LibScatterGather2.scatterAdd_apply _ rfl rfl rfl rfl]
  rw [val_main_v0_apply, val_main_cst_apply, Ideal.ofBits_def, Ideal.ofBits_zero_f32, zero_add]
  unfold Cert.Spec.segSum
  simp only [v1_apply]

/-- The ones' scatter at `p` is the segment count. -/
theorem v6_apply (p : Fin 256) :
    val_main_v6 (F := Ideal) x1 (ix1 p) = Cert.Spec.segCnt x1 p := by
  unfold val_main_v6
  rw [Cert.LibCells.scatterAdd1_apply _ rfl rfl rfl rfl]
  rw [val_main_v4_apply, val_main_cst_1_apply, Ideal.ofBits_def, Ideal.ofBits_zero_f32, zero_add]
  unfold Cert.Spec.segCnt
  simp only [v5_apply, val_main_v3_apply, val_main_cst_0_apply, Ideal.ofBits_def, Cert.LibIdealReal.ofBits_one]

/-! ## The means -/

/-- The count taken as at least one. -/
theorem v8_apply (p : Fin 256) :
    val_main_v8 (F := Ideal) x1 (ix1 p) = max (Cert.Spec.segCnt x1 p) Cert.Spec.one := by
  rw [val_main_v8_apply, Ideal.maximumf_def, v6_apply, val_main_v7_apply, val_main_cst_2_apply, Ideal.ofBits_def]

/-- The same, spread along the 128 columns. -/
theorem v10_apply (p : Fin 256) (k : Fin 128) :
    val_main_v10 (F := Ideal) x1 (ix2 p k) = max (Cert.Spec.segCnt x1 p) Cert.Spec.one := by
  rw [val_main_v10_apply, val_main_v9_apply, ← v8_apply]
  exact congrArg (val_main_v8 (F := Ideal) x1) (by idx1_rfl)

/-- The quotient stage is the mean. -/
theorem v11_apply (p : Fin 256) (k : Fin 128) :
    val_main_v11 (F := Ideal) x0 x1 (ix2 p k) = Cert.Spec.mean (Cert.Spec.segSum x0 x1) (Cert.Spec.segCnt x1) p k := by
  rw [val_main_v11_apply, Ideal.hostDivf_def, v2_apply, v10_apply]
  rfl

/-! ## The linear map -/

/-- The linear stage as a function of the arguments: the means against the weights, plus the bias. -/
abbrev linOf : Fin 256 → Fin 256 → EReal :=
  Cert.Spec.lin (Cert.Spec.segSum x0 x1) (Cert.Spec.segCnt x1) (fun k j => x2 (ix2 k j)) (fun j => x3 (ix1 j))

/-- The contraction at `(i, j)`: row `i` of the means against column `j` of the weights. -/
theorem v12_apply (i j : Fin 256) :
    val_main_v12 (F := Ideal) x0 x1 x2 (ix2 i j)
      = ∑ k : Fin 128, Cert.Spec.mean (Cert.Spec.segSum x0 x1) (Cert.Spec.segCnt x1) i k * x2 (ix2 k j) := by
  rw [val_main_v12_apply]
  refine Finset.sum_congr rfl fun k _ => ?_
  rw [← v11_apply]
  exact congrArg₂ (fun a b => val_main_v11 (F := Ideal) x0 x1 a * x2 b) (by idx2_rfl) (by idx2_rfl)

/-- A vector of 256 spread along the rows reads its column's entry. -/
theorem v14_apply (i j : Fin 256) : val_main_v14 (F := Ideal) x3 (ix2 i j) = x3 (ix1 j) := by
  rw [val_main_v14_apply, val_main_v13_apply]
  exact congrArg x3 (by idx1_rfl)

/-- The contraction plus the bias is the linear stage. -/
theorem v15_apply (i j : Fin 256) :
    val_main_v15 (F := Ideal) x0 x1 x2 x3 (ix2 i j) = linOf x0 x1 x2 x3 i j := by
  rw [val_main_v15_apply, Ideal.addf_def, v12_apply, v14_apply]
  rfl

/-! ## The row mean -/

/-- A row of the linear stage summed over its 256 columns. -/
theorem v16_apply (i : Fin 256) :
    val_main_v16 (F := Ideal) x0 x1 x2 x3 (ix1 i) = ∑ j : Fin 256, linOf x0 x1 x2 x3 i j := by
  rw [val_main_v16_apply, val_main_cst_3_apply, Ideal.ofBits_def, Ideal.ofBits_zero_f32, zero_add]
  refine Finset.sum_congr rfl fun j _ => ?_
  rw [← v15_apply]
  exact congrArg (val_main_v15 (F := Ideal) x0 x1 x2 x3) (by idx2_rfl)

/-- The row sum over 256 is the row mean. -/
theorem v19_apply (i : Fin 256) :
    val_main_v19 (F := Ideal) x0 x1 x2 x3 (ix2 i (0 : Fin 1)) = Cert.Spec.rowMean (linOf x0 x1 x2 x3) i := by
  rw [val_main_v19_apply, Ideal.hostDivf_def, val_main_v17_apply, val_main_v18_apply, val_main_cst_4_apply,
    Ideal.ofBits_def]
  unfold Cert.Spec.rowMean
  rw [← v16_apply]
  exact congrArg (fun a => Ideal.div (val_main_v16 (F := Ideal) x0 x1 x2 x3 a) Cert.Spec.c256) (by idx1_rfl)

/-- The row mean spread along the columns. -/
theorem v20_apply (i j : Fin 256) :
    val_main_v20 (F := Ideal) x0 x1 x2 x3 (ix2 i j) = Cert.Spec.rowMean (linOf x0 x1 x2 x3) i := by
  rw [val_main_v20_apply, ← v19_apply]
  exact congrArg (val_main_v19 (F := Ideal) x0 x1 x2 x3) (by idx2_rfl)

/-- The same spread, built a second time. -/
theorem v27_apply (i j : Fin 256) :
    val_main_v27 (F := Ideal) x0 x1 x2 x3 (ix2 i j) = Cert.Spec.rowMean (linOf x0 x1 x2 x3) i := by
  rw [val_main_v27_apply, ← v19_apply]
  exact congrArg (val_main_v19 (F := Ideal) x0 x1 x2 x3) (by idx2_rfl)

/-! ## The row variance -/

/-- The deviation from the row mean. -/
theorem v21_apply (i j : Fin 256) :
    val_main_v21 (F := Ideal) x0 x1 x2 x3 (ix2 i j)
      = linOf x0 x1 x2 x3 i j - Cert.Spec.rowMean (linOf x0 x1 x2 x3) i := by
  rw [val_main_v21_apply, Ideal.subf_def, v15_apply, v20_apply]

/-- The same deviation, built a second time. -/
theorem v28_apply (i j : Fin 256) :
    val_main_v28 (F := Ideal) x0 x1 x2 x3 (ix2 i j)
      = linOf x0 x1 x2 x3 i j - Cert.Spec.rowMean (linOf x0 x1 x2 x3) i := by
  rw [val_main_v28_apply, Ideal.subf_def, v15_apply, v27_apply]

/-- The squared deviations summed along a row. -/
theorem v23_apply (i : Fin 256) :
    val_main_v23 (F := Ideal) x0 x1 x2 x3 (ix1 i)
      = ∑ j : Fin 256, (linOf x0 x1 x2 x3 i j - Cert.Spec.rowMean (linOf x0 x1 x2 x3) i)
          * (linOf x0 x1 x2 x3 i j - Cert.Spec.rowMean (linOf x0 x1 x2 x3) i) := by
  rw [val_main_v23_apply, val_main_cst_5_apply, Ideal.ofBits_def, Ideal.ofBits_zero_f32, zero_add]
  refine Finset.sum_congr rfl fun j _ => ?_
  rw [← v21_apply, show idx_main_v23 (ix1 i) j = ix2 i j from by idx2_rfl, val_main_v22_apply, Ideal.mulf_def]

/-- That sum over 256 is the row variance. -/
theorem v26_apply (i : Fin 256) :
    val_main_v26 (F := Ideal) x0 x1 x2 x3 (ix2 i (0 : Fin 1)) = Cert.Spec.rowVar (linOf x0 x1 x2 x3) i := by
  rw [val_main_v26_apply, Ideal.hostDivf_def, val_main_v24_apply, val_main_v25_apply, val_main_cst_6_apply,
    Ideal.ofBits_def]
  unfold Cert.Spec.rowVar
  rw [← v23_apply]
  exact congrArg (fun a => Ideal.div (val_main_v23 (F := Ideal) x0 x1 x2 x3 a) Cert.Spec.c256) (by idx1_rfl)

/-- The reciprocal square root of the variance plus the small constant. -/
theorem v31_apply (i : Fin 256) :
    val_main_v31 (F := Ideal) x0 x1 x2 x3 (ix2 i (0 : Fin 1))
      = Ideal.rsqrt (Cert.Spec.rowVar (linOf x0 x1 x2 x3) i + Cert.Spec.eps) := by
  rw [val_main_v31_apply, Ideal.hostUnary_rsqrt_def, val_main_v30_apply, Ideal.addf_def, v26_apply,
    val_main_v29_apply, val_main_cst_7_apply, Ideal.ofBits_def]

/-- The same spread along the columns. -/
theorem v32_apply (i j : Fin 256) :
    val_main_v32 (F := Ideal) x0 x1 x2 x3 (ix2 i j)
      = Ideal.rsqrt (Cert.Spec.rowVar (linOf x0 x1 x2 x3) i + Cert.Spec.eps) := by
  rw [val_main_v32_apply, ← v31_apply]
  exact congrArg (val_main_v31 (F := Ideal) x0 x1 x2 x3) (by idx2_rfl)

/-! ## Scale and shift -/

/-- The scale spread along the rows reads its column's entry. -/
theorem v35_apply (i j : Fin 256) : val_main_v35 (F := Ideal) x4 (ix2 i j) = x4 (ix1 j) := by
  rw [val_main_v35_apply, val_main_v34_apply]
  exact congrArg x4 (by idx1_rfl)

/-- The shift spread along the rows reads its column's entry. -/
theorem v38_apply (i j : Fin 256) : val_main_v38 (F := Ideal) x5 (ix2 i j) = x5 (ix1 j) := by
  rw [val_main_v38_apply, val_main_v37_apply]
  exact congrArg x5 (by idx1_rfl)

/-- The last stage at `(i, j)` is the normalised row, scaled and shifted. -/
theorem v39_apply (i j : Fin 256) :
    val_main_v39 (F := Ideal) x0 x1 x2 x3 x4 x5 (ix2 i j)
      = Cert.Spec.norm (linOf x0 x1 x2 x3) (fun j => x4 (ix1 j)) (fun j => x5 (ix1 j)) i j := by
  rw [val_main_v39_apply, Ideal.addf_def, val_main_v36_apply, Ideal.mulf_def, val_main_v33_apply, Ideal.mulf_def,
    v28_apply, v32_apply, v35_apply, v38_apply]
  rfl

end Stages

/-- The reference's last stage, as a function of the six arguments, is the shared function `Cert.Spec.G`. -/
theorem ref_eq_G (x0 : (⟨S2000000x128, .f32⟩ : BufTy).Contents (Elt Ideal)) (x1 : (⟨S2000000, .i32⟩ : BufTy).Contents (Elt Ideal))
    (x2 : (⟨S128x256, .f32⟩ : BufTy).Contents (Elt Ideal)) (x3 x4 x5 : (⟨S256, .f32⟩ : BufTy).Contents (Elt Ideal)) :
    val_main_v39 (F := Ideal) x0 x1 x2 x3 x4 x5 = Cert.Spec.G x0 x1 x2 x3 x4 x5 := by
  funext idx
  obtain ⟨i, j, rfl⟩ : ∃ i j, idx = ix2 i j := ⟨idx 0, idx 1, eq_ix2 idx⟩
  rw [v39_apply]
  rfl

open Idealize.ShloMosaic.TcCoe Idealize.SL.Sem in
/-- The run's result term is the shared function of the launch contents at the six argument locations. -/
theorem res_eq_G (m : (ℓ : Loc nD τ sig) → Buf (Elt Ideal) ℓ) (c : Dev nD) :
    Cert.ReferenceIdeal.Value.res_main_v39 (F := Ideal) m c
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (val_main_v39_eq m c).trans (ref_eq_G _ _ _ _ _ _)

end Cert.ReferenceIdeal.RefValue

end
-- ==== Proof.lean ====
/-
  Segment means of two million edge rows into 256 segments, a linear map to 256 columns and a row normalisation: the
  kernel against its reference, over the extended reals.

  The kernel pads the edges to 246 blocks of 8192 (zero rows under an index word that names no segment). Its first
  region runs 2 × 123 grid points: at each it compares the 256 segment numbers with the block's index words (both
  integers read as reals, so the comparison is exact), multiplies the resulting one-hot rows into the block of features and
  adds the product, and the one-hot rows' lane sums, into two accumulators kept in scratch; the accumulators restart at
  the first point of each half and are stored to the two outputs at its last. Its second region adds the two halves,
  divides sums by counts (at least one), applies the linear map and normalises each row. The reference scatters the rows
  and a vector of ones by the index words — an out-of-range word drops its row — and applies the same operations.
  Both are the same function of the six argument arrays (`Cert.Spec.G`): a sum over blocks of the rows whose word is `g` is
  the sum over the edges whose word is `g`, in any order and grouping, and no step needs the inputs to be finite.

  The frames: the two kernel programs run as seven items — five stretches of host operations and the two regions — each
  region's body run case by case (first, middle and last point of a half), the accumulators carried in the regions'
  invariant; the reference's frame is its run with the result dropped. The kernel's idealization rewrites nothing.
-/
import proofs.«413057_j54305566490875_2_alg».proof.Defs
import proofs.«413057_j54305566490875_2_alg».proof.Proof.Gen.Kernel
import proofs.«413057_j54305566490875_2_alg».proof.Proof.Gen.KernelIdeal
import proofs.«413057_j54305566490875_2_alg».proof.Proof.Gen.ReferenceIdeal
import proofs.«413057_j54305566490875_2_alg».proof.Proof.Gen.Pre_finite_inputs
import proofs.«413057_j54305566490875_2_alg».proof.Proof.Gen.ReferenceIdeal.Run
import proofs.«413057_j54305566490875_2_alg».proof.Proof.Bits.Run
import proofs.«413057_j54305566490875_2_alg».proof.Proof.Ideal.Run
import proofs.«413057_j54305566490875_2_alg».proof.Proof.Ideal.KValue
import proofs.«413057_j54305566490875_2_alg».proof.Proof.RefValue

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the shared function of the arguments in their result. -/
theorem algebraic : Cert.algebraic_KernelIdeal_ReferenceIdeal := by
  intro m ρ m' ρ' _ hagree
  refine ⟨fun c => Cert.Spec.G (Cert.KernelIdeal.KValue.a0 m c) (Cert.KernelIdeal.KValue.a1 m c) (Cert.KernelIdeal.KValue.a2 m c)
      (Cert.KernelIdeal.KValue.a3 m c) (Cert.KernelIdeal.KValue.a4 m c) (Cert.KernelIdeal.KValue.a5 m c), ?_, ?_⟩
  · exact (θ_run Cert.KernelIdeal.defs _ _).mono (fun _ h c => ⟨(h c).1.trans (Cert.KernelIdeal.KValue.out_eq_G m c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq_G, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
